-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S_ : Shape := ⟨0, ![]⟩
abbrev S1024 : Shape := ⟨1, ![1024]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S1024x256 : S_.BroadcastsInDim S1024x256 (![] : Fin 0 → Fin S1024x256.rank)
  reducesTo_S1024x256_S_d0_1 : S1024x256.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  reducesTo_S4096x1024_S1024_d0 : S4096x1024.ReducesTo [0] S1024
  bcast_S_S1024 : S_.BroadcastsInDim S1024 (![] : Fin 0 → Fin S1024.rank)
  reducesTo_S1024_S_d0 : S1024.ReducesTo [0] S_

variable [Facts]

def fn_part2 {F : FTy → Type} [FloatOps F] (main_arg2 : FVec F S4096x1024 .f32) (main_v33 : IVec S_ 1) : IVec S_ 1 :=
  let main_v34 : FVec F S4096x1024 .f32 := mulf main_arg2 main_arg2
  let main_cst_12 : FVec F S_ .f32 := constant S_ .f32 0x00000000#32
  let main_v35 : FVec F S1024 .f32 := (fun x v => Host.reduceAdd x v reducesTo_S4096x1024_S1024_d0 h_S_) main_v34 main_cst_12
  let main_cst_13 : FVec F S_ .f32 := constant S_ .f32 0x00000000#32
  let main_v36 : FVec F S1024 .f32 := broadcastInDim S1024 ![] bcast_S_S1024 main_cst_13
  let main_v37 : IVec S1024 1 := cmpf .ogt main_v35 main_v36
  let main_c_14 : IVec S_ 1 := constantI S_ 1 1#1
  let main_v38 : IVec S_ 1 := (fun x v => Host.reduce IntOp.andi x v reducesTo_S1024_S_d0 h_S_) main_v37 main_c_14
  let main_v39 : IVec S_ 1 := andi main_v33 main_v38
  main_v39

def fn_part1 {F : FTy → Type} [FloatOps F] (main_arg2 : FVec F S4096x1024 .f32) (main_arg4 : FVec F S256 .f32) (main_arg5 : FVec F S256x256 .f32) (main_arg6 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg2 main_v33

def fn {F : FTy → Type} [FloatOps F] (main_arg0 : FVec F S10000x256 .f32) (main_arg1 : FVec F S1024x256 .f32) (main_arg2 : FVec F S4096x1024 .f32) (main_arg3 : FVec F S256x256 .f32) (main_arg4 : FVec F S256 .f32) (main_arg5 : FVec F S256x256 .f32) (main_arg6 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S1024x256 .f32 := Host.absf main_arg1
  let main_cst_0 : FVec F S_ .f32 := constant S_ .f32 0x7F800000#32
  let main_v5 : FVec F S1024x256 .f32 := broadcastInDim S1024x256 ![] bcast_S_S1024x256 main_cst_0
  let main_v6 : IVec S1024x256 1 := cmpf .olt main_v4 main_v5
  let main_c_1 : IVec S_ 1 := constantI S_ 1 1#1
  let main_v7 : IVec S_ 1 := (fun x v => Host.reduce IntOp.andi x v reducesTo_S1024x256_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg2 main_arg4 main_arg5 main_arg6 main_v13 main_v16
-- ==== Kernel.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S1x256 : Shape := ⟨2, ![1, 256]⟩
abbrev S_ : Shape := ⟨0, ![]⟩
abbrev S1024x128 : Shape := ⟨2, ![1024, 128]⟩
abbrev S1024x1024 : Shape := ⟨2, ![1024, 1024]⟩
abbrev S2000x256 : Shape := ⟨2, ![2000, 256]⟩
abbrev S1024 : Shape := ⟨1, ![1024]⟩
abbrev S1024x1 : Shape := ⟨2, ![1024, 1]⟩
abbrev S2000x1024 : Shape := ⟨2, ![2000, 1024]⟩
abbrev S2000 : Shape := ⟨1, ![2000]⟩
abbrev S2000x1 : Shape := ⟨2, ![2000, 1]⟩
abbrev S2000x128 : Shape := ⟨2, ![2000, 128]⟩

abbrev nBuf : Space → Nat
  | .hbm => 12
  | .vmem => 15
  | .smem => 0
  | _ => 0

abbrev bufTy : (tb : Table) → Fin (tcTables nBuf tb) → BufTy
  | .hbm, ⟨0, _⟩ => ⟨S10000x256, .f32⟩
  | .hbm, ⟨1, _⟩ => ⟨S1024x256, .f32⟩
  | .hbm, ⟨2, _⟩ => ⟨S4096x1024, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S1x256, .f32⟩
  | .hbm, ⟨8, _⟩ => ⟨S1x256, .f32⟩
  | .hbm, ⟨9, _⟩ => ⟨S_, .bf16⟩
  | .hbm, ⟨10, _⟩ => ⟨S1024x128, .bf16⟩
  | .hbm, ⟨11, _⟩ => ⟨S10000x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S256x256, .f32⟩
  | .local _ .vmem, ⟨4, _⟩ => ⟨S1x256, .f32⟩
  | .local _ .vmem, ⟨5, _⟩ => ⟨S2000x256, .f32⟩
  | .local _ .vmem, ⟨6, _⟩ => ⟨S2000x256, .f32⟩
  | .local _ .vmem, ⟨7, _⟩ => ⟨S256x256, .f32⟩
  | .local _ .vmem, ⟨8, _⟩ => ⟨S1x256, .f32⟩
  | .local _ .vmem, ⟨9, _⟩ => ⟨S1024x128, .bf16⟩
  | .local _ .vmem, ⟨10, _⟩ => ⟨S2000x256, .f32⟩
  | .local _ .vmem, ⟨11, _⟩ => ⟨S2000x256, .f32⟩
  | .local _ .vmem, ⟨12, _⟩ => ⟨S1024x1024, .f32⟩
  | .local _ .vmem, ⟨13, _⟩ => ⟨S1024x256, .bf16⟩
  | .local _ .vmem, ⟨14, _⟩ => ⟨S1024x256, .bf16⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![9], ![false]⟩

def k0_cond4 (i : grid0.Coords) : BitVec 1 :=
  let arg0 : BitVec 32 := BitVec.ofNat 32 (i 0).val
  let c4_i32_4 : BitVec 32 := 4#32
  let v11 : BitVec 1 := Scalar.cmpi .sge arg0 c4_i32_4
  let v12 : BitVec 32 := Scalar.extui v11
  let c0_i32_5 : BitVec 32 := 0#32
  let v13 : BitVec 1 := Scalar.cmpi .ne v12 c0_i32_5
  v13

def cc0_transform_0 (i : grid0.Coords) : Fin 2 → Nat :=
  let arg0 : BitVec 32 := BitVec.ofNat 32 (i 0).val
  let c3_i32 : BitVec 32 := 3#32
  let v0 : BitVec 32 := Scalar.minsi arg0 c3_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c4_i32 : BitVec 32 := 4#32
  let v0 : BitVec 32 := Scalar.subi arg0 c4_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2000x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S256_S1x256 : S256.ShapeCasts S1x256
  bcast_S_S1024x128 : S_.BroadcastsInDim S1024x128 (![] : Fin 0 → Fin S1024x128.rank)
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  reduces_S1024x1024_S1024 : S1024x1024.Reduces [0] S1024
  shapeCasts_S1024_S1024x1 : S1024.ShapeCasts S1024x1
  inb_S1024x256_S1024x256_0_0 : ∀ a, (![0, 0] : Fin 2 → Nat) a + S1024x256.size a ≤ S1024x256.size a
  h_S1024x256 : 0 < S1024x256.numel
  broadcasts_S1024x1_S1024x256 : S1024x1.Broadcasts S1024x256
  shapeCasts_S1024x256_S1024x256 : S1024x256.ShapeCasts S1024x256
  packedbf16_S1024x256_S1024x256_0_0 : (Rect.unit (s := S1024x256) ![0, 0] S1024x256.size inb_S1024x256_S1024x256_0_0).PackedRows (EltTy.packing .bf16)
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S2000x256_S2000x256_0_0 : ∀ a, (![0, 0] : Fin 2 → Nat) a + S2000x256.size a ≤ S2000x256.size a
  h_S2000x256 : 0 < S2000x256.numel
  broadcasts_S1x256_S2000x256 : S1x256.Broadcasts S2000x256
  reduces_S2000x1024_S2000 : S2000x1024.Reduces [1] S2000
  shapeCasts_S2000_S2000x1 : S2000.ShapeCasts S2000x1
  broadcasts_S2000x1_S2000x1024 : S2000x1.Broadcasts S2000x1024
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  slices_S2000x128_o0_0_S2000x1 : S2000x128.Slices ![0, 0] S2000x1
  broadcasts_S2000x1_S2000x256 : S2000x1.Broadcasts S2000x256
  dot_S1024x1024_S1024x1024_S1024x1024_0_0_1_1_n_n_wf : DotDims.WF S1024x1024 S1024x1024 S1024x1024 [0] [0] [1] [1] [] []
  dot_S1024x1024_S1024x256_S1024x256_1_0_0_1_n_n_wf : DotDims.WF S1024x1024 S1024x256 S1024x256 [1] [0] [0] [1] [] []
  dot_S1024x256_S256x256_S1024x256_1_1_0_0_n_n_wf : DotDims.WF S1024x256 S256x256 S1024x256 [1] [1] [0] [0] [] []
  dot_S2000x256_S256x256_S2000x256_1_1_0_0_n_n_wf : DotDims.WF S2000x256 S256x256 S2000x256 [1] [1] [0] [0] [] []
  dot_S2000x256_S1024x256_S2000x1024_1_1_0_0_n_n_wf : DotDims.WF S2000x256 S1024x256 S2000x1024 [1] [1] [0] [0] [] []
  dot_S2000x1024_S1024x256_S2000x256_1_0_0_1_n_n_wf : DotDims.WF S2000x1024 S1024x256 S2000x256 [1] [0] [0] [1] [] []
  dot_S2000x1024_S1024x128_S2000x128_1_0_0_1_n_n_wf : DotDims.WF S2000x1024 S1024x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .f32 = 32 ∨ (Rect.block (s := S1024x256) S1024x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x256.size a ≤ S10000x256.size a
  hwx0_4 : ∀ i : grid0.Coords, EltTy.bits .f32 = 32 ∨ (Rect.block (s := S10000x256) S2000x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .f32 = 32 ∨ (Rect.block (s := S256x256) S256x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S1024x128.size a
  hwx0_7 : ∀ i : grid0.Coords, EltTy.bits .bf16 = 32 ∨ (Rect.block (s := S1024x128) S1024x128.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x256.size a ≤ S10000x256.size a
  hwx0_8 : ∀ i : grid0.Coords, EltTy.bits .f32 = 32 ∨ (Rect.block (s := S10000x256) S2000x256.size (cc0_transform_8 i) (hinb0_8 i)).WholeWords (EltTy.packing .f32)

variable [Facts₀]

def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S1024x256_S256x256_S1024x256_1_1_0_0_n_n : DotDims S1024x256 S256x256 S1024x256 where
  lhsContracting := [1]
  rhsContracting := [1]
  lhsNonContracting := [0]
  rhsNonContracting := [0]
  lhsBatch := []
  rhsBatch := []
  wf := dot_S1024x256_S256x256_S1024x256_1_1_0_0_n_n_wf
def dot_S2000x256_S256x256_S2000x256_1_1_0_0_n_n : DotDims S2000x256 S256x256 S2000x256 where
  lhsContracting := [1]
  rhsContracting := [1]
  lhsNonContracting := [0]
  rhsNonContracting := [0]
  lhsBatch := []
  rhsBatch := []
  wf := dot_S2000x256_S256x256_S2000x256_1_1_0_0_n_n_wf
def dot_S2000x256_S1024x256_S2000x1024_1_1_0_0_n_n : DotDims S2000x256 S1024x256 S2000x1024 where
  lhsContracting := [1]
  rhsContracting := [1]
  lhsNonContracting := [0]
  rhsNonContracting := [0]
  lhsBatch := []
  rhsBatch := []
  wf := dot_S2000x256_S1024x256_S2000x1024_1_1_0_0_n_n_wf
def dot_S2000x1024_S1024x256_S2000x256_1_0_0_1_n_n : DotDims S2000x1024 S1024x256 S2000x256 where
  lhsContracting := [1]
  rhsContracting := [0]
  lhsNonContracting := [0]
  rhsNonContracting := [1]
  lhsBatch := []
  rhsBatch := []
  wf := dot_S2000x1024_S1024x256_S2000x256_1_0_0_1_n_n_wf
def dot_S2000x1024_S1024x128_S2000x128_1_0_0_1_n_n : DotDims S2000x1024 S1024x128 S2000x128 where
  lhsContracting := [1]
  rhsContracting := [0]
  lhsNonContracting := [0]
  rhsNonContracting := [1]
  lhsBatch := []
  rhsBatch := []
  wf := dot_S2000x1024_S1024x128_S2000x128_1_0_0_1_n_n_wf

abbrev win0_0 : Pipeline.Window sig grid0 :=
  Pipeline.Window.ofSpec (Memref.whole main_arg2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg0) S2000x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1024x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S2000x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond4 i == 1#1) | ⟨_ + 9, h⟩ => absurd h (Nat.not_lt.2 (Nat.le_add_left _ _))

class Facts : Prop extends Facts₀ where

variable [Facts]
-- ==== ReferenceIdeal.lean ====
abbrev S10000x256 : Shape := ⟨2, ![10000, 256]⟩
abbrev S1024x256 : Shape := ⟨2, ![1024, 256]⟩
abbrev S4096x1024 : Shape := ⟨2, ![4096, 1024]⟩
abbrev S256x256 : Shape := ⟨2, ![256, 256]⟩
abbrev S256 : Shape := ⟨1, ![256]⟩
abbrev S1x256 : Shape := ⟨2, ![1, 256]⟩
abbrev S256x1024 : Shape := ⟨2, ![256, 1024]⟩
abbrev S10000x1024 : Shape := ⟨2, ![10000, 1024]⟩
abbrev S_ : Shape := ⟨0, ![]⟩
abbrev S10000 : Shape := ⟨1, ![10000]⟩
abbrev S10000x1 : Shape := ⟨2, ![10000, 1]⟩
abbrev S1024x4096 : Shape := ⟨2, ![1024, 4096]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S1024x256, .f32⟩
  | .hbm, ⟨2, _⟩ => ⟨S4096x1024, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S10000x256, .f32⟩
  | .hbm, ⟨9, _⟩ => ⟨S1x256, .f32⟩
  | .hbm, ⟨10, _⟩ => ⟨S10000x256, .f32⟩
  | .hbm, ⟨11, _⟩ => ⟨S10000x256, .f32⟩
  | .hbm, ⟨12, _⟩ => ⟨S256x256, .f32⟩
  | .hbm, ⟨13, _⟩ => ⟨S1024x256, .f32⟩
  | .hbm, ⟨14, _⟩ => ⟨S1x256, .f32⟩
  | .hbm, ⟨15, _⟩ => ⟨S1024x256, .f32⟩
  | .hbm, ⟨16, _⟩ => ⟨S1024x256, .f32⟩
  | .hbm, ⟨17, _⟩ => ⟨S256x1024, .f32⟩
  | .hbm, ⟨18, _⟩ => ⟨S10000x1024, .f32⟩
  | .hbm, ⟨19, _⟩ => ⟨S_, .f32⟩
  | .hbm, ⟨20, _⟩ => ⟨S10000x1024, .f32⟩
  | .hbm, ⟨21, _⟩ => ⟨S10000x1024, .f32⟩
  | .hbm, ⟨22, _⟩ => ⟨S_, .f32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .f32⟩
  | .hbm, ⟨27, _⟩ => ⟨S10000x1, .f32⟩
  | .hbm, ⟨28, _⟩ => ⟨S10000x1024, .f32⟩
  | .hbm, ⟨29, _⟩ => ⟨S10000x1024, .f32⟩
  | .hbm, ⟨30, _⟩ => ⟨S10000x1024, .f32⟩
  | .hbm, ⟨31, _⟩ => ⟨S_, .f32⟩
  | .hbm, ⟨32, _⟩ => ⟨S10000, .f32⟩
  | .hbm, ⟨33, _⟩ => ⟨S10000x1, .f32⟩
  | .hbm, ⟨34, _⟩ => ⟨S10000x1024, .f32⟩
  | .hbm, ⟨35, _⟩ => ⟨S10000x1024, .f32⟩
  | .hbm, ⟨36, _⟩ => ⟨S1024x4096, .f32⟩
  | .hbm, ⟨37, _⟩ => ⟨S1024x1024, .f32⟩
  | .hbm, ⟨38, _⟩ => ⟨S1024x1024, .f32⟩
  | .hbm, ⟨39, _⟩ => ⟨S_, .f32⟩
  | .hbm, ⟨40, _⟩ => ⟨S1024, .f32⟩
  | .hbm, ⟨41, _⟩ => ⟨S1x1024, .f32⟩
  | .hbm, ⟨42, _⟩ => ⟨S1024x1024, .f32⟩
  | .hbm, ⟨43, _⟩ => ⟨S1024x1024, .f32⟩
  | .hbm, ⟨44, _⟩ => ⟨S1024x256, .f32⟩
  | .hbm, ⟨45, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩

abbrev nD : Nat := 1
abbrev τ : Topo := Topo.v7x

variable {F : FTy → Type} [FloatOps F]

class Facts₀ : Prop where
  transposes_S256x256_S256x256_1_0 : S256x256.Transposes [1, 0] S256x256
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S1x256_S1024x256_0_1 : S1x256.BroadcastsInDim S1024x256 (![0, 1] : Fin 2 → Fin S1024x256.rank)
  transposes_S1024x256_S256x1024_1_0 : S1024x256.Transposes [1, 0] S256x1024
  bcast_S_S10000x1024 : S_.BroadcastsInDim S10000x1024 (![] : Fin 0 → Fin S10000x1024.rank)
  reducesTo_S10000x1024_S10000_d1 : S10000x1024.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x1024_0_1 : S10000x1.BroadcastsInDim S10000x1024 (![0, 1] : Fin 2 → Fin S10000x1024.rank)
  transposes_S4096x1024_S1024x4096_1_0 : S4096x1024.Transposes [1, 0] S1024x4096
  reducesTo_S1024x1024_S1024_d0 : S1024x1024.ReducesTo [0] S1024
  bcast_S1024_S1x1024_1 : S1024.BroadcastsInDim S1x1024 (![1] : Fin 1 → Fin S1x1024.rank)
  bcast_S1x1024_S1024x1024_0_1 : S1x1024.BroadcastsInDim S1024x1024 (![0, 1] : Fin 2 → Fin S1024x1024.rank)
  dot_S10000x256_S256x256_S10000x256_1_0_0_1_n_n_wf : DotDims.WF S10000x256 S256x256 S10000x256 [1] [0] [0] [1] [] []
  dot_S1024x256_S256x256_S1024x256_1_0_0_1_n_n_wf : DotDims.WF S1024x256 S256x256 S1024x256 [1] [0] [0] [1] [] []
  dot_S10000x256_S256x1024_S10000x1024_1_0_0_1_n_n_wf : DotDims.WF S10000x256 S256x1024 S10000x1024 [1] [0] [0] [1] [] []
  dot_S1024x4096_S4096x1024_S1024x1024_1_0_0_1_n_n_wf : DotDims.WF S1024x4096 S4096x1024 S1024x1024 [1] [0] [0] [1] [] []
  dot_S1024x1024_S1024x256_S1024x256_1_0_0_1_n_n_wf : DotDims.WF S1024x1024 S1024x256 S1024x256 [1] [0] [0] [1] [] []
  dot_S10000x1024_S1024x256_S10000x256_1_0_0_1_n_n_wf : DotDims.WF S10000x1024 S1024x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S10000x256_S256x1024_S10000x1024_1_0_0_1_n_n : DotDims S10000x256 S256x1024 S10000x1024 where
  lhsContracting := [1]
  rhsContracting := [0]
  lhsNonContracting := [0]
  rhsNonContracting := [1]
  lhsBatch := []
  rhsBatch := []
  wf := dot_S10000x256_S256x1024_S10000x1024_1_0_0_1_n_n_wf
def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf
def dot_S10000x1024_S1024x256_S10000x256_1_0_0_1_n_n : DotDims S10000x1024 S1024x256 S10000x256 where
  lhsContracting := [1]
  rhsContracting := [0]
  lhsNonContracting := [0]
  rhsNonContracting := [1]
  lhsBatch := []
  rhsBatch := []
  wf := dot_S10000x1024_S1024x256_S10000x256_1_0_0_1_n_n_wf

class Facts : Prop extends Facts₀ where

variable [Facts]
-- ==== Proof.BitsBodyCases.lean ====
/-
  The grid of the one kernel call has nine points. Its body has four guarded blocks, guarded by conditions on the point
  number `t`: `t = 0` (the Gram accumulator is set from the first chunk), `0 < t < 4` (a chunk is added to it), `t = 3`
  (the accumulator is turned into the mixed rows and the scaled keys) and `4 ≤ t` (a block of output rows is computed).
  So four cases occur: A at point 0, B at points 1 and 2, C at point 3 (two blocks run), D at points 4 to 8.
  Here: the conditions decided over the nine points, where the output window is idle and where it is written back, the
  staging buffers the body is called with, and the three scratch buffers it keeps between points.
-/
import proofs.«117169_g52209622450808_cont_9to1_m_767_13_alg».proof.Proof.Gen.Kernel.Frame
import proofs.«117169_g52209622450808_cont_9to1_m_767_13_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four conditions, over the grid -/

/-- The first block's guard: the point number is 0. -/
abbrev cond1 (i : grid0.Coords) : Prop := (Scalar.cmpi .ne (Scalar.extui (Scalar.cmpi .eq (BitVec.ofNat 32 (i 0).val) 0#32)) 0#32) = 1#1
theorem hcond1 : ∀ t : Fin cfg0.N, cond1 (grid0.coords t) ↔ t.val = 0 :=
  (by decide +kernel : ∀ t : Fin grid0.N, cond1 (grid0.coords t) ↔ t.val = 0)

/-- The second block's guard: the point number is strictly between 0 and 4. -/
abbrev cond2 (i : grid0.Coords) : Prop := (Scalar.cmpi .ne (Scalar.extui (Scalar.andi (Scalar.cmpi .sgt (BitVec.ofNat 32 (i 0).val) 0#32) (Scalar.cmpi .slt (BitVec.ofNat 32 (i 0).val) 4#32))) 0#32) = 1#1
theorem hcond2 : ∀ t : Fin cfg0.N, cond2 (grid0.coords t) ↔ (1 ≤ t.val ∧ t.val ≤ 3) :=
  (by decide +kernel : ∀ t : Fin grid0.N, cond2 (grid0.coords t) ↔ (1 ≤ t.val ∧ t.val ≤ 3))

/-- The third block's guard: the point number is 3. -/
abbrev cond3 (i : grid0.Coords) : Prop := (Scalar.cmpi .ne (Scalar.extui (Scalar.cmpi .eq (BitVec.ofNat 32 (i 0).val) 3#32)) 0#32) = 1#1
theorem hcond3 : ∀ t : Fin cfg0.N, cond3 (grid0.coords t) ↔ t.val = 3 :=
  (by decide +kernel : ∀ t : Fin grid0.N, cond3 (grid0.coords t) ↔ t.val = 3)

/-- The fourth block's guard: the point number is at least 4. -/
abbrev cond4 (i : grid0.Coords) : Prop := k0_cond4 i = 1#1
theorem hcond4 : ∀ t : Fin cfg0.N, cond4 (grid0.coords t) ↔ 4 ≤ t.val :=
  (by decide +kernel : ∀ t : Fin grid0.N, cond4 (grid0.coords t) ↔ 4 ≤ t.val)

theorem N9 : cfg0.N = 9 := N_0

/-! ## Where the windows are idle, and where the output block is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- Before point 4 nothing is stored into the output window: it is idle there … -/
theorem idle8 : ∀ t : Fin cfg0.N, ¬cond4 (grid0.coords t) → cfg0.idle 8 (grid0.coords t) = true := by decide +kernel
/-- … and its block is not written back there (the block number stays 0 until point 4 has run). -/
theorem noFlush8 : ∀ t : Fin cfg0.N, ¬cond4 (grid0.coords t) → (cfg0.win 8).flush t = false := by decide +kernel
/-- From point 4 on the output window is stored into. -/
theorem live8 : ∀ t : Fin cfg0.N, cond4 (grid0.coords t) → cfg0.idle 8 (grid0.coords t) = false := by decide +kernel

/-! ## The buffers the body is called with -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2000x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S2000x256 .f32 := win0_8.stage (cfg0.slots t 8)
abbrev hs8 (t : Fin cfg0.N) : (ms8 t).IsWhole := hstage0_8 ((cfg0.slots t 8).cast nbuf0_8)

/-- The three scratch buffers: the Gram accumulator, the mixed rows, the scaled keys. -/
abbrev scG : Memref sig .tc .vmem S1024x1024 .f32 := Memref.whole cc0_scratch0
abbrev scM : Memref sig .tc .vmem S1024x256 .bf16 := Memref.whole cc0_scratch1
abbrev scK : Memref sig .tc .vmem S1024x256 .bf16 := Memref.whole cc0_scratch2
abbrev hscG : scG.IsWhole := Memref.isWhole_whole _
abbrev hscM : scM.IsWhole := Memref.isWhole_whole _
abbrev hscK : scK.IsWhole := Memref.isWhole_whole _
/-- Views through which a buffer's contents are stated (any whole buffer of the shape would do). -/
abbrev VG : View sig .tc .vmem S1024x1024 .f32 := scG.view
abbrev VM : View sig .tc .vmem S1024x256 .bf16 := scM.view
abbrev VK : View sig .tc .vmem S1024x256 .bf16 := scK.view
abbrev VO : View sig .tc .vmem S2000x256 .f32 := (Memref.whole cc0_stg8_0 : Memref sig .tc .vmem S2000x256 .f32).view

/-- What the region hands the body before its first point: the three scratch buffers owned at some contents, and the
    generator register at some state. -/
theorem PhiA_eq (c : Dev nD) :
    (Pipeline.ΦA spec0 c : sProp 𝕄)
      = iprop(iprop((∃ d, owns (c : Thread nD τ) scG fullShare d) ∗ (∃ d, owns (c : Thread nD τ) scM fullShare d) ∗ (∃ d, owns (c : Thread nD τ) scK fullShare d)) ∗ (∃ r, prngReg c r)) := by
  unfold Pipeline.ΦA; rw [scopedRest0_eq]; simp only [scG, scM, scK, owns_whole]; try rfl

end Cert.Kernel.Body

end
-- ==== Proof.BitsRunA.lean ====
/-
  The body at point 0 (case A): only the first guarded block runs. It reads the chunk of `fix` in the first window and
  stores the chunk's Gram matrix into the accumulator, whatever the accumulator held. Stated as a triple on any whole
  buffers: the chunk's buffer is handed back as it was, the accumulator with the stored pieces written.
-/
import proofs.«117169_g52209622450808_cont_9to1_m_767_13_alg».proof.Proof.BitsBodyCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunA (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : cond1 i) (hc2 : ¬cond2 i) (hc3 : ¬cond3 i) (hc4 : ¬cond4 i)
    (x0 : Vec F S1024x1024 .f32) :
    { LG : List (View.Piece (Elt F) S1024x1024 .f32) //
      ∀ (E : Set ℕ) (K : PUnit → sProp 𝕄),
        iprop(owns (c : Thread nD τ) arg1 fullShare x0 ∗ (∃ d, owns (c : Thread nD τ) arg10 fullShare d)
            ∗ (iprop(owns (c : Thread nD τ) arg1 fullShare x0 ∗ (∃ f, arg10.view.loc (c : Thread nD τ) ↦[arg10.view.set]{fullShare} arg10.view.writes (Elt F) f LG)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__fused_kernel_eq_skeleton]; unfold cc0__fused_kernel_skel
    unfold owns
    iintro ⟨⟨%f0, %hf0, H0⟩, ⟨%ds0, %fs0, -, HS0⟩, Hk⟩
    obtain rfl := harg1.eq_unread hf0
    sl_exec (disch := first | exact hc1 | exact hc2 | exact hc3 | exact hc4)
    sl_step
    iapply Hk
    isplitl [H0]
    · iexists _; isplitr; · ipureintro; exact harg1.read_unread _
      iexact H0
    iexists _; iexact HS0

end Cert.Kernel.Body

end
-- ==== Proof.BitsRunB.lean ====
/-
  The body at points 1 and 2 (case B): only the second guarded block runs. It reads the window's chunk of `fix` and the
  accumulator, and stores the accumulator plus the chunk's Gram matrix back into the accumulator.
-/
import proofs.«117169_g52209622450808_cont_9to1_m_767_13_alg».proof.Proof.BitsRunA

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunB (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬cond1 i) (hc2 : cond2 i) (hc3 : ¬cond3 i) (hc4 : ¬cond4 i)
    (x0 : Vec F S1024x1024 .f32) (xg : Vec F S1024x1024 .f32) :
    { LG : List (View.Piece (Elt F) S1024x1024 .f32) //
      ∀ (E : Set ℕ) (K : PUnit → sProp 𝕄),
        iprop(owns (c : Thread nD τ) arg1 fullShare x0 ∗ owns (c : Thread nD τ) arg10 fullShare xg
            ∗ (iprop(owns (c : Thread nD τ) arg1 fullShare x0 ∗ (∃ f, arg10.view.loc (c : Thread nD τ) ↦[arg10.view.set]{fullShare} arg10.view.writes (Elt F) f LG)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__fused_kernel_eq_skeleton]; unfold cc0__fused_kernel_skel
    unfold owns
    iintro ⟨⟨%f0, %hf0, H0⟩, ⟨%fs0, %hfs0, HS0⟩, Hk⟩
    obtain rfl := harg1.eq_unread hf0; obtain rfl := harg10.eq_unread hfs0
    sl_exec (disch := first | exact hc1 | exact hc2 | exact hc3 | exact hc4)
    sl_step
    iapply Hk
    isplitl [H0]
    · iexists _; isplitr; · ipureintro; exact harg1.read_unread _
      iexact H0
    iexists _; iexact HS0

end Cert.Kernel.Body

end
-- ==== Proof.BitsRunC.lean ====
/-
  The body at point 3 (case C): the second and the third guarded blocks run. The last chunk's Gram matrix is added to the
  accumulator; then the accumulator is read back, and from it, `other`, `Wk` and the bias row the mixed rows and the scaled
  keys are stored into their two scratch buffers, whatever those held.
-/
import proofs.«117169_g52209622450808_cont_9to1_m_767_13_alg».proof.Proof.BitsRunB

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRunC (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬cond1 i) (hc2 : cond2 i) (hc3 : cond3 i) (hc4 : ¬cond4 i)
    (x0 : Vec F S1024x1024 .f32) (x1 : Vec F S1024x256 .f32) (x2 : Vec F S256x256 .f32) (x3 : Vec F S1x256 .f32) (xg : Vec F S1024x1024 .f32) :
    Σ' (LG : List (View.Piece (Elt F) S1024x1024 .f32)) (LM : List (View.Piece (Elt F) S1024x256 .bf16)), { LK : List (View.Piece (Elt F) S1024x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg10 fullShare xg ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg10.view.loc (c : Thread nD τ) ↦[arg10.view.set]{fullShare} arg10.view.writes (Elt F) f LG) ∗ (∃ f, arg11.view.loc (c : Thread nD τ) ↦[arg11.view.set]{fullShare} arg11.view.writes (Elt F) f LM) ∗ (∃ f, arg12.view.loc (c : Thread nD τ) ↦[arg12.view.set]{fullShare} arg12.view.writes (Elt F) f LK)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg10.eq_unread hfs0
    sl_exec (disch := first | exact hc1 | exact hc2 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    isplitl [HS1]; · iexists _; iexact HS1
    iexists _; iexact HS2

end Cert.Kernel.Body

end
-- ==== Proof.BitsRunD.lean ====
/-
  The body at points 4 to 8 (case D): only the fourth guarded block runs. From the window's block of `main`, `Wq`, the
  bias row, the scaled keys, the mixed rows and the array of ones it stores one block of output rows into the output
  window's buffer, whatever that held; the two scratch buffers it reads are handed back as they were.
-/
import proofs.«117169_g52209622450808_cont_9to1_m_767_13_alg».proof.Proof.BitsRunC

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRunD (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬cond1 i) (hc2 : ¬cond2 i) (hc3 : ¬cond3 i) (hc4 : cond4 i)
    (x4 : Vec F S2000x256 .f32) (x5 : Vec F S256x256 .f32) (x6 : Vec F S1x256 .f32) (x7 : Vec F S1024x128 .bf16) (xm : Vec F S1024x256 .bf16) (xk : Vec F S1024x256 .bf16) :
    { LO : List (View.Piece (Elt F) S2000x256 .f32) //
      ∀ (E : Set ℕ) (K : PUnit → sProp 𝕄),
        iprop(owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg11 fullShare xm ∗ owns (c : Thread nD τ) arg12 fullShare xk
            ∗ (iprop(owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f LO) ∗ owns (c : Thread nD τ) arg11 fullShare xm ∗ owns (c : Thread nD τ) arg12 fullShare xk) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__fused_kernel_eq_skeleton]; unfold cc0__fused_kernel_skel
    unfold owns
    iintro ⟨⟨%f4, %hf4, H4⟩, ⟨%f5, %hf5, H5⟩, ⟨%f6, %hf6, H6⟩, ⟨%f7, %hf7, H7⟩, ⟨%d8, %f8, -, H8⟩, ⟨%fs1, %hfs1, HS1⟩, ⟨%fs2, %hfs2, HS2⟩, Hk⟩
    obtain rfl := harg5.eq_unread hf4; obtain rfl := harg6.eq_unread hf5; obtain rfl := harg7.eq_unread hf6; obtain rfl := harg8.eq_unread hf7; obtain rfl := harg11.eq_unread hfs1; obtain rfl := harg12.eq_unread hfs2
    sl_exec (disch := first | exact hc1 | exact hc2 | exact hc3 | exact hc4)
    sl_step
    iapply Hk
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS1]
    · iexists _; isplitr; · ipureintro; exact harg11.read_unread _
      iexact HS1
    iexists _; isplitr; · ipureintro; exact harg12.read_unread _
    iexact HS2

end Cert.Kernel.Body

end
-- ==== Proof.BitsBodyFrame.lean ====
/-
  The frame of the kernel call, point by point.

  What each of the four cases leaves behind is read off the body's stores: case A leaves the first chunk's Gram matrix in
  the accumulator; case B adds a chunk's; case C adds the last and fills the mixed rows and the scaled keys; case D fills
  one block of output rows. The accumulator after point `n` is defined by recursion on `n` (it stops changing after point
  3); the mixed rows and the scaled keys are what point 3 leaves; the output block at a point `t ≥ 4` is case D's at the
  point's block of `main`. Between points the region keeps: before point 0 the three scratch buffers at anything; after
  points 0 to 2 the accumulator at its value and the other two at anything; after point 3 all three at their values.
  With these as proof data the body meets its obligation at every point, and the launch theorem for a kernel that carries
  scratch between points gives the run of the whole program: it terminates, faults nowhere, every output array holds what
  the proof data say was written back, every other array is unchanged.
-/
import proofs.«117169_g52209622450808_cont_9to1_m_767_13_alg».proof.Proof.BitsRunD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

theorem caseA_of (t : Fin cfg0.N) (h : t.val = 0) : cond1 (grid0.coords t) ∧ ¬cond2 (grid0.coords t) ∧ ¬cond3 (grid0.coords t) ∧ ¬cond4 (grid0.coords t) :=
  ⟨(hcond1 t).mpr h, fun h' => by have := (hcond2 t).mp h'; omega, fun h' => by have := (hcond3 t).mp h'; omega, fun h' => by have := (hcond4 t).mp h'; omega⟩
theorem caseB_of (t : Fin cfg0.N) (h1 : 1 ≤ t.val) (h2 : t.val ≤ 2) : ¬cond1 (grid0.coords t) ∧ cond2 (grid0.coords t) ∧ ¬cond3 (grid0.coords t) ∧ ¬cond4 (grid0.coords t) :=
  ⟨fun h' => by have := (hcond1 t).mp h'; omega, (hcond2 t).mpr ⟨h1, by omega⟩, fun h' => by have := (hcond3 t).mp h'; omega, fun h' => by have := (hcond4 t).mp h'; omega⟩
theorem caseC_of (t : Fin cfg0.N) (h : t.val = 3) : ¬cond1 (grid0.coords t) ∧ cond2 (grid0.coords t) ∧ cond3 (grid0.coords t) ∧ ¬cond4 (grid0.coords t) :=
  ⟨fun h' => by have := (hcond1 t).mp h'; omega, (hcond2 t).mpr ⟨by omega, by omega⟩, (hcond3 t).mpr h, fun h' => by have := (hcond4 t).mp h'; omega⟩
theorem caseD_of (t : Fin cfg0.N) (h : 4 ≤ t.val) : ¬cond1 (grid0.coords t) ∧ ¬cond2 (grid0.coords t) ∧ ¬cond3 (grid0.coords t) ∧ cond4 (grid0.coords t) :=
  ⟨fun h' => by have := (hcond1 t).mp h'; omega, fun h' => by have := (hcond2 t).mp h'; omega, fun h' => by have := (hcond3 t).mp h'; omega, (hcond4 t).mpr h⟩

/-! ## What each case leaves: the stored pieces cover the buffer, and are read back -/

theorem coverA (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : cond1 i) (hc2 : ¬cond2 i) (hc3 : ¬cond3 i) (hc4 : ¬cond4 i)
    (x0 : Vec F S1024x1024 .f32) (y : S1024x1024.Idx) : ∃ pc ∈ (kernelRunA c i arg1 harg1 arg2 harg2 arg3 harg3 arg4 harg4 arg5 harg5 arg6 harg6 arg7 harg7 arg8 harg8 arg9 harg9 arg10 harg10 arg11 harg11 arg12 harg12 hc1 hc2 hc3 hc4 x0).1, y ∈ pc.1.set :=
  View.cover_of_tiledL (kernelRunA c i arg1 harg1 arg2 harg2 arg3 harg3 arg4 harg4 arg5 harg5 arg6 harg6 arg7 harg7 arg8 harg8 arg9 harg9 arg10 harg10 arg11 harg11 arg12 harg12 hc1 hc2 hc3 hc4 x0).1 S1024x1024.size (by sl_kernel_rfl) y
/-- The accumulator after case A. -/
def gA (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : cond1 i) (hc2 : ¬cond2 i) (hc3 : ¬cond3 i) (hc4 : ¬cond4 i)
    (x0 : Vec F S1024x1024 .f32) : Vec F S1024x1024 .f32 :=
  VG.read (Elt F) (VG.writes (Elt F) VG.junk (kernelRunA c i arg1 harg1 arg2 harg2 arg3 harg3 arg4 harg4 arg5 harg5 arg6 harg6 arg7 harg7 arg8 harg8 arg9 harg9 arg10 harg10 arg11 harg11 arg12 harg12 hc1 hc2 hc3 hc4 x0).1)

theorem coverB (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : cond2 i) (hc3 : ¬cond3 i) (hc4 : ¬cond4 i)
    (x0 xg : Vec F S1024x1024 .f32) (y : S1024x1024.Idx) : ∃ pc ∈ (kernelRunB c i arg1 harg1 arg2 harg2 arg3 harg3 arg4 harg4 arg5 harg5 arg6 harg6 arg7 harg7 arg8 harg8 arg9 harg9 arg10 harg10 arg11 harg11 arg12 harg12 hc1 hc2 hc3 hc4 x0 xg).1, y ∈ pc.1.set :=
  View.cover_of_tiledL (kernelRunB c i arg1 harg1 arg2 harg2 arg3 harg3 arg4 harg4 arg5 harg5 arg6 harg6 arg7 harg7 arg8 harg8 arg9 harg9 arg10 harg10 arg11 harg11 arg12 harg12 hc1 hc2 hc3 hc4 x0 xg).1 S1024x1024.size (by sl_kernel_rfl) y
/-- The accumulator after case B, from the accumulator before it. -/
def gB (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : cond2 i) (hc3 : ¬cond3 i) (hc4 : ¬cond4 i)
    (x0 xg : Vec F S1024x1024 .f32) : Vec F S1024x1024 .f32 :=
  VG.read (Elt F) (VG.writes (Elt F) VG.junk (kernelRunB c i arg1 harg1 arg2 harg2 arg3 harg3 arg4 harg4 arg5 harg5 arg6 harg6 arg7 harg7 arg8 harg8 arg9 harg9 arg10 harg10 arg11 harg11 arg12 harg12 hc1 hc2 hc3 hc4 x0 xg).1)

theorem coverCG (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : cond2 i) (hc3 : cond3 i) (hc4 : ¬cond4 i)
    (x0 : Vec F S1024x1024 .f32) (x1 : Vec F S1024x256 .f32) (x2 : Vec F S256x256 .f32) (x3 : Vec F S1x256 .f32) (xg : Vec F S1024x1024 .f32) (y : S1024x1024.Idx) :
    ∃ pc ∈ (kernelRunC c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg).1, y ∈ pc.1.set :=
  View.cover_of_tiledL (kernelRunC c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg).1 S1024x1024.size (by sl_kernel_rfl) y
theorem coverCM (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : cond2 i) (hc3 : cond3 i) (hc4 : ¬cond4 i)
    (x0 : Vec F S1024x1024 .f32) (x1 : Vec F S1024x256 .f32) (x2 : Vec F S256x256 .f32) (x3 : Vec F S1x256 .f32) (xg : Vec F S1024x1024 .f32) (y : S1024x256.Idx) :
    ∃ pc ∈ (kernelRunC c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg).2.1, y ∈ pc.1.set :=
  View.cover_of_tiledL (kernelRunC c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg).2.1 S1024x256.size (by sl_kernel_rfl) y
theorem coverCK (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : cond2 i) (hc3 : cond3 i) (hc4 : ¬cond4 i)
    (x0 : Vec F S1024x1024 .f32) (x1 : Vec F S1024x256 .f32) (x2 : Vec F S256x256 .f32) (x3 : Vec F S1x256 .f32) (xg : Vec F S1024x1024 .f32) (y : S1024x256.Idx) :
    ∃ pc ∈ (kernelRunC c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg).2.2.1, y ∈ pc.1.set :=
  View.cover_of_tiledL (kernelRunC c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg).2.2.1 S1024x256.size (by sl_kernel_rfl) y
/-- The accumulator, the mixed rows and the scaled keys after case C. -/
def gC (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : cond2 i) (hc3 : cond3 i) (hc4 : ¬cond4 i)
    (x0 : Vec F S1024x1024 .f32) (x1 : Vec F S1024x256 .f32) (x2 : Vec F S256x256 .f32) (x3 : Vec F S1x256 .f32) (xg : Vec F S1024x1024 .f32) : Vec F S1024x1024 .f32 :=
  VG.read (Elt F) (VG.writes (Elt F) VG.junk (kernelRunC c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg).1)
def mC (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : cond2 i) (hc3 : cond3 i) (hc4 : ¬cond4 i)
    (x0 : Vec F S1024x1024 .f32) (x1 : Vec F S1024x256 .f32) (x2 : Vec F S256x256 .f32) (x3 : Vec F S1x256 .f32) (xg : Vec F S1024x1024 .f32) : Vec F S1024x256 .bf16 :=
  VM.read (Elt F) (VM.writes (Elt F) VM.junk (kernelRunC c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg).2.1)
def kC (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : cond2 i) (hc3 : cond3 i) (hc4 : ¬cond4 i)
    (x0 : Vec F S1024x1024 .f32) (x1 : Vec F S1024x256 .f32) (x2 : Vec F S256x256 .f32) (x3 : Vec F S1x256 .f32) (xg : Vec F S1024x1024 .f32) : Vec F S1024x256 .bf16 :=
  VK.read (Elt F) (VK.writes (Elt F) VK.junk (kernelRunC c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg).2.2.1)

theorem coverD (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : ¬cond2 i) (hc3 : ¬cond3 i) (hc4 : cond4 i)
    (x4 : Vec F S2000x256 .f32) (x5 : Vec F S256x256 .f32) (x6 : Vec F S1x256 .f32) (x7 : Vec F S1024x128 .bf16) (xm xk : Vec F S1024x256 .bf16) (y : S2000x256.Idx) :
    ∃ pc ∈ (kernelRunD c i arg1 harg1 arg2 harg2 arg3 harg3 arg4 harg4 arg5 harg5 arg6 harg6 arg7 harg7 arg8 harg8 arg9 harg9 arg10 harg10 arg11 harg11 arg12 harg12 hc1 hc2 hc3 hc4 x4 x5 x6 x7 xm xk).1, y ∈ pc.1.set :=
  View.cover_of_tiledL (kernelRunD c i arg1 harg1 arg2 harg2 arg3 harg3 arg4 harg4 arg5 harg5 arg6 harg6 arg7 harg7 arg8 harg8 arg9 harg9 arg10 harg10 arg11 harg11 arg12 harg12 hc1 hc2 hc3 hc4 x4 x5 x6 x7 xm xk).1 S2000x256.size (by sl_kernel_rfl) y
/-- The output window's buffer after case D. -/
def oD (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : ¬cond2 i) (hc3 : ¬cond3 i) (hc4 : cond4 i)
    (x4 : Vec F S2000x256 .f32) (x5 : Vec F S256x256 .f32) (x6 : Vec F S1x256 .f32) (x7 : Vec F S1024x128 .bf16) (xm xk : Vec F S1024x256 .bf16) : Vec F S2000x256 .f32 :=
  VO.read (Elt F) (VO.writes (Elt F) VO.junk (kernelRunD c i arg1 harg1 arg2 harg2 arg3 harg3 arg4 harg4 arg5 harg5 arg6 harg6 arg7 harg7 arg8 harg8 arg9 harg9 arg10 harg10 arg11 harg11 arg12 harg12 hc1 hc2 hc3 hc4 x4 x5 x6 x7 xm xk).1)

/-! ## The same at a grid point, on the buffers and blocks of that point -/

def gAp (c : Dev nD) (t : Fin cfg0.N) (h : t.val = 0) : Vec F S1024x1024 .f32 :=
  gA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK (caseA_of t h).1 (caseA_of t h).2.1 (caseA_of t h).2.2.1 (caseA_of t h).2.2.2 (iblk m c 0 t)
def gBp (c : Dev nD) (t : Fin cfg0.N) (h1 : 1 ≤ t.val) (h2 : t.val ≤ 2) (xg : Vec F S1024x1024 .f32) : Vec F S1024x1024 .f32 :=
  gB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK (caseB_of t h1 h2).1 (caseB_of t h1 h2).2.1 (caseB_of t h1 h2).2.2.1 (caseB_of t h1 h2).2.2.2 (iblk m c 0 t) xg
def gCp (c : Dev nD) (t : Fin cfg0.N) (h : t.val = 3) (xg : Vec F S1024x1024 .f32) : Vec F S1024x1024 .f32 :=
  gC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK (caseC_of t h).1 (caseC_of t h).2.1 (caseC_of t h).2.2.1 (caseC_of t h).2.2.2 (iblk m c 0 t) (iblk m c 1 t) (iblk m c 2 t) (iblk m c 3 t) xg
def mCp (c : Dev nD) (t : Fin cfg0.N) (h : t.val = 3) (xg : Vec F S1024x1024 .f32) : Vec F S1024x256 .bf16 :=
  mC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK (caseC_of t h).1 (caseC_of t h).2.1 (caseC_of t h).2.2.1 (caseC_of t h).2.2.2 (iblk m c 0 t) (iblk m c 1 t) (iblk m c 2 t) (iblk m c 3 t) xg
def kCp (c : Dev nD) (t : Fin cfg0.N) (h : t.val = 3) (xg : Vec F S1024x1024 .f32) : Vec F S1024x256 .bf16 :=
  kC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK (caseC_of t h).1 (caseC_of t h).2.1 (caseC_of t h).2.2.1 (caseC_of t h).2.2.2 (iblk m c 0 t) (iblk m c 1 t) (iblk m c 2 t) (iblk m c 3 t) xg
def oDp (c : Dev nD) (t : Fin cfg0.N) (h : 4 ≤ t.val) (xm xk : Vec F S1024x256 .bf16) : Vec F S2000x256 .f32 :=
  oD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK (caseD_of t h).1 (caseD_of t h).2.1 (caseD_of t h).2.2.1 (caseD_of t h).2.2.2 (iblk m c 4 t) (iblk m c 5 t) (iblk m c 6 t) (iblk m c 7 t) xm xk

/-! ## The accumulator point by point, and what point 3 leaves -/

/-- The Gram accumulator after point `n`: set at point 0, added to at points 1 to 3, untouched afterwards. -/
def gAt (c : Dev nD) : (n : ℕ) → n < cfg0.N → Vec F S1024x1024 .f32
  | 0, hn => gAp m c ⟨0, hn⟩ rfl
  | n + 1, hn =>
    if h2 : n + 1 ≤ 2 then gBp m c ⟨n + 1, hn⟩ (Nat.succ_le_succ (Nat.zero_le n)) h2 (gAt c n (Nat.lt_of_succ_lt hn))
    else if h3 : n + 1 = 3 then gCp m c ⟨n + 1, hn⟩ h3 (gAt c n (Nat.lt_of_succ_lt hn))
    else gAt c n (Nat.lt_of_succ_lt hn)

theorem gAt_A (c : Dev nD) (t : Fin cfg0.N) (h : t.val = 0) : gAt m c t.val t.isLt = gAp m c t h := by
  obtain ⟨n, hn⟩ := t
  cases n with
  | zero => rfl
  | succ n => exact absurd h (Nat.succ_ne_zero n)
theorem gAt_B (c : Dev nD) (t : Fin cfg0.N) (h1 : 1 ≤ t.val) (h2 : t.val ≤ 2) :
    gAt m c t.val t.isLt = gBp m c t h1 h2 (gAt m c (t.val - 1) (Nat.lt_of_le_of_lt (Nat.sub_le _ _) t.isLt)) := by
  obtain ⟨n, hn⟩ := t
  cases n with
  | zero => exact absurd h1 (by dsimp only; omega)
  | succ n => exact (dif_pos h2).trans rfl
theorem gAt_C (c : Dev nD) (t : Fin cfg0.N) (h : t.val = 3) :
    gAt m c t.val t.isLt = gCp m c t h (gAt m c (t.val - 1) (Nat.lt_of_le_of_lt (Nat.sub_le _ _) t.isLt)) := by
  obtain ⟨n, hn⟩ := t
  cases n with
  | zero => exact absurd h (by dsimp only; omega)
  | succ n => exact (dif_neg (by dsimp only at h; omega)).trans ((dif_pos h).trans rfl)
theorem gAt_D (c : Dev nD) (t : Fin cfg0.N) (h : 4 ≤ t.val) :
    gAt m c t.val t.isLt = gAt m c (t.val - 1) (Nat.lt_of_le_of_lt (Nat.sub_le _ _) t.isLt) := by
  obtain ⟨n, hn⟩ := t
  cases n with
  | zero => exact absurd h (by dsimp only; omega)
  | succ n => exact (dif_neg (by dsimp only at h; omega)).trans ((dif_neg (by dsimp only at h; omega)).trans rfl)

/-- Point 3. -/
def t3 : Fin cfg0.N := ⟨3, by rw [N9]; decide⟩
theorem lt2 : 2 < cfg0.N := by rw [N9]; decide
/-- The mixed rows and the scaled keys as point 3 leaves them, from the accumulator after point 2. -/
def mFin (c : Dev nD) : Vec F S1024x256 .bf16 := mCp m c t3 rfl (gAt m c 2 lt2)
def kFin (c : Dev nD) : Vec F S1024x256 .bf16 := kCp m c t3 rfl (gAt m c 2 lt2)
/-- The output window's buffer after point `t`: case D's from point 4 on (before that nothing is stored into it, and
    nothing consults this value). -/
def oAt (c : Dev nD) (t : Fin cfg0.N) : Vec F S2000x256 .f32 :=
  if h : 4 ≤ t.val then oDp m c t h (mFin m c) (kFin m c) else VO.read (Elt F) (VO.writes (Elt F) VO.junk [])

/-! ## What the region keeps between points -/

def PhiS (c : Dev nD) : (n : ℕ) → n ≤ cfg0.N → sProp 𝕄
  | 0, _ => Pipeline.ΦA spec0 c
  | n + 1, hn =>
    if n + 1 ≤ 3 then
      iprop(iprop(owns (c : Thread nD τ) scG fullShare (gAt m c n hn) ∗ (∃ d, owns (c : Thread nD τ) scM fullShare d) ∗ (∃ d, owns (c : Thread nD τ) scK fullShare d)) ∗ (∃ r, prngReg c r))
    else
      iprop(iprop(owns (c : Thread nD τ) scG fullShare (gAt m c n hn) ∗ owns (c : Thread nD τ) scM fullShare (mFin m c) ∗ owns (c : Thread nD τ) scK fullShare (kFin m c)) ∗ (∃ r, prngReg c r))

theorem PhiS_zero (c : Dev nD) (n : ℕ) (h : n ≤ cfg0.N) (hz : n = 0) : PhiS m c n h = Pipeline.ΦA spec0 c := by
  subst hz; rfl
theorem PhiS_early (c : Dev nD) (n : ℕ) (h : n ≤ cfg0.N) (hz : n ≠ 0) (h3 : n ≤ 3) :
    PhiS m c n h = iprop(iprop(owns (c : Thread nD τ) scG fullShare (gAt m c (n - 1) (by omega)) ∗ (∃ d, owns (c : Thread nD τ) scM fullShare d) ∗ (∃ d, owns (c : Thread nD τ) scK fullShare d)) ∗ (∃ r, prngReg c r)) := by
  cases n with
  | zero => exact absurd rfl hz
  | succ n => exact if_pos h3
theorem PhiS_late (c : Dev nD) (n : ℕ) (h : n ≤ cfg0.N) (h4 : 4 ≤ n) :
    PhiS m c n h = iprop(iprop(owns (c : Thread nD τ) scG fullShare (gAt m c (n - 1) (by omega)) ∗ owns (c : Thread nD τ) scM fullShare (mFin m c) ∗ owns (c : Thread nD τ) scK fullShare (kFin m c)) ∗ (∃ r, prngReg c r)) := by
  cases n with
  | zero => exact absurd h4 (by decide)
  | succ n => exact if_neg (by omega)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => oAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = oAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (iblk m c 5 t) := by
  unfold Dat.leavesExact; rw [live5 t, after5]
theorem leaves6 (c : Dev nD) (t : Fin cfg0.N) : (dats m 0 c).leavesExact 6 t = owns (c : Thread nD τ) (ms6 t) fullShare (iblk m c 6 t) := by
  unfold Dat.leavesExact; rw [live6 t, after6]
theorem leaves7 (c : Dev nD) (t : Fin cfg0.N) : (dats m 0 c).leavesExact 7 t = owns (c : Thread nD τ) (ms7 t) fullShare (iblk m c 7 t) := by
  unfold Dat.leavesExact; rw [live7 t, after7]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl]
  rw [leaves0, leaves1, leaves2, leaves3, leaves4, leaves5, leaves6, leaves7]
  have hN : t.val < 9 := lt_of_lt_of_eq t.isLt N9
  by_cases hA : t.val = 0
  · -- case A: point 0
    obtain ⟨hc1, hc2, hc3, hc4⟩ := caseA_of t hA
    rw [Dat.leavesExact_idle (dats m 0 c) 8 t (idle8 t hc4) (noFlush8 t hc4)]
    rw [PhiS_castSucc m c t, PhiS_zero m c _ _ hA, PhiA_eq, PhiS_early m c (t.val + 1) t.isLt (Nat.succ_ne_zero _) (by omega)]
    rw [show gAt m c (t.val + 1 - 1) _ = gAt m c t.val t.isLt from rfl, gAt_A m c t hA]
    unfold gAp gA
    iintro ⟨⟨⟨HG, HM, HK⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK hc1 hc2 hc3 hc4 (iblk m c 0 t)).2 Set.univ _)
    isplitl [H0]; · iexact H0
    isplitl [HG]; · iexact HG
    iintro ⟨H0, ⟨%es, HG⟩⟩
    isplitl [HG HM HK Hg]
    · isplitr [Hg]
      · isplitl [HG]
        · unfold owns; iexists _; isplitr
          swap; · iexact HG
          ipureintro; exact View.read_writes_of_cover _ _ _ _ _ (coverA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK hc1 hc2 hc3 hc4 (iblk m c 0 t))
        isplitl [HM]; · iexact HM
        iexact HK
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · by_cases hB : t.val ≤ 2
    · -- case B: points 1 and 2
      have h1 : 1 ≤ t.val := by omega
      obtain ⟨hc1, hc2, hc3, hc4⟩ := caseB_of t h1 hB
      rw [Dat.leavesExact_idle (dats m 0 c) 8 t (idle8 t hc4) (noFlush8 t hc4)]
      rw [PhiS_castSucc m c t, PhiS_early m c t.val _ hA (by omega), PhiS_early m c (t.val + 1) t.isLt (Nat.succ_ne_zero _) (by omega)]
      rw [show gAt m c (t.val + 1 - 1) _ = gAt m c t.val t.isLt from rfl, gAt_B m c t h1 hB]
      unfold gBp gB
      iintro ⟨⟨⟨HG, HM, HK⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK hc1 hc2 hc3 hc4 (iblk m c 0 t) _).2 Set.univ _)
      isplitl [H0]; · iexact H0
      isplitl [HG]; · iexact HG
      iintro ⟨H0, ⟨%es, HG⟩⟩
      isplitl [HG HM HK Hg]
      · isplitr [Hg]
        · isplitl [HG]
          · unfold owns; iexists _; isplitr
            swap; · iexact HG
            ipureintro; exact View.read_writes_of_cover _ _ _ _ _ (coverB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK hc1 hc2 hc3 hc4 (iblk m c 0 t) _)
          isplitl [HM]; · iexact HM
          iexact HK
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · by_cases hC : t.val = 3
      · -- case C: point 3
        obtain rfl : t = t3 := Fin.ext hC
        obtain ⟨hc1, hc2, hc3, hc4⟩ := caseC_of t3 rfl
        rw [Dat.leavesExact_idle (dats m 0 c) 8 t3 (idle8 t3 hc4) (noFlush8 t3 hc4)]
        rw [PhiS_castSucc m c t3, PhiS_early m c t3.val _ (by decide) (by decide), PhiS_late m c (t3.val + 1) t3.isLt (by decide)]
        rw [show gAt m c (t3.val + 1 - 1) _ = gAt m c t3.val t3.isLt from rfl, gAt_C m c t3 rfl]
        unfold mFin kFin gCp mCp kCp gC mC kC
        iintro ⟨⟨⟨HG, ⟨%dm, HM⟩, ⟨%dk, HK⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunC c (grid0.coords t3) (ms0 t3) (hs0 t3) (ms1 t3) (hs1 t3) (ms2 t3) (hs2 t3) (ms3 t3) (hs3 t3) (ms4 t3) (hs4 t3) (ms5 t3) (hs5 t3) (ms6 t3) (hs6 t3) (ms7 t3) (hs7 t3) (ms8 t3) (hs8 t3) scG hscG scM hscM scK hscK hc1 hc2 hc3 hc4 (iblk m c 0 t3) (iblk m c 1 t3) (iblk m c 2 t3) (iblk m c 3 t3) _).2.2.2 Set.univ _)
        isplitl [H0]; · iexact H0
        isplitl [H1]; · iexact H1
        isplitl [H2]; · iexact H2
        isplitl [H3]; · iexact H3
        isplitl [HG]; · iexact HG
        isplitl [HM]; · iexists _; iexact HM
        isplitl [HK]; · iexists _; iexact HK
        iintro ⟨H0, H1, H2, H3, ⟨%eg, HG⟩, ⟨%em, HM⟩, ⟨%ek, HK⟩⟩
        isplitl [HG HM HK Hg]
        · isplitr [Hg]
          · isplitl [HG]
            · unfold owns; iexists _; isplitr
              swap; · iexact HG
              ipureintro; exact View.read_writes_of_cover _ _ _ _ _ (coverCG c (grid0.coords t3) (ms0 t3) (hs0 t3) (ms1 t3) (hs1 t3) (ms2 t3) (hs2 t3) (ms3 t3) (hs3 t3) (ms4 t3) (hs4 t3) (ms5 t3) (hs5 t3) (ms6 t3) (hs6 t3) (ms7 t3) (hs7 t3) (ms8 t3) (hs8 t3) scG hscG scM hscM scK hscK hc1 hc2 hc3 hc4 (iblk m c 0 t3) (iblk m c 1 t3) (iblk m c 2 t3) (iblk m c 3 t3) _)
            isplitl [HM]
            · unfold owns; iexists _; isplitr
              swap; · iexact HM
              ipureintro; exact View.read_writes_of_cover _ _ _ _ _ (coverCM c (grid0.coords t3) (ms0 t3) (hs0 t3) (ms1 t3) (hs1 t3) (ms2 t3) (hs2 t3) (ms3 t3) (hs3 t3) (ms4 t3) (hs4 t3) (ms5 t3) (hs5 t3) (ms6 t3) (hs6 t3) (ms7 t3) (hs7 t3) (ms8 t3) (hs8 t3) scG hscG scM hscM scK hscK hc1 hc2 hc3 hc4 (iblk m c 0 t3) (iblk m c 1 t3) (iblk m c 2 t3) (iblk m c 3 t3) _)
            unfold owns; iexists _; isplitr
            swap; · iexact HK
            ipureintro; exact View.read_writes_of_cover _ _ _ _ _ (coverCK c (grid0.coords t3) (ms0 t3) (hs0 t3) (ms1 t3) (hs1 t3) (ms2 t3) (hs2 t3) (ms3 t3) (hs3 t3) (ms4 t3) (hs4 t3) (ms5 t3) (hs5 t3) (ms6 t3) (hs6 t3) (ms7 t3) (hs7 t3) (ms8 t3) (hs8 t3) scG hscG scM hscM scK hscK hc1 hc2 hc3 hc4 (iblk m c 0 t3) (iblk m c 1 t3) (iblk m c 2 t3) (iblk m c 3 t3) _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · -- case D: points 4 to 8
        have h4 : 4 ≤ t.val := by omega
        obtain ⟨hc1, hc2, hc3, hc4⟩ := caseD_of t h4
        rw [show (dats m 0 c).leavesExact 8 t = owns (c : Thread nD τ) (ms8 t) fullShare ((dats m 0 c).after 8 t) from by
          unfold Dat.leavesExact; rw [live8 t hc4], after8]
        rw [PhiS_castSucc m c t, PhiS_late m c t.val _ h4, PhiS_late m c (t.val + 1) t.isLt (by omega)]
        rw [show gAt m c (t.val + 1 - 1) _ = gAt m c t.val t.isLt from rfl, gAt_D m c t h4]
        rw [show oAt m c t = oDp m c t h4 (mFin m c) (kFin m c) from dif_pos h4]
        unfold oDp oD
        iintro ⟨⟨⟨HG, HM, HK⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK hc1 hc2 hc3 hc4 (iblk m c 4 t) (iblk m c 5 t) (iblk m c 6 t) (iblk m c 7 t) (mFin m c) (kFin m c)).2 Set.univ _)
        isplitl [H4]; · iexact H4
        isplitl [H5]; · iexact H5
        isplitl [H6]; · iexact H6
        isplitl [H7]; · iexact H7
        isplitl [H8]; · iexists _; iexact H8
        isplitl [HM]; · iexact HM
        isplitl [HK]; · iexact HK
        iintro ⟨H4, H5, H6, H7, ⟨%e8, H8⟩, HM, HK⟩
        isplitl [HG HM HK Hg]
        · isplitr [Hg]
          · isplitl [HG]; · iexact HG
            isplitl [HM]; · iexact HM
            iexact HK
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (coverD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK hc1 hc2 hc3 hc4 (iblk m c 4 t) (iblk m c 5 t) (iblk m c 6 t) (iblk m c 7 t) (mFin m c) (kFin m c))

theorem body_obligation (c : Dev nD) : BodyObligation (dats (F := F) m 0 c) (defs₀ (F := F)) Variants.none () Set.univ := fun t => by
  rw [bigSep_W0, bigSep_W0]
  exact sound_body m c t

/-! ## Before the first point and after the last -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_late m c _ _ (by rw [Fin.val_last, N9]; decide), PhiA_eq]
  iintro ⟨⟨HG, HM, HK⟩, Hg⟩
  isplitl [HG HM HK]
  · isplitl [HG]; · iexists _; iexact HG
    isplitl [HM]; · iexists _; iexact HM
    iexists _; iexact HK
  iexact Hg

/-! ## The run -/

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program terminates without a fault and leaves its seven argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Body

end
-- ==== Proof.BodyCases.lean ====
/-
  The grid of the one kernel call has nine points. Its body has four guarded blocks, guarded by conditions on the point
  number `t`: `t = 0` (the Gram accumulator is set from the first chunk), `0 < t < 4` (a chunk is added to it), `t = 3`
  (the accumulator is turned into the mixed rows and the scaled keys) and `4 ≤ t` (a block of output rows is computed).
  So four cases occur: A at point 0, B at points 1 and 2, C at point 3 (two blocks run), D at points 4 to 8.
  Here: the conditions decided over the nine points, where the output window is idle and where it is written back, the
  staging buffers the body is called with, and the three scratch buffers it keeps between points.
-/
import proofs.«117169_g52209622450808_cont_9to1_m_767_13_alg».proof.Proof.Gen.KernelIdeal.Frame
import proofs.«117169_g52209622450808_cont_9to1_m_767_13_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four conditions, over the grid -/

/-- The first block's guard: the point number is 0. -/
abbrev cond1 (i : grid0.Coords) : Prop := (Scalar.cmpi .ne (Scalar.extui (Scalar.cmpi .eq (BitVec.ofNat 32 (i 0).val) 0#32)) 0#32) = 1#1
theorem hcond1 : ∀ t : Fin cfg0.N, cond1 (grid0.coords t) ↔ t.val = 0 :=
  (by decide +kernel : ∀ t : Fin grid0.N, cond1 (grid0.coords t) ↔ t.val = 0)

/-- The second block's guard: the point number is strictly between 0 and 4. -/
abbrev cond2 (i : grid0.Coords) : Prop := (Scalar.cmpi .ne (Scalar.extui (Scalar.andi (Scalar.cmpi .sgt (BitVec.ofNat 32 (i 0).val) 0#32) (Scalar.cmpi .slt (BitVec.ofNat 32 (i 0).val) 4#32))) 0#32) = 1#1
theorem hcond2 : ∀ t : Fin cfg0.N, cond2 (grid0.coords t) ↔ (1 ≤ t.val ∧ t.val ≤ 3) :=
  (by decide +kernel : ∀ t : Fin grid0.N, cond2 (grid0.coords t) ↔ (1 ≤ t.val ∧ t.val ≤ 3))

/-- The third block's guard: the point number is 3. -/
abbrev cond3 (i : grid0.Coords) : Prop := (Scalar.cmpi .ne (Scalar.extui (Scalar.cmpi .eq (BitVec.ofNat 32 (i 0).val) 3#32)) 0#32) = 1#1
theorem hcond3 : ∀ t : Fin cfg0.N, cond3 (grid0.coords t) ↔ t.val = 3 :=
  (by decide +kernel : ∀ t : Fin grid0.N, cond3 (grid0.coords t) ↔ t.val = 3)

/-- The fourth block's guard: the point number is at least 4. -/
abbrev cond4 (i : grid0.Coords) : Prop := k0_cond4 i = 1#1
theorem hcond4 : ∀ t : Fin cfg0.N, cond4 (grid0.coords t) ↔ 4 ≤ t.val :=
  (by decide +kernel : ∀ t : Fin grid0.N, cond4 (grid0.coords t) ↔ 4 ≤ t.val)

theorem N9 : cfg0.N = 9 := N_0

/-! ## Where the windows are idle, and where the output block is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel
theorem live7 : ∀ t : Fin cfg0.N, cfg0.idle 7 (grid0.coords t) = false := by decide +kernel
/-- Before point 4 nothing is stored into the output window: it is idle there … -/
theorem idle8 : ∀ t : Fin cfg0.N, ¬cond4 (grid0.coords t) → cfg0.idle 8 (grid0.coords t) = true := by decide +kernel
/-- … and its block is not written back there (the block number stays 0 until point 4 has run). -/
theorem noFlush8 : ∀ t : Fin cfg0.N, ¬cond4 (grid0.coords t) → (cfg0.win 8).flush t = false := by decide +kernel
/-- From point 4 on the output window is stored into. -/
theorem live8 : ∀ t : Fin cfg0.N, cond4 (grid0.coords t) → cfg0.idle 8 (grid0.coords t) = false := by decide +kernel

/-! ## The buffers the body is called with -/

abbrev ms0 (t : Fin cfg0.N) : Memref sig .tc .vmem S1024x1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x256 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S2000x256 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S256x256 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1024x128 .bf16 := win0_7.stage (cfg0.slots t 7)
abbrev hs7 (t : Fin cfg0.N) : (ms7 t).IsWhole := hstage0_7 ((cfg0.slots t 7).cast nbuf0_7)
abbrev ms8 (t : Fin cfg0.N) : Memref sig .tc .vmem S2000x256 .f32 := win0_8.stage (cfg0.slots t 8)
abbrev hs8 (t : Fin cfg0.N) : (ms8 t).IsWhole := hstage0_8 ((cfg0.slots t 8).cast nbuf0_8)

/-- The three scratch buffers: the Gram accumulator, the mixed rows, the scaled keys. -/
abbrev scG : Memref sig .tc .vmem S1024x1024 .f32 := Memref.whole cc0_scratch0
abbrev scM : Memref sig .tc .vmem S1024x256 .bf16 := Memref.whole cc0_scratch1
abbrev scK : Memref sig .tc .vmem S1024x256 .bf16 := Memref.whole cc0_scratch2
abbrev hscG : scG.IsWhole := Memref.isWhole_whole _
abbrev hscM : scM.IsWhole := Memref.isWhole_whole _
abbrev hscK : scK.IsWhole := Memref.isWhole_whole _
/-- Views through which a buffer's contents are stated (any whole buffer of the shape would do). -/
abbrev VG : View sig .tc .vmem S1024x1024 .f32 := scG.view
abbrev VM : View sig .tc .vmem S1024x256 .bf16 := scM.view
abbrev VK : View sig .tc .vmem S1024x256 .bf16 := scK.view
abbrev VO : View sig .tc .vmem S2000x256 .f32 := (Memref.whole cc0_stg8_0 : Memref sig .tc .vmem S2000x256 .f32).view

/-- What the region hands the body before its first point: the three scratch buffers owned at some contents, and the
    generator register at some state. -/
theorem PhiA_eq (c : Dev nD) :
    (Pipeline.ΦA spec0 c : sProp 𝕄)
      = iprop(iprop((∃ d, owns (c : Thread nD τ) scG fullShare d) ∗ (∃ d, owns (c : Thread nD τ) scM fullShare d) ∗ (∃ d, owns (c : Thread nD τ) scK fullShare d)) ∗ (∃ r, prngReg c r)) := by
  unfold Pipeline.ΦA; rw [scopedRest0_eq]; simp only [scG, scM, scK, owns_whole]; try rfl

end Cert.KernelIdeal.Body

end
-- ==== Proof.RunA.lean ====
/-
  The body at point 0 (case A): only the first guarded block runs. It reads the chunk of `fix` in the first window and
  stores the chunk's Gram matrix into the accumulator, whatever the accumulator held. Stated as a triple on any whole
  buffers: the chunk's buffer is handed back as it was, the accumulator with the stored pieces written.
-/
import proofs.«117169_g52209622450808_cont_9to1_m_767_13_alg».proof.Proof.BodyCases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunA (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : cond1 i) (hc2 : ¬cond2 i) (hc3 : ¬cond3 i) (hc4 : ¬cond4 i)
    (x0 : Vec F S1024x1024 .f32) :
    { LG : List (View.Piece (Elt F) S1024x1024 .f32) //
      ∀ (E : Set ℕ) (K : PUnit → sProp 𝕄),
        iprop(owns (c : Thread nD τ) arg1 fullShare x0 ∗ (∃ d, owns (c : Thread nD τ) arg10 fullShare d)
            ∗ (iprop(owns (c : Thread nD τ) arg1 fullShare x0 ∗ (∃ f, arg10.view.loc (c : Thread nD τ) ↦[arg10.view.set]{fullShare} arg10.view.writes (Elt F) f LG)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__fused_kernel_eq_skeleton]; unfold cc0__fused_kernel_skel
    unfold owns
    iintro ⟨⟨%f0, %hf0, H0⟩, ⟨%ds0, %fs0, -, HS0⟩, Hk⟩
    obtain rfl := harg1.eq_unread hf0
    sl_exec (disch := first | exact hc1 | exact hc2 | exact hc3 | exact hc4)
    sl_step
    iapply Hk
    isplitl [H0]
    · iexists _; isplitr; · ipureintro; exact harg1.read_unread _
      iexact H0
    iexists _; iexact HS0

end Cert.KernelIdeal.Body

end
-- ==== Proof.RunB.lean ====
/-
  The body at points 1 and 2 (case B): only the second guarded block runs. It reads the window's chunk of `fix` and the
  accumulator, and stores the accumulator plus the chunk's Gram matrix back into the accumulator.
-/
import proofs.«117169_g52209622450808_cont_9to1_m_767_13_alg».proof.Proof.RunA

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRunB (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬cond1 i) (hc2 : cond2 i) (hc3 : ¬cond3 i) (hc4 : ¬cond4 i)
    (x0 : Vec F S1024x1024 .f32) (xg : Vec F S1024x1024 .f32) :
    { LG : List (View.Piece (Elt F) S1024x1024 .f32) //
      ∀ (E : Set ℕ) (K : PUnit → sProp 𝕄),
        iprop(owns (c : Thread nD τ) arg1 fullShare x0 ∗ owns (c : Thread nD τ) arg10 fullShare xg
            ∗ (iprop(owns (c : Thread nD τ) arg1 fullShare x0 ∗ (∃ f, arg10.view.loc (c : Thread nD τ) ↦[arg10.view.set]{fullShare} arg10.view.writes (Elt F) f LG)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__fused_kernel_eq_skeleton]; unfold cc0__fused_kernel_skel
    unfold owns
    iintro ⟨⟨%f0, %hf0, H0⟩, ⟨%fs0, %hfs0, HS0⟩, Hk⟩
    obtain rfl := harg1.eq_unread hf0; obtain rfl := harg10.eq_unread hfs0
    sl_exec (disch := first | exact hc1 | exact hc2 | exact hc3 | exact hc4)
    sl_step
    iapply Hk
    isplitl [H0]
    · iexists _; isplitr; · ipureintro; exact harg1.read_unread _
      iexact H0
    iexists _; iexact HS0

end Cert.KernelIdeal.Body

end
-- ==== Proof.RunC.lean ====
/-
  The body at point 3 (case C): the second and the third guarded blocks run. The last chunk's Gram matrix is added to the
  accumulator; then the accumulator is read back, and from it, `other`, `Wk` and the bias row the mixed rows and the scaled
  keys are stored into their two scratch buffers, whatever those held.
-/
import proofs.«117169_g52209622450808_cont_9to1_m_767_13_alg».proof.Proof.RunB

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRunC (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬cond1 i) (hc2 : cond2 i) (hc3 : cond3 i) (hc4 : ¬cond4 i)
    (x0 : Vec F S1024x1024 .f32) (x1 : Vec F S1024x256 .f32) (x2 : Vec F S256x256 .f32) (x3 : Vec F S1x256 .f32) (xg : Vec F S1024x1024 .f32) :
    Σ' (LG : List (View.Piece (Elt F) S1024x1024 .f32)) (LM : List (View.Piece (Elt F) S1024x256 .bf16)), { LK : List (View.Piece (Elt F) S1024x256 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg10 fullShare xg ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg10.view.loc (c : Thread nD τ) ↦[arg10.view.set]{fullShare} arg10.view.writes (Elt F) f LG) ∗ (∃ f, arg11.view.loc (c : Thread nD τ) ↦[arg11.view.set]{fullShare} arg11.view.writes (Elt F) f LM) ∗ (∃ f, arg12.view.loc (c : Thread nD τ) ↦[arg12.view.set]{fullShare} arg12.view.writes (Elt F) f LK)) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%ds1, %fs1, -, HS1⟩, ⟨%ds2, %fs2, -, HS2⟩, Hk⟩
    obtain rfl := harg1.eq_unread hf0; obtain rfl := harg2.eq_unread hf1; obtain rfl := harg3.eq_unread hf2; obtain rfl := harg4.eq_unread hf3; obtain rfl := harg10.eq_unread hfs0
    sl_exec (disch := first | exact hc1 | exact hc2 | exact hc3 | exact hc4)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    isplitl [HS1]; · iexists _; iexact HS1
    iexists _; iexact HS2

end Cert.KernelIdeal.Body

end
-- ==== Proof.RunD.lean ====
/-
  The body at points 4 to 8 (case D): only the fourth guarded block runs. From the window's block of `main`, `Wq`, the
  bias row, the scaled keys, the mixed rows and the array of ones it stores one block of output rows into the output
  window's buffer, whatever that held; the two scratch buffers it reads are handed back as they were.
-/
import proofs.«117169_g52209622450808_cont_9to1_m_767_13_alg».proof.Proof.RunC

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
noncomputable def kernelRunD (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole)
    (hc1 : ¬cond1 i) (hc2 : ¬cond2 i) (hc3 : ¬cond3 i) (hc4 : cond4 i)
    (x4 : Vec F S2000x256 .f32) (x5 : Vec F S256x256 .f32) (x6 : Vec F S1x256 .f32) (x7 : Vec F S1024x128 .bf16) (xm : Vec F S1024x256 .bf16) (xk : Vec F S1024x256 .bf16) :
    { LO : List (View.Piece (Elt F) S2000x256 .f32) //
      ∀ (E : Set ℕ) (K : PUnit → sProp 𝕄),
        iprop(owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg11 fullShare xm ∗ owns (c : Thread nD τ) arg12 fullShare xk
            ∗ (iprop(owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f LO) ∗ owns (c : Thread nD τ) arg11 fullShare xm ∗ owns (c : Thread nD τ) arg12 fullShare xk) -∗ K ⟨⟩))
          ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12) K } := by
  refine ⟨?_, fun E K => ?run⟩
  case run =>
    simp only [cc0__fused_kernel_eq_skeleton]; unfold cc0__fused_kernel_skel
    unfold owns
    iintro ⟨⟨%f4, %hf4, H4⟩, ⟨%f5, %hf5, H5⟩, ⟨%f6, %hf6, H6⟩, ⟨%f7, %hf7, H7⟩, ⟨%d8, %f8, -, H8⟩, ⟨%fs1, %hfs1, HS1⟩, ⟨%fs2, %hfs2, HS2⟩, Hk⟩
    obtain rfl := harg5.eq_unread hf4; obtain rfl := harg6.eq_unread hf5; obtain rfl := harg7.eq_unread hf6; obtain rfl := harg8.eq_unread hf7; obtain rfl := harg11.eq_unread hfs1; obtain rfl := harg12.eq_unread hfs2
    sl_exec (disch := first | exact hc1 | exact hc2 | exact hc3 | exact hc4)
    sl_step
    iapply Hk
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [HS1]
    · iexists _; isplitr; · ipureintro; exact harg11.read_unread _
      iexact HS1
    iexists _; isplitr; · ipureintro; exact harg12.read_unread _
    iexact HS2

end Cert.KernelIdeal.Body

end
-- ==== Proof.BodyFrame.lean ====
/-
  The frame of the kernel call, point by point.

  What each of the four cases leaves behind is read off the body's stores: case A leaves the first chunk's Gram matrix in
  the accumulator; case B adds a chunk's; case C adds the last and fills the mixed rows and the scaled keys; case D fills
  one block of output rows. The accumulator after point `n` is defined by recursion on `n` (it stops changing after point
  3); the mixed rows and the scaled keys are what point 3 leaves; the output block at a point `t ≥ 4` is case D's at the
  point's block of `main`. Between points the region keeps: before point 0 the three scratch buffers at anything; after
  points 0 to 2 the accumulator at its value and the other two at anything; after point 3 all three at their values.
  With these as proof data the body meets its obligation at every point, and the launch theorem for a kernel that carries
  scratch between points gives the run of the whole program: it terminates, faults nowhere, every output array holds what
  the proof data say was written back, every other array is unchanged.
-/
import proofs.«117169_g52209622450808_cont_9to1_m_767_13_alg».proof.Proof.RunD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which case a point is in -/

theorem caseA_of (t : Fin cfg0.N) (h : t.val = 0) : cond1 (grid0.coords t) ∧ ¬cond2 (grid0.coords t) ∧ ¬cond3 (grid0.coords t) ∧ ¬cond4 (grid0.coords t) :=
  ⟨(hcond1 t).mpr h, fun h' => by have := (hcond2 t).mp h'; omega, fun h' => by have := (hcond3 t).mp h'; omega, fun h' => by have := (hcond4 t).mp h'; omega⟩
theorem caseB_of (t : Fin cfg0.N) (h1 : 1 ≤ t.val) (h2 : t.val ≤ 2) : ¬cond1 (grid0.coords t) ∧ cond2 (grid0.coords t) ∧ ¬cond3 (grid0.coords t) ∧ ¬cond4 (grid0.coords t) :=
  ⟨fun h' => by have := (hcond1 t).mp h'; omega, (hcond2 t).mpr ⟨h1, by omega⟩, fun h' => by have := (hcond3 t).mp h'; omega, fun h' => by have := (hcond4 t).mp h'; omega⟩
theorem caseC_of (t : Fin cfg0.N) (h : t.val = 3) : ¬cond1 (grid0.coords t) ∧ cond2 (grid0.coords t) ∧ cond3 (grid0.coords t) ∧ ¬cond4 (grid0.coords t) :=
  ⟨fun h' => by have := (hcond1 t).mp h'; omega, (hcond2 t).mpr ⟨by omega, by omega⟩, (hcond3 t).mpr h, fun h' => by have := (hcond4 t).mp h'; omega⟩
theorem caseD_of (t : Fin cfg0.N) (h : 4 ≤ t.val) : ¬cond1 (grid0.coords t) ∧ ¬cond2 (grid0.coords t) ∧ ¬cond3 (grid0.coords t) ∧ cond4 (grid0.coords t) :=
  ⟨fun h' => by have := (hcond1 t).mp h'; omega, fun h' => by have := (hcond2 t).mp h'; omega, fun h' => by have := (hcond3 t).mp h'; omega, (hcond4 t).mpr h⟩

/-! ## What each case leaves: the stored pieces cover the buffer, and are read back -/

theorem coverA (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : cond1 i) (hc2 : ¬cond2 i) (hc3 : ¬cond3 i) (hc4 : ¬cond4 i)
    (x0 : Vec F S1024x1024 .f32) (y : S1024x1024.Idx) : ∃ pc ∈ (kernelRunA c i arg1 harg1 arg2 harg2 arg3 harg3 arg4 harg4 arg5 harg5 arg6 harg6 arg7 harg7 arg8 harg8 arg9 harg9 arg10 harg10 arg11 harg11 arg12 harg12 hc1 hc2 hc3 hc4 x0).1, y ∈ pc.1.set :=
  View.cover_of_tiledL (kernelRunA c i arg1 harg1 arg2 harg2 arg3 harg3 arg4 harg4 arg5 harg5 arg6 harg6 arg7 harg7 arg8 harg8 arg9 harg9 arg10 harg10 arg11 harg11 arg12 harg12 hc1 hc2 hc3 hc4 x0).1 S1024x1024.size (by sl_kernel_rfl) y
/-- The accumulator after case A. -/
def gA (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : cond1 i) (hc2 : ¬cond2 i) (hc3 : ¬cond3 i) (hc4 : ¬cond4 i)
    (x0 : Vec F S1024x1024 .f32) : Vec F S1024x1024 .f32 :=
  VG.read (Elt F) (VG.writes (Elt F) VG.junk (kernelRunA c i arg1 harg1 arg2 harg2 arg3 harg3 arg4 harg4 arg5 harg5 arg6 harg6 arg7 harg7 arg8 harg8 arg9 harg9 arg10 harg10 arg11 harg11 arg12 harg12 hc1 hc2 hc3 hc4 x0).1)

theorem coverB (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : cond2 i) (hc3 : ¬cond3 i) (hc4 : ¬cond4 i)
    (x0 xg : Vec F S1024x1024 .f32) (y : S1024x1024.Idx) : ∃ pc ∈ (kernelRunB c i arg1 harg1 arg2 harg2 arg3 harg3 arg4 harg4 arg5 harg5 arg6 harg6 arg7 harg7 arg8 harg8 arg9 harg9 arg10 harg10 arg11 harg11 arg12 harg12 hc1 hc2 hc3 hc4 x0 xg).1, y ∈ pc.1.set :=
  View.cover_of_tiledL (kernelRunB c i arg1 harg1 arg2 harg2 arg3 harg3 arg4 harg4 arg5 harg5 arg6 harg6 arg7 harg7 arg8 harg8 arg9 harg9 arg10 harg10 arg11 harg11 arg12 harg12 hc1 hc2 hc3 hc4 x0 xg).1 S1024x1024.size (by sl_kernel_rfl) y
/-- The accumulator after case B, from the accumulator before it. -/
def gB (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : cond2 i) (hc3 : ¬cond3 i) (hc4 : ¬cond4 i)
    (x0 xg : Vec F S1024x1024 .f32) : Vec F S1024x1024 .f32 :=
  VG.read (Elt F) (VG.writes (Elt F) VG.junk (kernelRunB c i arg1 harg1 arg2 harg2 arg3 harg3 arg4 harg4 arg5 harg5 arg6 harg6 arg7 harg7 arg8 harg8 arg9 harg9 arg10 harg10 arg11 harg11 arg12 harg12 hc1 hc2 hc3 hc4 x0 xg).1)

theorem coverCG (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : cond2 i) (hc3 : cond3 i) (hc4 : ¬cond4 i)
    (x0 : Vec F S1024x1024 .f32) (x1 : Vec F S1024x256 .f32) (x2 : Vec F S256x256 .f32) (x3 : Vec F S1x256 .f32) (xg : Vec F S1024x1024 .f32) (y : S1024x1024.Idx) :
    ∃ pc ∈ (kernelRunC c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg).1, y ∈ pc.1.set :=
  View.cover_of_tiledL (kernelRunC c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg).1 S1024x1024.size (by sl_kernel_rfl) y
theorem coverCM (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : cond2 i) (hc3 : cond3 i) (hc4 : ¬cond4 i)
    (x0 : Vec F S1024x1024 .f32) (x1 : Vec F S1024x256 .f32) (x2 : Vec F S256x256 .f32) (x3 : Vec F S1x256 .f32) (xg : Vec F S1024x1024 .f32) (y : S1024x256.Idx) :
    ∃ pc ∈ (kernelRunC c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg).2.1, y ∈ pc.1.set :=
  View.cover_of_tiledL (kernelRunC c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg).2.1 S1024x256.size (by sl_kernel_rfl) y
theorem coverCK (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : cond2 i) (hc3 : cond3 i) (hc4 : ¬cond4 i)
    (x0 : Vec F S1024x1024 .f32) (x1 : Vec F S1024x256 .f32) (x2 : Vec F S256x256 .f32) (x3 : Vec F S1x256 .f32) (xg : Vec F S1024x1024 .f32) (y : S1024x256.Idx) :
    ∃ pc ∈ (kernelRunC c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg).2.2.1, y ∈ pc.1.set :=
  View.cover_of_tiledL (kernelRunC c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg).2.2.1 S1024x256.size (by sl_kernel_rfl) y
/-- The accumulator, the mixed rows and the scaled keys after case C. -/
def gC (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : cond2 i) (hc3 : cond3 i) (hc4 : ¬cond4 i)
    (x0 : Vec F S1024x1024 .f32) (x1 : Vec F S1024x256 .f32) (x2 : Vec F S256x256 .f32) (x3 : Vec F S1x256 .f32) (xg : Vec F S1024x1024 .f32) : Vec F S1024x1024 .f32 :=
  VG.read (Elt F) (VG.writes (Elt F) VG.junk (kernelRunC c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg).1)
def mC (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : cond2 i) (hc3 : cond3 i) (hc4 : ¬cond4 i)
    (x0 : Vec F S1024x1024 .f32) (x1 : Vec F S1024x256 .f32) (x2 : Vec F S256x256 .f32) (x3 : Vec F S1x256 .f32) (xg : Vec F S1024x1024 .f32) : Vec F S1024x256 .bf16 :=
  VM.read (Elt F) (VM.writes (Elt F) VM.junk (kernelRunC c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg).2.1)
def kC (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : cond2 i) (hc3 : cond3 i) (hc4 : ¬cond4 i)
    (x0 : Vec F S1024x1024 .f32) (x1 : Vec F S1024x256 .f32) (x2 : Vec F S256x256 .f32) (x3 : Vec F S1x256 .f32) (xg : Vec F S1024x1024 .f32) : Vec F S1024x256 .bf16 :=
  VK.read (Elt F) (VK.writes (Elt F) VK.junk (kernelRunC c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg).2.2.1)

theorem coverD (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : ¬cond2 i) (hc3 : ¬cond3 i) (hc4 : cond4 i)
    (x4 : Vec F S2000x256 .f32) (x5 : Vec F S256x256 .f32) (x6 : Vec F S1x256 .f32) (x7 : Vec F S1024x128 .bf16) (xm xk : Vec F S1024x256 .bf16) (y : S2000x256.Idx) :
    ∃ pc ∈ (kernelRunD c i arg1 harg1 arg2 harg2 arg3 harg3 arg4 harg4 arg5 harg5 arg6 harg6 arg7 harg7 arg8 harg8 arg9 harg9 arg10 harg10 arg11 harg11 arg12 harg12 hc1 hc2 hc3 hc4 x4 x5 x6 x7 xm xk).1, y ∈ pc.1.set :=
  View.cover_of_tiledL (kernelRunD c i arg1 harg1 arg2 harg2 arg3 harg3 arg4 harg4 arg5 harg5 arg6 harg6 arg7 harg7 arg8 harg8 arg9 harg9 arg10 harg10 arg11 harg11 arg12 harg12 hc1 hc2 hc3 hc4 x4 x5 x6 x7 xm xk).1 S2000x256.size (by sl_kernel_rfl) y
/-- The output window's buffer after case D. -/
def oD (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : ¬cond2 i) (hc3 : ¬cond3 i) (hc4 : cond4 i)
    (x4 : Vec F S2000x256 .f32) (x5 : Vec F S256x256 .f32) (x6 : Vec F S1x256 .f32) (x7 : Vec F S1024x128 .bf16) (xm xk : Vec F S1024x256 .bf16) : Vec F S2000x256 .f32 :=
  VO.read (Elt F) (VO.writes (Elt F) VO.junk (kernelRunD c i arg1 harg1 arg2 harg2 arg3 harg3 arg4 harg4 arg5 harg5 arg6 harg6 arg7 harg7 arg8 harg8 arg9 harg9 arg10 harg10 arg11 harg11 arg12 harg12 hc1 hc2 hc3 hc4 x4 x5 x6 x7 xm xk).1)

/-! ## The same at a grid point, on the buffers and blocks of that point -/

def gAp (c : Dev nD) (t : Fin cfg0.N) (h : t.val = 0) : Vec F S1024x1024 .f32 :=
  gA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK (caseA_of t h).1 (caseA_of t h).2.1 (caseA_of t h).2.2.1 (caseA_of t h).2.2.2 (iblk m c 0 t)
def gBp (c : Dev nD) (t : Fin cfg0.N) (h1 : 1 ≤ t.val) (h2 : t.val ≤ 2) (xg : Vec F S1024x1024 .f32) : Vec F S1024x1024 .f32 :=
  gB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK (caseB_of t h1 h2).1 (caseB_of t h1 h2).2.1 (caseB_of t h1 h2).2.2.1 (caseB_of t h1 h2).2.2.2 (iblk m c 0 t) xg
def gCp (c : Dev nD) (t : Fin cfg0.N) (h : t.val = 3) (xg : Vec F S1024x1024 .f32) : Vec F S1024x1024 .f32 :=
  gC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK (caseC_of t h).1 (caseC_of t h).2.1 (caseC_of t h).2.2.1 (caseC_of t h).2.2.2 (iblk m c 0 t) (iblk m c 1 t) (iblk m c 2 t) (iblk m c 3 t) xg
def mCp (c : Dev nD) (t : Fin cfg0.N) (h : t.val = 3) (xg : Vec F S1024x1024 .f32) : Vec F S1024x256 .bf16 :=
  mC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK (caseC_of t h).1 (caseC_of t h).2.1 (caseC_of t h).2.2.1 (caseC_of t h).2.2.2 (iblk m c 0 t) (iblk m c 1 t) (iblk m c 2 t) (iblk m c 3 t) xg
def kCp (c : Dev nD) (t : Fin cfg0.N) (h : t.val = 3) (xg : Vec F S1024x1024 .f32) : Vec F S1024x256 .bf16 :=
  kC c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK (caseC_of t h).1 (caseC_of t h).2.1 (caseC_of t h).2.2.1 (caseC_of t h).2.2.2 (iblk m c 0 t) (iblk m c 1 t) (iblk m c 2 t) (iblk m c 3 t) xg
def oDp (c : Dev nD) (t : Fin cfg0.N) (h : 4 ≤ t.val) (xm xk : Vec F S1024x256 .bf16) : Vec F S2000x256 .f32 :=
  oD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK (caseD_of t h).1 (caseD_of t h).2.1 (caseD_of t h).2.2.1 (caseD_of t h).2.2.2 (iblk m c 4 t) (iblk m c 5 t) (iblk m c 6 t) (iblk m c 7 t) xm xk

/-! ## The accumulator point by point, and what point 3 leaves -/

/-- The Gram accumulator after point `n`: set at point 0, added to at points 1 to 3, untouched afterwards. -/
def gAt (c : Dev nD) : (n : ℕ) → n < cfg0.N → Vec F S1024x1024 .f32
  | 0, hn => gAp m c ⟨0, hn⟩ rfl
  | n + 1, hn =>
    if h2 : n + 1 ≤ 2 then gBp m c ⟨n + 1, hn⟩ (Nat.succ_le_succ (Nat.zero_le n)) h2 (gAt c n (Nat.lt_of_succ_lt hn))
    else if h3 : n + 1 = 3 then gCp m c ⟨n + 1, hn⟩ h3 (gAt c n (Nat.lt_of_succ_lt hn))
    else gAt c n (Nat.lt_of_succ_lt hn)

theorem gAt_A (c : Dev nD) (t : Fin cfg0.N) (h : t.val = 0) : gAt m c t.val t.isLt = gAp m c t h := by
  obtain ⟨n, hn⟩ := t
  cases n with
  | zero => rfl
  | succ n => exact absurd h (Nat.succ_ne_zero n)
theorem gAt_B (c : Dev nD) (t : Fin cfg0.N) (h1 : 1 ≤ t.val) (h2 : t.val ≤ 2) :
    gAt m c t.val t.isLt = gBp m c t h1 h2 (gAt m c (t.val - 1) (Nat.lt_of_le_of_lt (Nat.sub_le _ _) t.isLt)) := by
  obtain ⟨n, hn⟩ := t
  cases n with
  | zero => exact absurd h1 (by dsimp only; omega)
  | succ n => exact (dif_pos h2).trans rfl
theorem gAt_C (c : Dev nD) (t : Fin cfg0.N) (h : t.val = 3) :
    gAt m c t.val t.isLt = gCp m c t h (gAt m c (t.val - 1) (Nat.lt_of_le_of_lt (Nat.sub_le _ _) t.isLt)) := by
  obtain ⟨n, hn⟩ := t
  cases n with
  | zero => exact absurd h (by dsimp only; omega)
  | succ n => exact (dif_neg (by dsimp only at h; omega)).trans ((dif_pos h).trans rfl)
theorem gAt_D (c : Dev nD) (t : Fin cfg0.N) (h : 4 ≤ t.val) :
    gAt m c t.val t.isLt = gAt m c (t.val - 1) (Nat.lt_of_le_of_lt (Nat.sub_le _ _) t.isLt) := by
  obtain ⟨n, hn⟩ := t
  cases n with
  | zero => exact absurd h (by dsimp only; omega)
  | succ n => exact (dif_neg (by dsimp only at h; omega)).trans ((dif_neg (by dsimp only at h; omega)).trans rfl)

/-- Point 3. -/
def t3 : Fin cfg0.N := ⟨3, by rw [N9]; decide⟩
theorem lt2 : 2 < cfg0.N := by rw [N9]; decide
/-- The mixed rows and the scaled keys as point 3 leaves them, from the accumulator after point 2. -/
def mFin (c : Dev nD) : Vec F S1024x256 .bf16 := mCp m c t3 rfl (gAt m c 2 lt2)
def kFin (c : Dev nD) : Vec F S1024x256 .bf16 := kCp m c t3 rfl (gAt m c 2 lt2)
/-- The output window's buffer after point `t`: case D's from point 4 on (before that nothing is stored into it, and
    nothing consults this value). -/
def oAt (c : Dev nD) (t : Fin cfg0.N) : Vec F S2000x256 .f32 :=
  if h : 4 ≤ t.val then oDp m c t h (mFin m c) (kFin m c) else VO.read (Elt F) (VO.writes (Elt F) VO.junk [])

/-! ## What the region keeps between points -/

def PhiS (c : Dev nD) : (n : ℕ) → n ≤ cfg0.N → sProp 𝕄
  | 0, _ => Pipeline.ΦA spec0 c
  | n + 1, hn =>
    if n + 1 ≤ 3 then
      iprop(iprop(owns (c : Thread nD τ) scG fullShare (gAt m c n hn) ∗ (∃ d, owns (c : Thread nD τ) scM fullShare d) ∗ (∃ d, owns (c : Thread nD τ) scK fullShare d)) ∗ (∃ r, prngReg c r))
    else
      iprop(iprop(owns (c : Thread nD τ) scG fullShare (gAt m c n hn) ∗ owns (c : Thread nD τ) scM fullShare (mFin m c) ∗ owns (c : Thread nD τ) scK fullShare (kFin m c)) ∗ (∃ r, prngReg c r))

theorem PhiS_zero (c : Dev nD) (n : ℕ) (h : n ≤ cfg0.N) (hz : n = 0) : PhiS m c n h = Pipeline.ΦA spec0 c := by
  subst hz; rfl
theorem PhiS_early (c : Dev nD) (n : ℕ) (h : n ≤ cfg0.N) (hz : n ≠ 0) (h3 : n ≤ 3) :
    PhiS m c n h = iprop(iprop(owns (c : Thread nD τ) scG fullShare (gAt m c (n - 1) (by omega)) ∗ (∃ d, owns (c : Thread nD τ) scM fullShare d) ∗ (∃ d, owns (c : Thread nD τ) scK fullShare d)) ∗ (∃ r, prngReg c r)) := by
  cases n with
  | zero => exact absurd rfl hz
  | succ n => exact if_pos h3
theorem PhiS_late (c : Dev nD) (n : ℕ) (h : n ≤ cfg0.N) (h4 : 4 ≤ n) :
    PhiS m c n h = iprop(iprop(owns (c : Thread nD τ) scG fullShare (gAt m c (n - 1) (by omega)) ∗ owns (c : Thread nD τ) scM fullShare (mFin m c) ∗ owns (c : Thread nD τ) scK fullShare (kFin m c)) ∗ (∃ r, prngReg c r)) := by
  cases n with
  | zero => exact absurd h4 (by decide)
  | succ n => exact if_neg (by omega)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => oAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = oAt m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

theorem leaves0 (c : Dev nD) (t : Fin cfg0.N) : (dats m 0 c).leavesExact 0 t = owns (c : Thread nD τ) (ms0 t) fullShare (iblk m c 0 t) := by
  unfold Dat.leavesExact; rw [live0 t, after0]
theorem leaves1 (c : Dev nD) (t : Fin cfg0.N) : (dats m 0 c).leavesExact 1 t = owns (c : Thread nD τ) (ms1 t) fullShare (iblk m c 1 t) := by
  unfold Dat.leavesExact; rw [live1 t, after1]
theorem leaves2 (c : Dev nD) (t : Fin cfg0.N) : (dats m 0 c).leavesExact 2 t = owns (c : Thread nD τ) (ms2 t) fullShare (iblk m c 2 t) := by
  unfold Dat.leavesExact; rw [live2 t, after2]
theorem leaves3 (c : Dev nD) (t : Fin cfg0.N) : (dats m 0 c).leavesExact 3 t = owns (c : Thread nD τ) (ms3 t) fullShare (iblk m c 3 t) := by
  unfold Dat.leavesExact; rw [live3 t, after3]
theorem leaves4 (c : Dev nD) (t : Fin cfg0.N) : (dats m 0 c).leavesExact 4 t = owns (c : Thread nD τ) (ms4 t) fullShare (iblk m c 4 t) := by
  unfold Dat.leavesExact; rw [live4 t, after4]
theorem leaves5 (c : Dev nD) (t : Fin cfg0.N) : (dats m 0 c).leavesExact 5 t = owns (c : Thread nD τ) (ms5 t) fullShare (iblk m c 5 t) := by
  unfold Dat.leavesExact; rw [live5 t, after5]
theorem leaves6 (c : Dev nD) (t : Fin cfg0.N) : (dats m 0 c).leavesExact 6 t = owns (c : Thread nD τ) (ms6 t) fullShare (iblk m c 6 t) := by
  unfold Dat.leavesExact; rw [live6 t, after6]
theorem leaves7 (c : Dev nD) (t : Fin cfg0.N) : (dats m 0 c).leavesExact 7 t = owns (c : Thread nD τ) (ms7 t) fullShare (iblk m c 7 t) := by
  unfold Dat.leavesExact; rw [live7 t, after7]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).owesAt () t.succ = (dats m 0 c).owesAt () t.castSucc from rfl]
  rw [show (dats m 0 c).Φ t.succ = PhiS m c (t.val + 1) t.isLt from rfl]
  rw [leaves0, leaves1, leaves2, leaves3, leaves4, leaves5, leaves6, leaves7]
  have hN : t.val < 9 := lt_of_lt_of_eq t.isLt N9
  by_cases hA : t.val = 0
  · -- case A: point 0
    obtain ⟨hc1, hc2, hc3, hc4⟩ := caseA_of t hA
    rw [Dat.leavesExact_idle (dats m 0 c) 8 t (idle8 t hc4) (noFlush8 t hc4)]
    rw [PhiS_castSucc m c t, PhiS_zero m c _ _ hA, PhiA_eq, PhiS_early m c (t.val + 1) t.isLt (Nat.succ_ne_zero _) (by omega)]
    rw [show gAt m c (t.val + 1 - 1) _ = gAt m c t.val t.isLt from rfl, gAt_A m c t hA]
    unfold gAp gA
    iintro ⟨⟨⟨HG, HM, HK⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRunA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK hc1 hc2 hc3 hc4 (iblk m c 0 t)).2 Set.univ _)
    isplitl [H0]; · iexact H0
    isplitl [HG]; · iexact HG
    iintro ⟨H0, ⟨%es, HG⟩⟩
    isplitl [HG HM HK Hg]
    · isplitr [Hg]
      · isplitl [HG]
        · unfold owns; iexists _; isplitr
          swap; · iexact HG
          ipureintro; exact View.read_writes_of_cover _ _ _ _ _ (coverA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK hc1 hc2 hc3 hc4 (iblk m c 0 t))
        isplitl [HM]; · iexact HM
        iexact HK
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists _; iexact H8
  · by_cases hB : t.val ≤ 2
    · -- case B: points 1 and 2
      have h1 : 1 ≤ t.val := by omega
      obtain ⟨hc1, hc2, hc3, hc4⟩ := caseB_of t h1 hB
      rw [Dat.leavesExact_idle (dats m 0 c) 8 t (idle8 t hc4) (noFlush8 t hc4)]
      rw [PhiS_castSucc m c t, PhiS_early m c t.val _ hA (by omega), PhiS_early m c (t.val + 1) t.isLt (Nat.succ_ne_zero _) (by omega)]
      rw [show gAt m c (t.val + 1 - 1) _ = gAt m c t.val t.isLt from rfl, gAt_B m c t h1 hB]
      unfold gBp gB
      iintro ⟨⟨⟨HG, HM, HK⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRunB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK hc1 hc2 hc3 hc4 (iblk m c 0 t) _).2 Set.univ _)
      isplitl [H0]; · iexact H0
      isplitl [HG]; · iexact HG
      iintro ⟨H0, ⟨%es, HG⟩⟩
      isplitl [HG HM HK Hg]
      · isplitr [Hg]
        · isplitl [HG]
          · unfold owns; iexists _; isplitr
            swap; · iexact HG
            ipureintro; exact View.read_writes_of_cover _ _ _ _ _ (coverB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK hc1 hc2 hc3 hc4 (iblk m c 0 t) _)
          isplitl [HM]; · iexact HM
          iexact HK
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · by_cases hC : t.val = 3
      · -- case C: point 3
        obtain rfl : t = t3 := Fin.ext hC
        obtain ⟨hc1, hc2, hc3, hc4⟩ := caseC_of t3 rfl
        rw [Dat.leavesExact_idle (dats m 0 c) 8 t3 (idle8 t3 hc4) (noFlush8 t3 hc4)]
        rw [PhiS_castSucc m c t3, PhiS_early m c t3.val _ (by decide) (by decide), PhiS_late m c (t3.val + 1) t3.isLt (by decide)]
        rw [show gAt m c (t3.val + 1 - 1) _ = gAt m c t3.val t3.isLt from rfl, gAt_C m c t3 rfl]
        unfold mFin kFin gCp mCp kCp gC mC kC
        iintro ⟨⟨⟨HG, ⟨%dm, HM⟩, ⟨%dk, HK⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunC c (grid0.coords t3) (ms0 t3) (hs0 t3) (ms1 t3) (hs1 t3) (ms2 t3) (hs2 t3) (ms3 t3) (hs3 t3) (ms4 t3) (hs4 t3) (ms5 t3) (hs5 t3) (ms6 t3) (hs6 t3) (ms7 t3) (hs7 t3) (ms8 t3) (hs8 t3) scG hscG scM hscM scK hscK hc1 hc2 hc3 hc4 (iblk m c 0 t3) (iblk m c 1 t3) (iblk m c 2 t3) (iblk m c 3 t3) _).2.2.2 Set.univ _)
        isplitl [H0]; · iexact H0
        isplitl [H1]; · iexact H1
        isplitl [H2]; · iexact H2
        isplitl [H3]; · iexact H3
        isplitl [HG]; · iexact HG
        isplitl [HM]; · iexists _; iexact HM
        isplitl [HK]; · iexists _; iexact HK
        iintro ⟨H0, H1, H2, H3, ⟨%eg, HG⟩, ⟨%em, HM⟩, ⟨%ek, HK⟩⟩
        isplitl [HG HM HK Hg]
        · isplitr [Hg]
          · isplitl [HG]
            · unfold owns; iexists _; isplitr
              swap; · iexact HG
              ipureintro; exact View.read_writes_of_cover _ _ _ _ _ (coverCG c (grid0.coords t3) (ms0 t3) (hs0 t3) (ms1 t3) (hs1 t3) (ms2 t3) (hs2 t3) (ms3 t3) (hs3 t3) (ms4 t3) (hs4 t3) (ms5 t3) (hs5 t3) (ms6 t3) (hs6 t3) (ms7 t3) (hs7 t3) (ms8 t3) (hs8 t3) scG hscG scM hscM scK hscK hc1 hc2 hc3 hc4 (iblk m c 0 t3) (iblk m c 1 t3) (iblk m c 2 t3) (iblk m c 3 t3) _)
            isplitl [HM]
            · unfold owns; iexists _; isplitr
              swap; · iexact HM
              ipureintro; exact View.read_writes_of_cover _ _ _ _ _ (coverCM c (grid0.coords t3) (ms0 t3) (hs0 t3) (ms1 t3) (hs1 t3) (ms2 t3) (hs2 t3) (ms3 t3) (hs3 t3) (ms4 t3) (hs4 t3) (ms5 t3) (hs5 t3) (ms6 t3) (hs6 t3) (ms7 t3) (hs7 t3) (ms8 t3) (hs8 t3) scG hscG scM hscM scK hscK hc1 hc2 hc3 hc4 (iblk m c 0 t3) (iblk m c 1 t3) (iblk m c 2 t3) (iblk m c 3 t3) _)
            unfold owns; iexists _; isplitr
            swap; · iexact HK
            ipureintro; exact View.read_writes_of_cover _ _ _ _ _ (coverCK c (grid0.coords t3) (ms0 t3) (hs0 t3) (ms1 t3) (hs1 t3) (ms2 t3) (hs2 t3) (ms3 t3) (hs3 t3) (ms4 t3) (hs4 t3) (ms5 t3) (hs5 t3) (ms6 t3) (hs6 t3) (ms7 t3) (hs7 t3) (ms8 t3) (hs8 t3) scG hscG scM hscM scK hscK hc1 hc2 hc3 hc4 (iblk m c 0 t3) (iblk m c 1 t3) (iblk m c 2 t3) (iblk m c 3 t3) _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · -- case D: points 4 to 8
        have h4 : 4 ≤ t.val := by omega
        obtain ⟨hc1, hc2, hc3, hc4⟩ := caseD_of t h4
        rw [show (dats m 0 c).leavesExact 8 t = owns (c : Thread nD τ) (ms8 t) fullShare ((dats m 0 c).after 8 t) from by
          unfold Dat.leavesExact; rw [live8 t hc4], after8]
        rw [PhiS_castSucc m c t, PhiS_late m c t.val _ h4, PhiS_late m c (t.val + 1) t.isLt (by omega)]
        rw [show gAt m c (t.val + 1 - 1) _ = gAt m c t.val t.isLt from rfl, gAt_D m c t h4]
        rw [show oAt m c t = oDp m c t h4 (mFin m c) (kFin m c) from dif_pos h4]
        unfold oDp oD
        iintro ⟨⟨⟨HG, HM, HK⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRunD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK hc1 hc2 hc3 hc4 (iblk m c 4 t) (iblk m c 5 t) (iblk m c 6 t) (iblk m c 7 t) (mFin m c) (kFin m c)).2 Set.univ _)
        isplitl [H4]; · iexact H4
        isplitl [H5]; · iexact H5
        isplitl [H6]; · iexact H6
        isplitl [H7]; · iexact H7
        isplitl [H8]; · iexists _; iexact H8
        isplitl [HM]; · iexact HM
        isplitl [HK]; · iexact HK
        iintro ⟨H4, H5, H6, H7, ⟨%e8, H8⟩, HM, HK⟩
        isplitl [HG HM HK Hg]
        · isplitr [Hg]
          · isplitl [HG]; · iexact HG
            isplitl [HM]; · iexact HM
            iexact HK
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        unfold owns; iexists _; isplitr
        swap; · iexact H8
        ipureintro; exact View.read_writes_of_cover _ _ _ _ _ (coverD c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) scG hscG scM hscM scK hscK hc1 hc2 hc3 hc4 (iblk m c 4 t) (iblk m c 5 t) (iblk m c 6 t) (iblk m c 7 t) (mFin m c) (kFin m c))

theorem body_obligation (c : Dev nD) : BodyObligation (dats (F := F) m 0 c) (defs₀ (F := F)) Variants.none () Set.univ := fun t => by
  rw [bigSep_W0, bigSep_W0]
  exact sound_body m c t

/-! ## Before the first point and after the last -/

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_late m c _ _ (by rw [Fin.val_last, N9]; decide), PhiA_eq]
  iintro ⟨⟨HG, HM, HK⟩, Hg⟩
  isplitl [HG HM HK]
  · isplitl [HG]; · iexists _; iexact HG
    isplitl [HM]; · iexists _; iexact HM
    iexists _; iexact HK
  iexact Hg

/-! ## The run -/

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program terminates without a fault and leaves its seven argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Body

end
-- ==== Proof.Pieces.lean ====
/-
  What each case's stored pieces read back to, as the body's arithmetic applied to the blocks it loaded: the first
  chunk's Gram matrix; the accumulator plus a chunk's Gram matrix; the mixed rows and the scaled keys computed from the
  accumulator just updated; one block of output rows. Each store covers its whole buffer with one piece at offset zero,
  so the buffer afterwards is that piece's value, and each load at offset zero of a whole buffer is the buffer's contents.
-/
import proofs.«117169_g52209622450808_cont_9to1_m_767_13_alg».proof.Proof.BodyFrame
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

theorem gA_eq (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : cond1 i) (hc2 : ¬cond2 i) (hc3 : ¬cond3 i) (hc4 : ¬cond4 i) (x0 : Vec F S1024x1024 .f32) :
    gA c i arg1 harg1 arg2 harg2 arg3 harg3 arg4 harg4 arg5 harg5 arg6 harg6 arg7 harg7 arg8 harg8 arg9 harg9 arg10 harg10 arg11 harg11 arg12 harg12 hc1 hc2 hc3 hc4 x0 = k0_pay1 x0 := by
  unfold gA
  rw [View.read_writes_eq_canon _ _ _ (coverA c i arg1 harg1 arg2 harg2 arg3 harg3 arg4 harg4 arg5 harg5 arg6 harg6 arg7 harg7 arg8 harg8 arg9 harg9 arg10 harg10 arg11 harg11 arg12 harg12 hc1 hc2 hc3 hc4 x0)]
  unfold kernelRunA
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg10.read_unread, harg11.read_unread, harg12.read_unread, View.ld_unit_zero (S := S1024x1024) hz, View.ld_unit_zero (S := S1024x256) hz, View.ld_unit_zero (S := S256x256) hz, View.ld_unit_zero (S := S1x256) hz, View.ld_unit_zero (S := S2000x256) hz, View.ld_unit_zero (S := S1024x128) hz, View.readCov_unit_zero (S := S1024x1024) _ hz]

theorem gB_eq (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : cond2 i) (hc3 : ¬cond3 i) (hc4 : ¬cond4 i) (x0 xg : Vec F S1024x1024 .f32) :
    gB c i arg1 harg1 arg2 harg2 arg3 harg3 arg4 harg4 arg5 harg5 arg6 harg6 arg7 harg7 arg8 harg8 arg9 harg9 arg10 harg10 arg11 harg11 arg12 harg12 hc1 hc2 hc3 hc4 x0 xg = k0_pay2 x0 xg := by
  unfold gB
  rw [View.read_writes_eq_canon _ _ _ (coverB c i arg1 harg1 arg2 harg2 arg3 harg3 arg4 harg4 arg5 harg5 arg6 harg6 arg7 harg7 arg8 harg8 arg9 harg9 arg10 harg10 arg11 harg11 arg12 harg12 hc1 hc2 hc3 hc4 x0 xg)]
  unfold kernelRunB
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg10.read_unread, harg11.read_unread, harg12.read_unread, View.ld_unit_zero (S := S1024x1024) hz, View.ld_unit_zero (S := S1024x256) hz, View.ld_unit_zero (S := S256x256) hz, View.ld_unit_zero (S := S1x256) hz, View.ld_unit_zero (S := S2000x256) hz, View.ld_unit_zero (S := S1024x128) hz, View.readCov_unit_zero (S := S1024x1024) _ hz]

theorem gC_eq (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : cond2 i) (hc3 : cond3 i) (hc4 : ¬cond4 i) (x0 : Vec F S1024x1024 .f32) (x1 : Vec F S1024x256 .f32) (x2 : Vec F S256x256 .f32) (x3 : Vec F S1x256 .f32) (xg : Vec F S1024x1024 .f32) :
    gC c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg = k0_pay2 x0 xg := by
  unfold gC
  rw [View.read_writes_eq_canon _ _ _ (coverCG c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg)]
  unfold kernelRunC
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg10.read_unread, harg11.read_unread, harg12.read_unread, View.ld_unit_zero (S := S1024x1024) hz, View.ld_unit_zero (S := S1024x256) hz, View.ld_unit_zero (S := S256x256) hz, View.ld_unit_zero (S := S1x256) hz, View.ld_unit_zero (S := S2000x256) hz, View.ld_unit_zero (S := S1024x128) hz, View.readCov_unit_zero (S := S1024x1024) _ hz]

theorem mC_eq (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : cond2 i) (hc3 : cond3 i) (hc4 : ¬cond4 i) (x0 : Vec F S1024x1024 .f32) (x1 : Vec F S1024x256 .f32) (x2 : Vec F S256x256 .f32) (x3 : Vec F S1x256 .f32) (xg : Vec F S1024x1024 .f32) :
    mC c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg = k0_pay3 (k0_pay2 x0 xg) x1 := by
  unfold mC
  rw [View.read_writes_eq_canon _ _ _ (coverCM c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg)]
  unfold kernelRunC
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg10.read_unread, harg11.read_unread, harg12.read_unread, View.ld_unit_zero (S := S1024x1024) hz, View.ld_unit_zero (S := S1024x256) hz, View.ld_unit_zero (S := S256x256) hz, View.ld_unit_zero (S := S1x256) hz, View.ld_unit_zero (S := S2000x256) hz, View.ld_unit_zero (S := S1024x128) hz, View.readCov_unit_zero (S := S1024x1024) _ hz]

theorem kC_eq (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : cond2 i) (hc3 : cond3 i) (hc4 : ¬cond4 i) (x0 : Vec F S1024x1024 .f32) (x1 : Vec F S1024x256 .f32) (x2 : Vec F S256x256 .f32) (x3 : Vec F S1x256 .f32) (xg : Vec F S1024x1024 .f32) :
    kC c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg = k0_pay4 x1 x2 x3 := by
  unfold kC
  rw [View.read_writes_eq_canon _ _ _ (coverCK c i arg1 harg1 arg2 harg2 arg3 harg3 arg4 harg4 arg5 harg5 arg6 harg6 arg7 harg7 arg8 harg8 arg9 harg9 arg10 harg10 arg11 harg11 arg12 harg12 hc1 hc2 hc3 hc4 x0 x1 x2 x3 xg)]
  unfold kernelRunC
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg10.read_unread, harg11.read_unread, harg12.read_unread, View.ld_unit_zero (S := S1024x1024) hz, View.ld_unit_zero (S := S1024x256) hz, View.ld_unit_zero (S := S256x256) hz, View.ld_unit_zero (S := S1x256) hz, View.ld_unit_zero (S := S2000x256) hz, View.ld_unit_zero (S := S1024x128) hz, View.readCov_unit_zero (S := S1024x1024) _ hz]

theorem oD_eq (c : Dev nD) (i : grid0.Coords) (arg1 : Memref sig .tc .vmem S1024x1024 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S2000x256 .f32) (harg5 : arg5.IsWhole) (arg6 : Memref sig .tc .vmem S256x256 .f32) (harg6 : arg6.IsWhole) (arg7 : Memref sig .tc .vmem S1x256 .f32) (harg7 : arg7.IsWhole) (arg8 : Memref sig .tc .vmem S1024x128 .bf16) (harg8 : arg8.IsWhole) (arg9 : Memref sig .tc .vmem S2000x256 .f32) (harg9 : arg9.IsWhole) (arg10 : Memref sig .tc .vmem S1024x1024 .f32) (harg10 : arg10.IsWhole) (arg11 : Memref sig .tc .vmem S1024x256 .bf16) (harg11 : arg11.IsWhole) (arg12 : Memref sig .tc .vmem S1024x256 .bf16) (harg12 : arg12.IsWhole) (hc1 : ¬cond1 i) (hc2 : ¬cond2 i) (hc3 : ¬cond3 i) (hc4 : cond4 i) (x4 : Vec F S2000x256 .f32) (x5 : Vec F S256x256 .f32) (x6 : Vec F S1x256 .f32) (x7 : Vec F S1024x128 .bf16) (xm xk : Vec F S1024x256 .bf16) :
    oD c i arg1 harg1 arg2 harg2 arg3 harg3 arg4 harg4 arg5 harg5 arg6 harg6 arg7 harg7 arg8 harg8 arg9 harg9 arg10 harg10 arg11 harg11 arg12 harg12 hc1 hc2 hc3 hc4 x4 x5 x6 x7 xm xk = k0_pay5 x4 x5 x6 xk xm x7 := by
  unfold oD
  rw [View.read_writes_eq_canon _ _ _ (coverD c i arg1 harg1 arg2 harg2 arg3 harg3 arg4 harg4 arg5 harg5 arg6 harg6 arg7 harg7 arg8 harg8 arg9 harg9 arg10 harg10 arg11 harg11 arg12 harg12 hc1 hc2 hc3 hc4 x4 x5 x6 x7 xm xk)]
  unfold kernelRunD
  dsimp only
  try sl_unfold_words
  rw [View.canon_unit_zero hz]
  simp only [View.readAt_eq_ld, harg1.read_unread, harg2.read_unread, harg3.read_unread, harg4.read_unread, harg5.read_unread, harg6.read_unread, harg7.read_unread, harg8.read_unread, harg10.read_unread, harg11.read_unread, harg12.read_unread, View.ld_unit_zero (S := S1024x1024) hz, View.ld_unit_zero (S := S1024x256) hz, View.ld_unit_zero (S := S256x256) hz, View.ld_unit_zero (S := S1x256) hz, View.ld_unit_zero (S := S2000x256) hz, View.ld_unit_zero (S := S1024x128) hz, View.readCov_unit_zero (S := S1024x1024) _ hz]

end Cert.KernelIdeal.Body

end
-- ==== Proof.Spec.lean ====
/-
  The function both programs compute, written twice over the extended reals, and the hypotheses under which the two
  writings agree.

  From a matrix `fix` (4096 × 1024) the Gram matrix `g i j = ∑ r, fix r i * fix r j`, its entrywise square root
  `f i j = √(g i j)`, the column sums `s j = ∑ i, f i j`, and the mixed rows `mix n d = ∑ j, (f n j / s j) * other j d`.
  From `main` and `other` the projections `Q = main Wqᵀ + bq` and `K = other Wkᵀ + bk`, the logits `Q Kᵀ / 16`, their
  row-wise softmax, and the result `softmax · mix`.

  The two writings differ in where three divisions sit:
  * `(f n j / s j) * other j d` against `f n j * (other j d / s j)`  — equal when `s j ≠ 0`;
  * `(∑ d, q d * k d) / 16` against `∑ d, q d * (k d * (1/16))`      — a non-negative real factor moves through a sum;
  * `∑ n, (e n / σ) * mix n d` against `(∑ n, e n * mix n d) * (1 / σ)` — equal when the softmax denominator `σ` is a positive real.
-/
import Idealize.ShloMosaic.Lib.ValueIdx
import Idealize.ShloMosaic.PureOps.Ideal

noncomputable section

open scoped BigOperators

namespace Cert.Spec

open Idealize.ShloMosaic Idealize.ShloMosaic.ValueIdx

/-! ## Row-wise building blocks over plain functions -/

/-- The real `1/16` among the extended reals: the factor the logits are scaled by. -/
def c16 : EReal := ((1 / 16 : ℝ) : EReal)

/-- The Gram entry `(i, j)` of `R` rows: `∑ r, x r i * x r j`. -/
def gramOf {R : ℕ} (x : Fin R → Fin 1024 → EReal) (i j : Fin 1024) : EReal := ∑ r : Fin R, x r i * x r j

/-- The column sum `j` of the entrywise square root of `g`. -/
def colSum (g : Fin 1024 → Fin 1024 → EReal) (j : Fin 1024) : EReal := ∑ i : Fin 1024, Ideal.sqrt (g i j)

/-- The mixed row, the divisor applied to the right factor: `∑ j, √(g n j) * (o j d / s j)`. -/
def mixK (g : Fin 1024 → Fin 1024 → EReal) (o : Fin 1024 → Fin 256 → EReal) (n : Fin 1024) (d : Fin 256) : EReal :=
  ∑ j : Fin 1024, Ideal.sqrt (g n j) * Ideal.div (o j d) (colSum g j)

/-- The mixed row, the divisor applied to the left factor: `∑ j, (√(g n j) / s j) * o j d`. -/
def mixR (g : Fin 1024 → Fin 1024 → EReal) (o : Fin 1024 → Fin 256 → EReal) (n : Fin 1024) (d : Fin 256) : EReal :=
  ∑ j : Fin 1024, Ideal.div (Ideal.sqrt (g n j)) (colSum g j) * o j d

/-- One row of a projection: `(∑ k, x k * W d k) + b d`. -/
def projRow (x : Fin 256 → EReal) (W : Fin 256 → Fin 256 → EReal) (b : Fin 256 → EReal) (d : Fin 256) : EReal :=
  (∑ k : Fin 256, x k * W d k) + b d

/-- One row of logits against keys already scaled: `∑ d, q d * kk n d`. -/
def logitRowK (q : Fin 256 → EReal) (kk : Fin 1024 → Fin 256 → EReal) (n : Fin 1024) : EReal :=
  ∑ d : Fin 256, q d * kk n d

/-- One row of logits, the product divided by 16: `(∑ d, q d * k n d) / 16`. -/
def logitRowR (q : Fin 256 → EReal) (k : Fin 1024 → Fin 256 → EReal) (n : Fin 1024) : EReal :=
  Ideal.div (∑ d : Fin 256, q d * k n d) ((16 : ℝ) : EReal)

/-- The unnormalised softmax weight of entry `n` of a row of logits: `exp (a n - max a)`. -/
def expRow (a : Fin 1024 → EReal) (n : Fin 1024) : EReal := Ideal.exp (a n - Finset.univ.sup a)

/-- The softmax-weighted row, normalised after the sum: `(∑ n, e n * om n d) * (1 / ∑ n, e n)`. -/
def attnRowK (a : Fin 1024 → EReal) (om : Fin 1024 → Fin 256 → EReal) (d : Fin 256) : EReal :=
  (∑ n : Fin 1024, expRow a n * om n d) * Ideal.div 1 (∑ n : Fin 1024, expRow a n)

/-- The softmax-weighted row, normalised before the sum: `∑ n, (e n / ∑ n', e n') * om n d`. -/
def attnRowR (a : Fin 1024 → EReal) (om : Fin 1024 → Fin 256 → EReal) (d : Fin 256) : EReal :=
  ∑ n : Fin 1024, Ideal.div (expRow a n) (∑ n' : Fin 1024, expRow a n') * om n d

/-! ## The result over the seven argument arrays -/

section Result

variable (mainF : (⟨2, ![10000, 256]⟩ : Shape).Idx → EReal) (other : (⟨2, ![1024, 256]⟩ : Shape).Idx → EReal)
  (fix : (⟨2, ![4096, 1024]⟩ : Shape).Idx → EReal) (Wq : (⟨2, ![256, 256]⟩ : Shape).Idx → EReal)
  (bq : (⟨1, ![256]⟩ : Shape).Idx → EReal) (Wk : (⟨2, ![256, 256]⟩ : Shape).Idx → EReal) (bk : (⟨1, ![256]⟩ : Shape).Idx → EReal)

/-- The Gram matrix of all 4096 rows of `fix`. -/
def gramFull (i j : Fin 1024) : EReal := gramOf (fun (r : Fin 4096) i => fix (ix2 r i)) i j

/-- Row `r` of `Q = main Wqᵀ + bq`. -/
def qRow (r : Fin 10000) (d : Fin 256) : EReal :=
  projRow (fun k => mainF (ix2 r k)) (fun d k => Wq (ix2 d k)) (fun d => bq (ix1 d)) d

/-- Row `n` of `K = other Wkᵀ + bk`. -/
def kRow (n : Fin 1024) (d : Fin 256) : EReal :=
  projRow (fun k => other (ix2 n k)) (fun d k => Wk (ix2 d k)) (fun d => bk (ix1 d)) d

/-- The result, the three divisions placed as a blocked computation places them (keys pre-scaled by `1/16`, the
    column-sum divisor on `other`, the softmax normalised after the weighted sum). -/
def ResK : (⟨2, ![10000, 256]⟩ : Shape).Idx → EReal := fun i =>
  attnRowK (logitRowK (qRow mainF Wq bq (i 0)) (fun n d => kRow other Wk bk n d * c16))
    (mixK (gramFull fix) (fun j d => other (ix2 j d))) (i 1)

/-- The result, the three divisions placed as the plain formula places them. -/
def ResR : (⟨2, ![10000, 256]⟩ : Shape).Idx → EReal := fun i =>
  attnRowR (logitRowR (qRow mainF Wq bq (i 0)) (kRow other Wk bk))
    (mixR (gramFull fix) (fun j d => other (ix2 j d))) (i 1)

/-- What the two writings need in order to agree: every entry of every argument is a real number, and every
    column of `fix` has a positive sum of squares (so that no column sum of the square-rooted Gram matrix is zero). -/
structure Hyp : Prop where
  main_fin : ∀ i, mainF i ≠ ⊥ ∧ mainF i ≠ ⊤
  other_fin : ∀ i, other i ≠ ⊥ ∧ other i ≠ ⊤
  fix_fin : ∀ i, fix i ≠ ⊥ ∧ fix i ≠ ⊤
  Wq_fin : ∀ i, Wq i ≠ ⊥ ∧ Wq i ≠ ⊤
  bq_fin : ∀ i, bq i ≠ ⊥ ∧ bq i ≠ ⊤
  Wk_fin : ∀ i, Wk i ≠ ⊥ ∧ Wk i ≠ ⊤
  bk_fin : ∀ i, bk i ≠ ⊥ ∧ bk i ≠ ⊤
  gram_pos : ∀ j : Fin 1024, 0 < ∑ r : Fin 4096, fix (ix2 r j) * fix (ix2 r j)

end Result

end Cert.Spec

end
-- ==== Proof.LibSums.lean ====
/-
  General lemmas on sums, maxima and re-laid arrays at the ideal float instance, where a float is an extended
  real and an array of shape `S` is a function `S.Idx → EReal`. Indices are written by coordinates (`ix1` … `ix4`).

  * a sum (or a maximum) taken by the host over some axes of an array, read at an index as a `Fin`-indexed sum
    (a fold of `max`) over the coordinates on those axes;
  * the same for a vector reduction over one axis;
  * a row-major re-laying of an array (the flat position is preserved) read at an index, and the transport of a
    total sum along any bijection of index sets;
  * the split of a sum or a maximum over `m + n` coordinates into the two blocks;
  * a few identities of extended-real arithmetic: division by a power of two as a product, words of the f32 format
    evaluated, a difference of two scaled reals squared.
-/
import Idealize.ShloMosaic.Lib.ValueIdx
import Idealize.ShloMosaic.Lib.Pipeline.Value
import Idealize.ShloMosaic.PureOps.Ideal.Laws
import Mathlib.Algebra.BigOperators.Fin
import Mathlib.Order.Fin.Basic
import Mathlib.Tactic.Ring
import Mathlib.Tactic.NormNum

noncomputable section

open scoped BigOperators

namespace Idealize.ShloMosaic.LibSums

open Idealize.ShloMosaic Idealize.ShloMosaic.ValueIdx

/-! ## A sum over an index set, by coordinates -/

section ByCoordinates
variable {M : Type*} [AddCommMonoid M]

/-- A rank-1 index set is its one coordinate range … -/
def idxEquiv1 {n0 : Nat} : (⟨1, ![n0]⟩ : Shape).Idx ≃ Fin n0 where
  toFun i := i 0
  invFun a := ix1 a
  left_inv i := (eq_ix1 i).symm
  right_inv _ := rfl
/-- … so a sum over it is the sum over the coordinate. -/
theorem sum_idx1 {n0 : Nat} (f : (⟨1, ![n0]⟩ : Shape).Idx → M) : ∑ i, f i = ∑ a : Fin n0, f (ix1 a) := by
  rw [← Equiv.sum_comp (idxEquiv1 (n0 := n0)).symm f]
  rfl

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f]
  simp only [Fintype.sum_prod_type]
  rfl

/-- A rank-4 index set is the product of its four coordinate ranges … -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl
/-- … so a sum over it is the fourfold sum over the coordinates. -/
theorem sum_idx4 {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

end ByCoordinates

/-! ## The host's float sum, read at an index -/

section HostSum
variable {φ : FTy}

/-- The host's float sum at the ideal instance is the initial value's element plus the exact sum of the operand's
    elements that reduce to the index. -/
theorem hostReduceAdd_apply {s t u : Shape} {axes : List (Fin s.rank)} (x : FVec Ideal s φ) (init : u.Idx → Ideal φ)
    (h' : s.ReducesTo axes t) (hu : 0 < u.numel) (j : t.Idx) :
    Host.reduceAdd x init h' hu j = Ideal.hostReduceAdd h' x (init (Shape.Idx.first hu)) j := rfl

/-- The sum over the operand indices that reduce to `j`, re-indexed: if `lift` lists those indices without
    repetition (`proj` recovers the label of each), the sum runs over the labels. -/
theorem hostReduceAdd_of_lift {s t : Shape} {axes : List (Fin s.rank)} (h' : s.ReducesTo axes t) (x : s.Idx → EReal)
    (init : EReal) (j : t.Idx) {κ : Type} [Fintype κ] (lift : κ → s.Idx) (proj : s.Idx → κ)
    (h1 : ∀ k, h'.drop (lift k) = j) (h2 : ∀ k, proj (lift k) = k) (h3 : ∀ i, h'.drop i = j → lift (proj i) = i) :
    Ideal.hostReduceAdd h' x init j = init + ∑ k, x (lift k) := by
  unfold Ideal.hostReduceAdd
  refine congrArg (init + ·) ?_
  refine Finset.sum_nbij' proj lift ?_ ?_ ?_ ?_ ?_
  · intro i _; exact Finset.mem_univ _
  · intro k _; exact Finset.mem_filter.2 ⟨Finset.mem_univ _, h1 k⟩
  · intro i hi; exact h3 i (Finset.mem_filter.1 hi).2
  · intro k _; exact h2 k
  · intro i hi; rw [h3 i (Finset.mem_filter.1 hi).2]

/-- The total sum of a rank-4 array: a host sum into a result whose axes all have size one (the rank-0 result of a sum
    over every axis: `ht := fun b => b.elim0`) is the initial value plus the sum over the four coordinates. -/
theorem hostSum_all4 {n0 n1 n2 n3 : Nat} {t u : Shape} {axes : List (Fin 4)}
    (x : FVec Ideal ⟨4, ![n0, n1, n2, n3]⟩ φ) (init : u.Idx → Ideal φ)
    (h' : Shape.ReducesTo ⟨4, ![n0, n1, n2, n3]⟩ axes t) (hu : 0 < u.numel) (ht : ∀ b, t.size b = 1) (j : t.Idx) :
    Host.reduceAdd x init h' hu j
      = init (Shape.Idx.first hu) + ∑ a : Fin n0, ∑ b : Fin n1, ∑ c : Fin n2, ∑ d : Fin n3, x (ix4 a b c d) := by
  rw [hostReduceAdd_apply, Ideal.hostReduceAdd_total h' ht, sum_idx4]

/-- The total sum of a rank-3 array. -/
theorem hostSum_all3 {n0 n1 n2 : Nat} {t u : Shape} {axes : List (Fin 3)}
    (x : FVec Ideal ⟨3, ![n0, n1, n2]⟩ φ) (init : u.Idx → Ideal φ)
    (h' : Shape.ReducesTo ⟨3, ![n0, n1, n2]⟩ axes t) (hu : 0 < u.numel) (ht : ∀ b, t.size b = 1) (j : t.Idx) :
    Host.reduceAdd x init h' hu j
      = init (Shape.Idx.first hu) + ∑ a : Fin n0, ∑ b : Fin n1, ∑ c : Fin n2, x (ix3 a b c) := by
  rw [hostReduceAdd_apply, Ideal.hostReduceAdd_total h' ht, sum_idx3]

/-- The total sum of a rank-2 array. -/
theorem hostSum_all2 {n0 n1 : Nat} {t u : Shape} {axes : List (Fin 2)}
    (x : FVec Ideal ⟨2, ![n0, n1]⟩ φ) (init : u.Idx → Ideal φ)
    (h' : Shape.ReducesTo ⟨2, ![n0, n1]⟩ axes t) (hu : 0 < u.numel) (ht : ∀ b, t.size b = 1) (j : t.Idx) :
    Host.reduceAdd x init h' hu j = init (Shape.Idx.first hu) + ∑ a : Fin n0, ∑ b : Fin n1, x (ix2 a b) := by
  rw [hostReduceAdd_apply, Ideal.hostReduceAdd_total h' ht, sum_idx2]

/-- The total sum of a rank-1 array. -/
theorem hostSum_all1 {n0 : Nat} {t u : Shape} {axes : List (Fin 1)}
    (x : FVec Ideal ⟨1, ![n0]⟩ φ) (init : u.Idx → Ideal φ)
    (h' : Shape.ReducesTo ⟨1, ![n0]⟩ axes t) (hu : 0 < u.numel) (ht : ∀ b, t.size b = 1) (j : t.Idx) :
    Host.reduceAdd x init h' hu j = init (Shape.Idx.first hu) + ∑ a : Fin n0, x (ix1 a) := by
  rw [hostReduceAdd_apply, Ideal.hostReduceAdd_total h' ht, sum_idx1]

/-- The sum over axis 1 of a rank-4 array, at `(b, h, w)`: the initial value plus the sum over the coordinate `c` on
    that axis of the operand at `(b, c, h, w)`. -/
theorem hostSum_axis1_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (j : (⟨3, ![n0, n2, n3]⟩ : Shape).Idx) :
    Host.reduceAdd x init h' hu j = init (Shape.Idx.first hu) + ∑ c : Fin n1, x (ix4 (j 0) c (j 1) (j 2)) := by
  rw [hostReduceAdd_apply]
  refine hostReduceAdd_of_lift h' x _ j (fun c => ix4 (j 0) c (j 1) (j 2)) (fun i => i 1) ?_ (fun _ => rfl) ?_
  · intro c; funext b
    match b with
    | ⟨0, _⟩ => rfl
    | ⟨1, _⟩ => rfl
    | ⟨2, _⟩ => rfl
  · intro i hi; subst hi; funext a
    match a with
    | ⟨0, _⟩ => rfl
    | ⟨1, _⟩ => rfl
    | ⟨2, _⟩ => rfl
    | ⟨3, _⟩ => rfl

/-- The sum over axes 2 and 3 of a rank-4 array, at `(b, c)`: the initial value plus the double sum over the
    coordinates `(h, w)` on those axes of the operand at `(b, c, h, w)`. -/
theorem hostSum_axes23_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [2, 3] ⟨2, ![n0, n1]⟩) (hu : 0 < u.numel)
    (j : (⟨2, ![n0, n1]⟩ : Shape).Idx) :
    Host.reduceAdd x init h' hu j
      = init (Shape.Idx.first hu) + ∑ h : Fin n2, ∑ w : Fin n3, x (ix4 (j 0) (j 1) h w) := by
  rw [hostReduceAdd_apply, ← Fintype.sum_prod_type (f := fun p : Fin n2 × Fin n3 => x (ix4 (j 0) (j 1) p.1 p.2))]
  refine hostReduceAdd_of_lift h' x _ j (fun p : Fin n2 × Fin n3 => ix4 (j 0) (j 1) p.1 p.2) (fun i => (i 2, i 3)) ?_
    (fun _ => rfl) ?_
  · intro p; funext b
    match b with
    | ⟨0, _⟩ => rfl
    | ⟨1, _⟩ => rfl
  · intro i hi; subst hi; funext a
    match a with
    | ⟨0, _⟩ => rfl
    | ⟨1, _⟩ => rfl
    | ⟨2, _⟩ => rfl
    | ⟨3, _⟩ => rfl

end HostSum

/-! ## The host's float maximum over one axis, read at an index -/

section HostMax
variable {φ : FTy}

/-- The fold of a commutative and associative operation over the operand indices that reduce to `j`, re-indexed: if
    `lift` lists those indices without repetition (`proj` recovers the label of each), the fold runs over the labels. -/
theorem fold_filter_drop_of_lift {α : Type} {s t : Shape} {axes : List (Fin s.rank)} (h' : s.ReducesTo axes t)
    (op : α → α → α) [Std.Commutative op] [Std.Associative op] (init : α) (x : s.Idx → α) (j : t.Idx)
    {κ : Type} [Fintype κ] (lift : κ → s.Idx) (proj : s.Idx → κ)
    (h1 : ∀ k, h'.drop (lift k) = j) (h2 : ∀ k, proj (lift k) = k) (h3 : ∀ i, h'.drop i = j → lift (proj i) = i) :
    (Finset.univ.filter fun i => h'.drop i = j).fold op init x
      = (Finset.univ : Finset κ).fold op init (fun k => x (lift k)) := by
  classical
  have himg : (Finset.univ.filter fun i => h'.drop i = j) = Finset.univ.image lift := by
    ext i
    simp only [Finset.mem_filter, Finset.mem_univ, true_and, Finset.mem_image]
    exact ⟨fun hi => ⟨proj i, h3 i hi⟩, fun ⟨k, hk⟩ => by rw [← hk]; exact h1 k⟩
  rw [himg, Finset.fold_image (fun k _ k' _ e => by rw [← h2 k, ← h2 k', e])]
  rfl

/-- The host's maximum over axis 1 of a rank-4 array, at `(b, h, w)`: the fold of `max`, from the initial value's
    element, over the coordinate `c` on that axis of the operand at `(b, c, h, w)`. -/
theorem hostMax_axis1_of4_fold {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (j : (⟨3, ![n0, n2, n3]⟩ : Shape).Idx) :
    Host.reduce (FloatOps.maximumf (F := Ideal) (φ := φ)) x init h' hu j
      = (Finset.univ : Finset (Fin n1)).fold max (init (Shape.Idx.first hu)) (fun c => x (ix4 (j 0) c (j 1) (j 2))) := by
  rw [Host.reduce_eq_fold]
  refine fold_filter_drop_of_lift h' _ _ x j (fun c => ix4 (j 0) c (j 1) (j 2)) (fun i => i 1) ?_ (fun _ => rfl) ?_
  · intro c; funext b
    match b with
    | ⟨0, _⟩ => rfl
    | ⟨1, _⟩ => rfl
    | ⟨2, _⟩ => rfl
  · intro i hi; subst hi; funext a
    match a with
    | ⟨0, _⟩ => rfl
    | ⟨1, _⟩ => rfl
    | ⟨2, _⟩ => rfl
    | ⟨3, _⟩ => rfl

/-- A fold of `max` from the least element is the supremum of the family. -/
theorem fold_max_bot {κ : Type} (S : Finset κ) (f : κ → EReal) : S.fold max ⊥ f = S.sup f := rfl

/-- A fold of `max` from any start is the maximum of the start and the supremum of the family. -/
theorem fold_max_eq_sup {κ : Type} (S : Finset κ) (b : EReal) (f : κ → EReal) : S.fold max b f = max b (S.sup f) := by
  classical
  induction S using Finset.induction_on with
  | empty => simp
  | insert a S ha ih => rw [Finset.fold_insert ha, ih, Finset.sup_insert]; exact max_left_comm _ _ _

/-- So, from the initial value `-∞`, the host's maximum over axis 1 is the supremum over the coordinate on that axis. -/
theorem hostMax_axis1_of4 {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (hinit : init (Shape.Idx.first hu) = ⊥) (j : (⟨3, ![n0, n2, n3]⟩ : Shape).Idx) :
    Host.reduce (FloatOps.maximumf (F := Ideal) (φ := φ)) x init h' hu j
      = (Finset.univ : Finset (Fin n1)).sup (fun c => x (ix4 (j 0) c (j 1) (j 2))) := by
  rw [hostMax_axis1_of4_fold, hinit, fold_max_bot]

end HostMax

/-! ## The same readings at an index written by coordinates -/

section AtCoordinates
variable {φ : FTy}

/-- The host's sum over axis 1 of a rank-4 array at `(r, s, w)`. -/
theorem hostSum_axis1_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (r : Fin n0) (s : Fin n2) (w : Fin n3) :
    Host.reduceAdd x init h' hu (ix3 r s w) = init (Shape.Idx.first hu) + ∑ c : Fin n1, x (ix4 r c s w) :=
  hostSum_axis1_of4 x init h' hu (ix3 r s w)

/-- The host's sum over axes 2 and 3 of a rank-4 array at `(r, c)`. -/
theorem hostSum_axes23_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [2, 3] ⟨2, ![n0, n1]⟩) (hu : 0 < u.numel)
    (r : Fin n0) (c : Fin n1) :
    Host.reduceAdd x init h' hu (ix2 r c)
      = init (Shape.Idx.first hu) + ∑ s : Fin n2, ∑ w : Fin n3, x (ix4 r c s w) :=
  hostSum_axes23_of4 x init h' hu (ix2 r c)

/-- The host's maximum over axis 1 of a rank-4 array, from `-∞`, at `(r, s, w)`. -/
theorem hostMax_axis1_of4_ix {n0 n1 n2 n3 : Nat} {u : Shape}
    (x : FVec Ideal ⟨4, ![n0, n1, n2, n3]⟩ φ) (init : u.Idx → Ideal φ)
    (h' : Shape.ReducesTo ⟨4, ![n0, n1, n2, n3]⟩ [1] ⟨3, ![n0, n2, n3]⟩) (hu : 0 < u.numel)
    (hinit : init (Shape.Idx.first hu) = ⊥) (r : Fin n0) (s : Fin n2) (w : Fin n3) :
    Host.reduce (FloatOps.maximumf (F := Ideal) (φ := φ)) x init h' hu (ix3 r s w)
      = (Finset.univ : Finset (Fin n1)).sup (fun c => x (ix4 r c s w)) :=
  hostMax_axis1_of4 x init h' hu hinit (ix3 r s w)

end AtCoordinates

/-! ## A sum or a maximum over `m + n` coordinates, split into the two blocks -/

section Split

/-- A sum over `N = m + n` coordinates is the sum over the first `m` plus the sum over the last `n`. -/
theorem sum_split {M : Type*} [AddCommMonoid M] {N : Nat} (m n : Nat) (hN : N = m + n) (f : Fin N → M) :
    ∑ c : Fin N, f c
      = ∑ c : Fin m, f ⟨c.val, by omega⟩ + ∑ c : Fin n, f ⟨m + c.val, by omega⟩ := by
  subst hN
  exact Fin.sum_univ_add f

/-- A sum over 256 coordinates is the sum over the first 128 plus the sum over the last 128. -/
theorem sum_split_256 {M : Type*} [AddCommMonoid M] (f : Fin 256 → M) :
    ∑ c : Fin 256, f c = ∑ c : Fin 128, f ⟨c.val, by omega⟩ + ∑ c : Fin 128, f ⟨128 + c.val, by omega⟩ :=
  sum_split 128 128 rfl f

/-- A supremum over `N = m + n` coordinates is the maximum of the supremum over the first `m` and the supremum over
    the last `n`. -/
theorem sup_split {N : Nat} (m n : Nat) (hN : N = m + n) (f : Fin N → EReal) :
    (Finset.univ : Finset (Fin N)).sup f
      = max ((Finset.univ : Finset (Fin m)).sup fun c => f ⟨c.val, by omega⟩)
          ((Finset.univ : Finset (Fin n)).sup fun c => f ⟨m + c.val, by omega⟩) := by
  apply le_antisymm
  · refine Finset.sup_le fun c _ => ?_
    by_cases hc : c.val < m
    · exact le_max_of_le_left
        (Finset.le_sup (f := fun c : Fin m => f ⟨c.val, by omega⟩) (Finset.mem_univ (⟨c.val, hc⟩ : Fin m)))
    · have hlt : c.val - m < n := by have := c.isLt; omega
      have hle := Finset.le_sup (f := fun c : Fin n => f ⟨m + c.val, by omega⟩) (Finset.mem_univ (⟨c.val - m, hlt⟩ : Fin n))
      have hcc : (⟨m + (c.val - m), by omega⟩ : Fin N) = c := Fin.ext (by show m + (c.val - m) = c.val; omega)
      simp only [hcc] at hle
      exact le_max_of_le_right hle
  · exact max_le (Finset.sup_le fun c _ => Finset.le_sup (Finset.mem_univ _))
      (Finset.sup_le fun c _ => Finset.le_sup (Finset.mem_univ _))

/-- A supremum over 256 coordinates is the maximum of the suprema over the first and the last 128. -/
theorem sup_split_256 (f : Fin 256 → EReal) :
    (Finset.univ : Finset (Fin 256)).sup f
      = max ((Finset.univ : Finset (Fin 128)).sup fun c => f ⟨c.val, by omega⟩)
          ((Finset.univ : Finset (Fin 128)).sup fun c => f ⟨128 + c.val, by omega⟩) :=
  sup_split 128 128 rfl f

/-- Starting a running maximum from `-∞` changes nothing. -/
theorem max_max_bot (a b : EReal) : max (max ⊥ a) b = max a b := by rw [max_eq_right (bot_le : (⊥ : EReal) ≤ a)]

/-- The maximum of `-∞` and `a` is `a`. -/
theorem max_bot_left (a : EReal) : max ⊥ a = a := max_eq_right bot_le

/-- Starting a running sum from `0` changes nothing. -/
theorem zero_add_ereal (a : EReal) : 0 + a = a := zero_add a

end Split

/-! ## A row-major re-laying of an array: the flat position is preserved -/

section Relay

/-- The flat position of `(p, q)` in an `a' × b'` grid is below `a' * b'`. -/
theorem flat_lt {a' b' : Nat} (p : Fin a') (q : Fin b') : p.val * b' + q.val < a' * b' := by
  have h1 : p.val * b' + q.val < p.val * b' + b' := Nat.add_lt_add_left q.isLt _
  have h2 : p.val * b' + b' = (p.val + 1) * b' := by rw [Nat.add_mul, Nat.one_mul]
  have h3 : (p.val + 1) * b' ≤ a' * b' := Nat.mul_le_mul_right _ p.isLt
  omega

/-- The row of the flat position `p * b' + q` in a grid of row length `b'` is `p`. -/
theorem flat_div {a' b' : Nat} (p : Fin a') (q : Fin b') : (p.val * b' + q.val) / b' = p.val := by
  have hb : 0 < b' := Nat.lt_of_le_of_lt (Nat.zero_le _) q.isLt
  rw [Nat.add_comm, Nat.add_mul_div_right _ _ hb, Nat.div_eq_of_lt q.isLt, Nat.zero_add]

/-- The column of the flat position `p * b' + q` in a grid of row length `b'` is `q`. -/
theorem flat_mod {a' b' : Nat} (p : Fin a') (q : Fin b') : (p.val * b' + q.val) % b' = q.val := by
  rw [Nat.add_comm, Nat.add_mul_mod_self_right, Nat.mod_eq_of_lt q.isLt]

/-- A grid with an element has a positive row length. -/
theorem pos_of_lt_mul {a b k : Nat} (hk : k < a * b) : 0 < b := by
  rcases Nat.eq_zero_or_pos b with h | h
  · subst h; simp at hk
  · exact h

/-- The row, in the `a × b` grid, of the element at `(p, q)` of an `a' × b'` grid with as many elements: the two have
    the same flat position. -/
def relayRow {a b a' b' : Nat} (hab : a * b = a' * b') (p : Fin a') (q : Fin b') : Fin a :=
  ⟨(p.val * b' + q.val) / b, Nat.div_lt_of_lt_mul (by have h := flat_lt p q; rw [← hab, Nat.mul_comm a b] at h; exact h)⟩

/-- The column, in the `a × b` grid, of the element at `(p, q)` of an `a' × b'` grid with as many elements. -/
def relayCol {a b a' b' : Nat} (hab : a * b = a' * b') (p : Fin a') (q : Fin b') : Fin b :=
  ⟨(p.val * b' + q.val) % b, Nat.mod_lt _ (pos_of_lt_mul (hab ▸ flat_lt p q))⟩

theorem relayRow_val {a b a' b' : Nat} (hab : a * b = a' * b') (p : Fin a') (q : Fin b') :
    (relayRow hab p q).val = (p.val * b' + q.val) / b := rfl

theorem relayCol_val {a b a' b' : Nat} (hab : a * b = a' * b') (p : Fin a') (q : Fin b') :
    (relayCol hab p q).val = (p.val * b' + q.val) % b := rfl

/-- The re-laid element has the same flat position. -/
theorem relay_flat {a b a' b' : Nat} (hab : a * b = a' * b') (p : Fin a') (q : Fin b') :
    (relayRow hab p q).val * b + (relayCol hab p q).val = p.val * b' + q.val :=
  Nat.div_add_mod' _ _

/-- Re-laying back gives the row again … -/
theorem relayRow_relay {a b a' b' : Nat} (hab : a * b = a' * b') (p : Fin a') (q : Fin b') :
    relayRow hab.symm (relayRow hab p q) (relayCol hab p q) = p :=
  Fin.ext (by rw [relayRow_val, relay_flat, flat_div])

/-- … and the column. -/
theorem relayCol_relay {a b a' b' : Nat} (hab : a * b = a' * b') (p : Fin a') (q : Fin b') :
    relayCol hab.symm (relayRow hab p q) (relayCol hab p q) = q :=
  Fin.ext (by rw [relayCol_val, relay_flat, flat_mod])

/-- Two grids with as many elements correspond by flat position. -/
def relayEquiv {a b a' b' : Nat} (hab : a * b = a' * b') : Fin a' × Fin b' ≃ Fin a × Fin b where
  toFun pq := (relayRow hab pq.1 pq.2, relayCol hab pq.1 pq.2)
  invFun rs := (relayRow hab.symm rs.1 rs.2, relayCol hab.symm rs.1 rs.2)
  left_inv pq := Prod.ext (relayRow_relay hab pq.1 pq.2) (relayCol_relay hab pq.1 pq.2)
  right_inv rs := Prod.ext (relayRow_relay hab.symm rs.1 rs.2) (relayCol_relay hab.symm rs.1 rs.2)

/-- THE SUM TRANSPORT over two grids with as many elements: summing over `(p, q)` the term at the re-laid position is
    summing over every `(r, s)`. At `a = b = 64`, `a' = 32`, `b' = 128`:
    `∑ p : Fin 32, ∑ q : Fin 128, F ((p·128+q)/64) ((p·128+q)%64) = ∑ r : Fin 64, ∑ s : Fin 64, F r s`. -/
theorem sum_relay {M : Type*} [AddCommMonoid M] {a b a' b' : Nat} (hab : a * b = a' * b') (F : Fin a → Fin b → M) :
    ∑ p : Fin a', ∑ q : Fin b', F (relayRow hab p q) (relayCol hab p q) = ∑ r : Fin a, ∑ s : Fin b, F r s :=
  (Fintype.sum_prod_type' (fun p q => F (relayRow hab p q) (relayCol hab p q))).symm.trans
    ((Fintype.sum_equiv (relayEquiv hab) (fun pq => F (relayRow hab pq.1 pq.2) (relayCol hab pq.1 pq.2))
      (fun rs => F rs.1 rs.2) (fun _ => rfl)).trans (Fintype.sum_prod_type' F))

/-- The same transport for a term given as a function of the flat position:
    `∑ p q, g (p·b' + q) = ∑ r s, g (r·b + s)`. -/
theorem sum_flat_relay {M : Type*} [AddCommMonoid M] {a b a' b' : Nat} (hab : a * b = a' * b') (g : Nat → M) :
    ∑ p : Fin a', ∑ q : Fin b', g (p.val * b' + q.val) = ∑ r : Fin a, ∑ s : Fin b, g (r.val * b + s.val) := by
  rw [← sum_relay hab (fun r s => g (r.val * b + s.val))]
  exact Finset.sum_congr rfl fun p _ => Finset.sum_congr rfl fun q _ => congrArg g (relay_flat hab p q).symm

/-- The total sum is carried along any bijection of index sets: if `y` reads `x` through `e`, their sums agree. -/
theorem sum_eq_of_equiv {ι κ M : Type*} [Fintype ι] [Fintype κ] [AddCommMonoid M] (e : ι ≃ κ) (y : ι → M) (x : κ → M)
    (h : ∀ i, y i = x (e i)) : ∑ i, y i = ∑ k, x k :=
  Fintype.sum_equiv e y x h

/-- A re-laid array has the same total sum. -/
theorem sum_shapeCast {M : Type} [AddCommMonoid M] {s t : Shape} (x : s.Idx → M) (h : s.ShapeCasts t) :
    ∑ j, shapeCast t x h j = ∑ i, x i :=
  Fintype.sum_equiv (Shape.reshapeEquiv h) _ _ (fun _ => rfl)

variable {α : Type}

/-- A rank-4 array whose two inner axes `a × b` are re-laid as `a' × b'` (as many elements) reads, at `(i0, i1, p, q)`,
    the operand at `(i0, i1)` and the inner position with the same flat position: `[8,256,64,64]` as `[8,256,32,128]`
    at `(b, c, p, q)` is the operand at `(b, c, (p·128+q)/64, (p·128+q)%64)`, and the other way round. -/
theorem shapeCast4_inner_apply {n0 n1 a b a' b' : Nat} (hab : a * b = a' * b')
    (x : (⟨4, ![n0, n1, a, b]⟩ : Shape).Idx → α)
    (h : (⟨4, ![n0, n1, a, b]⟩ : Shape).ShapeCasts ⟨4, ![n0, n1, a', b']⟩)
    (i0 : Fin n0) (i1 : Fin n1) (p : Fin a') (q : Fin b') :
    shapeCast ⟨4, ![n0, n1, a', b']⟩ x h (ix4 i0 i1 p q) = x (ix4 i0 i1 (relayRow hab p q) (relayCol hab p q)) :=
  shapeCast_apply x h _ _ (by
    rw [Shape.rowMajor_val_four, Shape.rowMajor_val_four]
    show ((i0.val * n1 + i1.val) * a + (relayRow hab p q).val) * b + (relayCol hab p q).val
        = ((i0.val * n1 + i1.val) * a' + p.val) * b' + q.val
    have hf := relay_flat hab p q
    calc ((i0.val * n1 + i1.val) * a + (relayRow hab p q).val) * b + (relayCol hab p q).val
        = (i0.val * n1 + i1.val) * (a * b) + ((relayRow hab p q).val * b + (relayCol hab p q).val) := by ring
      _ = (i0.val * n1 + i1.val) * (a' * b') + (p.val * b' + q.val) := by rw [hab, hf]
      _ = ((i0.val * n1 + i1.val) * a' + p.val) * b' + q.val := by ring)

/-- A rank-4 array `[n0, 1, a, b]` re-laid as the rank-3 array `[n0, a', b']` (as many inner elements) reads, at
    `(i0, p, q)`, the operand at `(i0, 0)` and the inner position with the same flat position. -/
theorem shapeCast_n1ab_nab_apply {n0 a b a' b' : Nat} (hab : a * b = a' * b')
    (x : (⟨4, ![n0, 1, a, b]⟩ : Shape).Idx → α)
    (h : (⟨4, ![n0, 1, a, b]⟩ : Shape).ShapeCasts ⟨3, ![n0, a', b']⟩)
    (i0 : Fin n0) (p : Fin a') (q : Fin b') :
    shapeCast ⟨3, ![n0, a', b']⟩ x h (ix3 i0 p q)
      = x (ix4 i0 (0 : Fin 1) (relayRow hab p q) (relayCol hab p q)) :=
  shapeCast_apply x h _ _ (by
    rw [Shape.rowMajor_val_four, Shape.rowMajor_val_three]
    show ((i0.val * 1 + 0) * a + (relayRow hab p q).val) * b + (relayCol hab p q).val
        = (i0.val * a' + p.val) * b' + q.val
    have hf := relay_flat hab p q
    calc ((i0.val * 1 + 0) * a + (relayRow hab p q).val) * b + (relayCol hab p q).val
        = i0.val * (a * b) + ((relayRow hab p q).val * b + (relayCol hab p q).val) := by ring
      _ = i0.val * (a' * b') + (p.val * b' + q.val) := by rw [hab, hf]
      _ = (i0.val * a' + p.val) * b' + q.val := by ring)

/-- A rank-3 array `[n0, a, b]` re-laid as the rank-4 array `[n0, 1, a', b']` (as many inner elements) reads, at
    `(i0, u, p, q)`, the operand at `i0` and the inner position with the same flat position. -/
theorem shapeCast_nab_n1ab_apply {n0 a b a' b' : Nat} (hab : a * b = a' * b')
    (x : (⟨3, ![n0, a, b]⟩ : Shape).Idx → α)
    (h : (⟨3, ![n0, a, b]⟩ : Shape).ShapeCasts ⟨4, ![n0, 1, a', b']⟩)
    (i0 : Fin n0) (u : Fin 1) (p : Fin a') (q : Fin b') :
    shapeCast ⟨4, ![n0, 1, a', b']⟩ x h (ix4 i0 u p q) = x (ix3 i0 (relayRow hab p q) (relayCol hab p q)) :=
  shapeCast_apply x h _ _ (by
    have hu : u.val = 0 := by omega
    rw [Shape.rowMajor_val_four, Shape.rowMajor_val_three]
    show (i0.val * a + (relayRow hab p q).val) * b + (relayCol hab p q).val
        = ((i0.val * 1 + u.val) * a' + p.val) * b' + q.val
    have hf := relay_flat hab p q
    rw [hu]
    calc (i0.val * a + (relayRow hab p q).val) * b + (relayCol hab p q).val
        = i0.val * (a * b) + ((relayRow hab p q).val * b + (relayCol hab p q).val) := by ring
      _ = i0.val * (a' * b') + (p.val * b' + q.val) := by rw [hab, hf]
      _ = ((i0.val * 1 + 0) * a' + p.val) * b' + q.val := by ring)

/-- A rank-4 array `[n0, m, 1, n]` flattened to `[n0, N]` with `N = m * n` reads, at `(i0, k)`, the operand at
    `(i0, k / n, 0, k % n)`: `[8,2,1,128]` as `[8,256]` at `(b, c)` is the operand at `(b, c / 128, 0, c % 128)`. -/
theorem shapeCast_nm1k_nN_apply {n0 m n N : Nat} (hN : N = m * n)
    (x : (⟨4, ![n0, m, 1, n]⟩ : Shape).Idx → α)
    (h : (⟨4, ![n0, m, 1, n]⟩ : Shape).ShapeCasts ⟨2, ![n0, N]⟩)
    (i0 : Fin n0) (k : Fin N) :
    shapeCast ⟨2, ![n0, N]⟩ x h (ix2 i0 k)
      = x (ix4 i0 ⟨k.val / n, Nat.div_lt_of_lt_mul (by rw [Nat.mul_comm, ← hN]; exact k.isLt)⟩ (0 : Fin 1)
          ⟨k.val % n, Nat.mod_lt _ (pos_of_lt_mul (a := m) (by rw [← hN]; exact k.isLt))⟩) :=
  shapeCast_apply x h _ _ (by
    rw [Shape.rowMajor_val_four, Shape.rowMajor_val_two]
    show ((i0.val * m + k.val / n) * 1 + 0) * n + k.val % n = i0.val * N + k.val
    have hf : k.val / n * n + k.val % n = k.val := Nat.div_add_mod' _ _
    calc ((i0.val * m + k.val / n) * 1 + 0) * n + k.val % n
        = i0.val * (m * n) + (k.val / n * n + k.val % n) := by ring
      _ = i0.val * N + k.val := by rw [hf, ← hN])

end Relay

/-! ## A vector reduction over one axis, read at an index -/

section VectorReduce

/-- A vector sum over axis 0 of a rank-3 vector, at `(r, c)`: the sum over the coordinate `k` on that axis of the
    source at `(k, r, c)`. The accumulator's fact is typed as the printed program's proof of it is. -/
theorem vecSum_axis0_of3 {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0x00000000#32 : BitVec 32) = 0x00000000#32) (j : (⟨2, ![n1, n2]⟩ : Shape).Idx) :
    multiReduction .add [0] ⟨2, ![n1, n2]⟩ x 0x00000000#32 h hφ hacc j = ∑ k : Fin n0, x (ix3 k (j 0) (j 1)) :=
  (Ideal.multiReduction_add_single x 0x00000000#32 h hφ hacc j).trans
    (Finset.sum_congr rfl fun k _ => congrArg x (funext fun a => Fin.ext (by
      match a with
      | ⟨0, _⟩ => rfl
      | ⟨1, _⟩ => rfl
      | ⟨2, _⟩ => rfl)))

/-- The same at an index written by coordinates. -/
theorem vecSum_axis0_of3_ix {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0x00000000#32 : BitVec 32) = 0x00000000#32) (r : Fin n1) (c : Fin n2) :
    multiReduction .add [0] ⟨2, ![n1, n2]⟩ x 0x00000000#32 h hφ hacc (ix2 r c) = ∑ k : Fin n0, x (ix3 k r c) :=
  vecSum_axis0_of3 x h hφ hacc (ix2 r c)

/-- A vector sum over axis 2 of a rank-3 vector, at `(r, c)`: the sum over `k` of the source at `(r, c, k)`. -/
theorem vecSum_axis2_of3 {n0 n1 n2 : Nat} (x : FVec Ideal ⟨3, ![n0, n1, n2]⟩ .f32)
    (h : Shape.Reduces ⟨3, ![n0, n1, n2]⟩ [2] ⟨2, ![n0, n1]⟩) (hφ : FKind.Formats .f32)
    (hacc : (0x00000000#32 : BitVec 32) = 0x00000000#32) (j : (⟨2, ![n0, n1]⟩ : Shape).Idx) :
    multiReduction .add [2] ⟨2, ![n0, n1]⟩ x 0x00000000#32 h hφ hacc j = ∑ k : Fin n2, x (ix3 (j 0) (j 1) k) :=
  (Ideal.multiReduction_add_single x 0x00000000#32 h hφ hacc j).trans
    (Finset.sum_congr rfl fun k _ => congrArg x (funext fun a => Fin.ext (by
      match a with
      | ⟨0, _⟩ => rfl
      | ⟨1, _⟩ => rfl
      | ⟨2, _⟩ => rfl)))

/-- The same at an index written by coordinates. -/
theorem vecSum_axis2_of3_ix {n0 n1 n2 : Nat} (x : FVec Ideal ⟨3, ![n0, n1, n2]⟩ .f32)
    (h : Shape.Reduces ⟨3, ![n0, n1, n2]⟩ [2] ⟨2, ![n0, n1]⟩) (hφ : FKind.Formats .f32)
    (hacc : (0x00000000#32 : BitVec 32) = 0x00000000#32) (r : Fin n0) (c : Fin n1) :
    multiReduction .add [2] ⟨2, ![n0, n1]⟩ x 0x00000000#32 h hφ hacc (ix2 r c) = ∑ k : Fin n2, x (ix3 r c k) :=
  vecSum_axis2_of3 x h hφ hacc (ix2 r c)

/-- A vector sum over axis 1 of a rank-2 vector, at `r`: the sum over `k` of the source at `(r, k)`. -/
theorem vecSum_axis1_of2 {n0 n1 : Nat} (x : FVec Ideal ⟨2, ![n0, n1]⟩ .f32)
    (h : Shape.Reduces ⟨2, ![n0, n1]⟩ [1] ⟨1, ![n0]⟩) (hφ : FKind.Formats .f32)
    (hacc : (0x00000000#32 : BitVec 32) = 0x00000000#32) (j : (⟨1, ![n0]⟩ : Shape).Idx) :
    multiReduction .add [1] ⟨1, ![n0]⟩ x 0x00000000#32 h hφ hacc j = ∑ k : Fin n1, x (ix2 (j 0) k) :=
  (Ideal.multiReduction_add_single x 0x00000000#32 h hφ hacc j).trans
    (Finset.sum_congr rfl fun k _ => congrArg x (funext fun a => Fin.ext (by
      match a with
      | ⟨0, _⟩ => rfl
      | ⟨1, _⟩ => rfl)))

/-- The same at an index written by its coordinate. -/
theorem vecSum_axis1_of2_ix {n0 n1 : Nat} (x : FVec Ideal ⟨2, ![n0, n1]⟩ .f32)
    (h : Shape.Reduces ⟨2, ![n0, n1]⟩ [1] ⟨1, ![n0]⟩) (hφ : FKind.Formats .f32)
    (hacc : (0x00000000#32 : BitVec 32) = 0x00000000#32) (r : Fin n0) :
    multiReduction .add [1] ⟨1, ![n0]⟩ x 0x00000000#32 h hφ hacc (ix1 r) = ∑ k : Fin n1, x (ix2 r k) :=
  vecSum_axis1_of2 x h hφ hacc (ix1 r)

/-- A vector sum over axis 0 of a rank-2 vector, at `c`: the sum over `k` of the source at `(k, c)`. -/
theorem vecSum_axis0_of2 {n0 n1 : Nat} (x : FVec Ideal ⟨2, ![n0, n1]⟩ .f32)
    (h : Shape.Reduces ⟨2, ![n0, n1]⟩ [0] ⟨1, ![n1]⟩) (hφ : FKind.Formats .f32)
    (hacc : (0x00000000#32 : BitVec 32) = 0x00000000#32) (j : (⟨1, ![n1]⟩ : Shape).Idx) :
    multiReduction .add [0] ⟨1, ![n1]⟩ x 0x00000000#32 h hφ hacc j = ∑ k : Fin n0, x (ix2 k (j 0)) :=
  (Ideal.multiReduction_add_single x 0x00000000#32 h hφ hacc j).trans
    (Finset.sum_congr rfl fun k _ => congrArg x (funext fun a => Fin.ext (by
      match a with
      | ⟨0, _⟩ => rfl
      | ⟨1, _⟩ => rfl)))

/-- The same at an index written by its coordinate. -/
theorem vecSum_axis0_of2_ix {n0 n1 : Nat} (x : FVec Ideal ⟨2, ![n0, n1]⟩ .f32)
    (h : Shape.Reduces ⟨2, ![n0, n1]⟩ [0] ⟨1, ![n1]⟩) (hφ : FKind.Formats .f32)
    (hacc : (0x00000000#32 : BitVec 32) = 0x00000000#32) (c : Fin n1) :
    multiReduction .add [0] ⟨1, ![n1]⟩ x 0x00000000#32 h hφ hacc (ix1 c) = ∑ k : Fin n0, x (ix2 k c) :=
  vecSum_axis0_of2 x h hφ hacc (ix1 c)

/-- The f32 word of `-∞` is the least extended real. -/
theorem ofBits_neg_inf_f32 : Ideal.ofBits .f32 0xFF800000#32 = ⊥ := by
  simp [Ideal.ofBits, Ideal.ieee]

/-- A vector maximum over axis 0 of a rank-3 vector from the accumulator `-∞`, at `(r, c)`: the supremum over the
    coordinate `k` on that axis of the source at `(k, r, c)`. -/
theorem vecMax_axis0_of3 {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0xFF800000#32 : BitVec 32) = 0xFF800000#32) (j : (⟨2, ![n1, n2]⟩ : Shape).Idx) :
    multiReduction .maximumf [0] ⟨2, ![n1, n2]⟩ x 0xFF800000#32 h hφ hacc j
      = (Finset.univ : Finset (Fin n0)).sup (fun k => x (ix3 k (j 0) (j 1))) := by
  refine (Ideal.multiReduction_maximumf_single x 0xFF800000#32 h hφ hacc j).trans ?_
  have hb : (FloatOps.ofBits .f32 0xFF800000#32 : Ideal .f32) = ⊥ := ofBits_neg_inf_f32
  rw [hb]
  refine (fold_max_bot _ _).trans (congrArg (Finset.univ : Finset (Fin n0)).sup (funext fun k => congrArg x (funext fun a => Fin.ext (by
      match a with
      | ⟨0, _⟩ => rfl
      | ⟨1, _⟩ => rfl
      | ⟨2, _⟩ => rfl))))

/-- The same at an index written by coordinates. -/
theorem vecMax_axis0_of3_ix {n0 n1 n2 : Nat} (x : FVec Ideal ⟨3, ![n0, n1, n2]⟩ .f32)
    (h : Shape.Reduces ⟨3, ![n0, n1, n2]⟩ [0] ⟨2, ![n1, n2]⟩) (hφ : FKind.Formats .f32)
    (hacc : (0xFF800000#32 : BitVec 32) = 0xFF800000#32) (r : Fin n1) (c : Fin n2) :
    multiReduction .maximumf [0] ⟨2, ![n1, n2]⟩ x 0xFF800000#32 h hφ hacc (ix2 r c)
      = (Finset.univ : Finset (Fin n0)).sup (fun k => x (ix3 k r c)) :=
  vecMax_axis0_of3 x h hφ hacc (ix2 r c)

end VectorReduce

/-! ## A trailing unit axis added to a vector, and a tile's total by two one-axis sums -/

section UnitAxis
variable {α : Type}

/-- An `[a]` vector cast to `[a, 1]` reads, at `(i, u)`, the operand at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` vector cast to `[a]` reads, at `i`, the operand at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The total of an `[n0, n1]` tile taken as a vector sum over axis 1, a cast of the `[n0]` result to `[n0, 1]`, and a vector
    sum over axis 0: the double sum over the tile. -/
theorem vecSum_all2 {n0 n1 : Nat} (x : FVec Ideal ⟨2, ![n0, n1]⟩ .f32)
    (h1 : Shape.Reduces ⟨2, ![n0, n1]⟩ [1] ⟨1, ![n0]⟩) (hc : (⟨1, ![n0]⟩ : Shape).ShapeCasts ⟨2, ![n0, 1]⟩)
    (h0 : Shape.Reduces ⟨2, ![n0, 1]⟩ [0] ⟨1, ![1]⟩) (hφ hφ' : FKind.Formats .f32)
    (hacc hacc' : (0x00000000#32 : BitVec 32) = 0x00000000#32) (j : (⟨1, ![1]⟩ : Shape).Idx) :
    multiReduction .add [0] ⟨1, ![1]⟩
        (shapeCast ⟨2, ![n0, 1]⟩ (multiReduction .add [1] ⟨1, ![n0]⟩ x 0x00000000#32 h1 hφ hacc) hc)
        0x00000000#32 h0 hφ' hacc' j
      = ∑ r : Fin n0, ∑ c : Fin n1, x (ix2 r c) :=
  (vecSum_axis0_of2 _ h0 hφ' hacc' j).trans (Finset.sum_congr rfl fun r _ =>
    (shapeCast_a_a1_apply _ hc r (j 0)).trans (vecSum_axis1_of2_ix x h1 hφ hacc r))

end UnitAxis

/-! ## Extended-real arithmetic: division by a power of two, words evaluated, a scaled difference squared -/

section Arithmetic

/-- Division by a power of two is the product with its reciprocal, at every extended real (the infinities included). -/
theorem div_two_pow (x : EReal) (k : ℕ) :
    Ideal.div x (((2 : ℝ) ^ k : ℝ) : EReal) = x * ((1 / (2 : ℝ) ^ k : ℝ) : EReal) :=
  Ideal.div_coe (pow_ne_zero k two_ne_zero) x

/-- Division by `4096` is the product with `1/4096`. -/
theorem div_4096 (x : EReal) : Ideal.div x ((4096 : ℝ) : EReal) = x * ((1 / 4096 : ℝ) : EReal) :=
  Ideal.div_coe (by norm_num) x

/-- Division by `256` is the product with `1/256`. -/
theorem div_256 (x : EReal) : Ideal.div x ((256 : ℝ) : EReal) = x * ((1 / 256 : ℝ) : EReal) :=
  Ideal.div_coe (by norm_num) x

/-- The f32 word `0x39800000` denotes `1/4096`. -/
theorem ofBits_f32_39800000 : Ideal.ofBits .f32 0x39800000#32 = ((1 / 4096 : ℝ) : EReal) := by
  simp [Ideal.ofBits, Ideal.ieee, -EReal.coe_mul] <;> norm_num

/-- The f32 word `0x45800000` denotes `4096`. -/
theorem ofBits_f32_45800000 : Ideal.ofBits .f32 0x45800000#32 = ((4096 : ℝ) : EReal) := by
  simp [Ideal.ofBits, Ideal.ieee, -EReal.coe_mul] <;> norm_num

/-- The f32 word `0x3B800000` denotes `1/256`. -/
theorem ofBits_f32_3B800000 : Ideal.ofBits .f32 0x3B800000#32 = ((1 / 256 : ℝ) : EReal) := by
  simp [Ideal.ofBits, Ideal.ieee, -EReal.coe_mul] <;> norm_num

/-- The f32 word `0x43800000` denotes `256`. -/
theorem ofBits_f32_43800000 : Ideal.ofBits .f32 0x43800000#32 = ((256 : ℝ) : EReal) := by
  simp [Ideal.ofBits, Ideal.ieee, -EReal.coe_mul] <;> norm_num

/-- The f32 word `0x45000000` denotes `2048`. -/
theorem ofBits_f32_45000000 : Ideal.ofBits .f32 0x45000000#32 = ((2048 : ℝ) : EReal) := by
  simp [Ideal.ofBits, Ideal.ieee, -EReal.coe_mul] <;> norm_num

/-- The f32 word `0x4B000000` denotes `8388608`. -/
theorem ofBits_f32_4B000000 : Ideal.ofBits .f32 0x4B000000#32 = ((8388608 : ℝ) : EReal) := by
  simp [Ideal.ofBits, Ideal.ieee, -EReal.coe_mul] <;> norm_num

/-- The f32 word `0x47000000` denotes `32768`. -/
theorem ofBits_f32_47000000 : Ideal.ofBits .f32 0x47000000#32 = ((32768 : ℝ) : EReal) := by
  simp [Ideal.ofBits, Ideal.ieee, -EReal.coe_mul] <;> norm_num

/-- The f32 word `0x49000000` denotes `524288`. -/
theorem ofBits_f32_49000000 : Ideal.ofBits .f32 0x49000000#32 = ((524288 : ℝ) : EReal) := by
  simp [Ideal.ofBits, Ideal.ieee, -EReal.coe_mul] <;> norm_num

/-- The f32 word `0x3F000000` denotes `1/2`. -/
theorem ofBits_f32_3F000000 : Ideal.ofBits .f32 0x3F000000#32 = ((1 / 2 : ℝ) : EReal) := by
  simp [Ideal.ofBits, Ideal.ieee, -EReal.coe_mul] <;> norm_num

/-- The f32 word `0x3F800000` denotes `1`. -/
theorem ofBits_f32_3F800000 : Ideal.ofBits .f32 0x3F800000#32 = ((1 : ℝ) : EReal) := by
  simp [Ideal.ofBits, Ideal.ieee, -EReal.coe_mul] <;> norm_num

/-- The f32 word `0x40000000` denotes `2`. -/
theorem ofBits_f32_40000000 : Ideal.ofBits .f32 0x40000000#32 = ((2 : ℝ) : EReal) := by
  simp [Ideal.ofBits, Ideal.ieee, -EReal.coe_mul] <;> norm_num

/-- The f32 word `0x40800000` denotes `4`. -/
theorem ofBits_f32_40800000 : Ideal.ofBits .f32 0x40800000#32 = ((4 : ℝ) : EReal) := by
  simp [Ideal.ofBits, Ideal.ieee, -EReal.coe_mul] <;> norm_num

/-- Division by the word of `4096` is the product with the word of `1/4096`, at every extended real. -/
theorem div_word_4096 (x : EReal) :
    Ideal.div x (Ideal.ofBits .f32 0x45800000#32) = x * Ideal.ofBits .f32 0x39800000#32 := by
  rw [ofBits_f32_45800000, ofBits_f32_39800000]; exact div_4096 x

/-- Division by the word of `256` is the product with the word of `1/256`, at every extended real. -/
theorem div_word_256 (x : EReal) :
    Ideal.div x (Ideal.ofBits .f32 0x43800000#32) = x * Ideal.ofBits .f32 0x3B800000#32 := by
  rw [ofBits_f32_43800000, ofBits_f32_3B800000]; exact div_256 x

/-- For reals, the difference of two numbers scaled by the same factor, squared, is the squared difference times the
    squared factor. -/
theorem scaled_diff_sq_real (s t k : ℝ) : (s * k - t * k) * (s * k - t * k) = (s - t) * (s - t) * (k * k) := by ring

/-- The same among the extended reals, for finite entries. -/
theorem scaled_diff_sq (s t k : ℝ) :
    ((s : EReal) * (k : EReal) - (t : EReal) * (k : EReal)) * ((s : EReal) * (k : EReal) - (t : EReal) * (k : EReal))
      = ((s : EReal) - (t : EReal)) * ((s : EReal) - (t : EReal)) * ((k : EReal) * (k : EReal)) := by
  have h := congrArg (fun r : ℝ => (r : EReal)) (scaled_diff_sq_real s t k)
  simpa only [EReal.coe_mul, EReal.coe_sub] using h

end Arithmetic

end Idealize.ShloMosaic.LibSums

end
-- ==== Proof.PayValue.lean ====
/-
  The five stored values of the kernel body, each read at an index at the ideal values, where a float is an extended
  real, every operation is the exact one, a change of float format is the identity, and a vector of shape `S` is a
  function `S.Idx → EReal`.

  * the Gram block `∑ r, x (r, i) * x (r, j)` (a product contracting axis 0 of both operands, into the zero accumulator),
    alone and added to an accumulator;
  * the mixed rows `∑ j, √(g (n, j)) * (o (j, d) / s j)` with `s j = ∑ i, √(g (i, j))` the column sums;
  * the key projection `((∑ k, o (n, k) * W (d, k)) + b d) * (1/16)`;
  * the softmax-weighted row: with `q` the query projection, `a n = ∑ d, q d * K (n, d)` the logits and
    `e n = exp (a n - sup a)`, the value `(∑ n, e n * V (n, d)) * (1 / ∑ n, e n)`, the row sum `∑ n, e n` being read at
    column 0 of the product of `e` with an all-ones operand.

  Underneath: one lemma per product (its element as a `Fin`-indexed sum of products of the operands' elements, the
  contraction index identified with its one coordinate), a column broadcast along rows, a row maximum from `-∞` as a
  supremum, and the two f32 words `1/16` and `1` evaluated.
-/
import proofs.«117169_g52209622450808_cont_9to1_m_767_13_alg».proof.Proof.Spec
import proofs.«117169_g52209622450808_cont_9to1_m_767_13_alg».proof.Proof.Gen.KernelIdeal.Skeleton
import proofs.«117169_g52209622450808_cont_9to1_m_767_13_alg».proof.Proof.LibSums
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Cert.Spec Idealize.ShloMosaic Idealize.ShloMosaic.ValueIdx Idealize.ShloMosaic.LibSums

/-! ## Two layout readings: a column broadcast along rows, and a row maximum -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector maximum over axis 1 of a rank-2 vector from the accumulator `-∞`, at `r`: the supremum over the
    coordinate `k` on that axis of the source at `(r, k)`. -/
theorem vecMax_axis1_of2 {n0 n1 : Nat} (x : FVec Ideal ⟨2, ![n0, n1]⟩ .f32)
    (h : Shape.Reduces ⟨2, ![n0, n1]⟩ [1] ⟨1, ![n0]⟩) (hφ : FKind.Formats .f32)
    (hacc : (0xFF800000#32 : BitVec 32) = 0xFF800000#32) (j : (⟨1, ![n0]⟩ : Shape).Idx) :
    multiReduction .maximumf [1] ⟨1, ![n0]⟩ x 0xFF800000#32 h hφ hacc j
      = (Finset.univ : Finset (Fin n1)).sup (fun k => x (ix2 (j 0) k)) := by
  refine (Ideal.multiReduction_maximumf_single x 0xFF800000#32 h hφ hacc j).trans ?_
  have hb : (FloatOps.ofBits .f32 0xFF800000#32 : Ideal .f32) = ⊥ := ofBits_neg_inf_f32
  rw [hb]
  refine (fold_max_bot _ _).trans (congrArg (Finset.univ : Finset (Fin n1)).sup (funext fun k => congrArg x (funext fun a => Fin.ext (by
      match a with
      | ⟨0, _⟩ => rfl
      | ⟨1, _⟩ => rfl))))

/-- The same at an index written by its coordinate. -/
theorem vecMax_axis1_of2_ix {n0 n1 : Nat} (x : FVec Ideal ⟨2, ![n0, n1]⟩ .f32)
    (h : Shape.Reduces ⟨2, ![n0, n1]⟩ [1] ⟨1, ![n0]⟩) (hφ : FKind.Formats .f32)
    (hacc : (0xFF800000#32 : BitVec 32) = 0xFF800000#32) (r : Fin n0) :
    multiReduction .maximumf [1] ⟨1, ![n0]⟩ x 0xFF800000#32 h hφ hacc (ix1 r)
      = (Finset.univ : Finset (Fin n1)).sup (fun k => x (ix2 r k)) :=
  vecMax_axis1_of2 x h hφ hacc (ix1 r)

/-- The f32 word `0x3D800000` denotes `1/16`. -/
theorem ofBits_f32_3D800000 : Ideal.ofBits .f32 0x3D800000#32 = c16 := by
  unfold c16
  simp [Ideal.ofBits, Ideal.ieee, -EReal.coe_mul] <;> norm_num

/-- The scalar constant `0x3D800000` at the ideal values is `1/16`. -/
theorem scalar_c16 : Scalar.ofBits (F := Ideal) .f32 0x3D800000#32 = c16 := ofBits_f32_3D800000

/-- The scalar constant `0x3F800000` at the ideal values is `1`. -/
theorem scalar_one : Scalar.ofBits (F := Ideal) .f32 0x3F800000#32 = (1 : EReal) :=
  ofBits_f32_3F800000.trans EReal.coe_one

/-! ## The Gram product: both operands contracted on axis 0 -/

theorem lhs_gram_0 (i : S1024x1024.Idx) (q : dot_S1024x1024_S1024x1024_S1024x1024_0_0_1_1_n_n.contr.Idx) :
    (dot_S1024x1024_S1024x1024_S1024x1024_0_0_1_1_n_n.lhsIdx i q 0).val = (q ⟨0, by decide⟩).val :=
  dot_S1024x1024_S1024x1024_S1024x1024_0_0_1_1_n_n.lhsIdx_val_of_single rfl i q
theorem lhs_gram_1 (i : S1024x1024.Idx) (q : dot_S1024x1024_S1024x1024_S1024x1024_0_0_1_1_n_n.contr.Idx) :
    (dot_S1024x1024_S1024x1024_S1024x1024_0_0_1_1_n_n.lhsIdx i q 1).val = (i 0).val := by
  unfold DotDims.lhsIdx
  rw [dif_neg (show ¬(1 : Fin S1024x1024.rank) ∈ dot_S1024x1024_S1024x1024_S1024x1024_0_0_1_1_n_n.lhsBatch by decide), dif_pos (show (1 : Fin S1024x1024.rank) ∈ dot_S1024x1024_S1024x1024_S1024x1024_0_0_1_1_n_n.lhsNonContracting by decide)]
  rfl
theorem rhs_gram_0 (i : S1024x1024.Idx) (q : dot_S1024x1024_S1024x1024_S1024x1024_0_0_1_1_n_n.contr.Idx) :
    (dot_S1024x1024_S1024x1024_S1024x1024_0_0_1_1_n_n.rhsIdx i q 0).val = (q ⟨0, by decide⟩).val :=
  dot_S1024x1024_S1024x1024_S1024x1024_0_0_1_1_n_n.rhsIdx_val_of_single rfl i q
theorem rhs_gram_1 (i : S1024x1024.Idx) (q : dot_S1024x1024_S1024x1024_S1024x1024_0_0_1_1_n_n.contr.Idx) :
    (dot_S1024x1024_S1024x1024_S1024x1024_0_0_1_1_n_n.rhsIdx i q 1).val = (i 1).val := by
  unfold DotDims.rhsIdx
  rw [dif_neg (show ¬(1 : Fin S1024x1024.rank) ∈ dot_S1024x1024_S1024x1024_S1024x1024_0_0_1_1_n_n.rhsBatch by decide), dif_pos (show (1 : Fin S1024x1024.rank) ∈ dot_S1024x1024_S1024x1024_S1024x1024_0_0_1_1_n_n.rhsNonContracting by decide)]
  rfl

/-- The product of two `[1024, 1024]` operands contracted on axis 0 of both, into the zero accumulator, at `(i, j)`:
    `∑ r, a (r, i) * b (r, j)`. -/
theorem matmul_gram_apply (a b : FVec Ideal S1024x1024 .bf16) (i j : Fin 1024) :
    matmul dot_S1024x1024_S1024x1024_S1024x1024_0_0_1_1_n_n none a b (constant (F := Ideal) S1024x1024 .f32 0x00000000#32) (ix2 i j)
      = ∑ r : Fin 1024, a (ix2 r i) * b (ix2 r j) := by
  simp only [matmul]
  rw [Ideal.matmul_constant_zero_apply, ← Equiv.sum_comp (contrEquiv1 dot_S1024x1024_S1024x1024_S1024x1024_0_0_1_1_n_n 1024 rfl rfl).symm]
  refine Finset.sum_congr rfl fun k _ => ?_
  have hk := contrEquiv1_symm_val dot_S1024x1024_S1024x1024_S1024x1024_0_0_1_1_n_n 1024 rfl rfl k
  have el : dot_S1024x1024_S1024x1024_S1024x1024_0_0_1_1_n_n.lhsIdx (ix2 i j) ((contrEquiv1 dot_S1024x1024_S1024x1024_S1024x1024_0_0_1_1_n_n 1024 rfl rfl).symm k) = ix2 k i := funext fun ax => Fin.ext (by
    match ax with
    | ⟨0, _⟩ => exact (lhs_gram_0 _ _).trans hk
    | ⟨1, _⟩ => exact lhs_gram_1 _ _)
  have er : dot_S1024x1024_S1024x1024_S1024x1024_0_0_1_1_n_n.rhsIdx (ix2 i j) ((contrEquiv1 dot_S1024x1024_S1024x1024_S1024x1024_0_0_1_1_n_n 1024 rfl rfl).symm k) = ix2 k j := funext fun ax => Fin.ext (by
    match ax with
    | ⟨0, _⟩ => exact (rhs_gram_0 _ _).trans hk
    | ⟨1, _⟩ => exact rhs_gram_1 _ _)
  rw [el, er]

theorem pay1_apply (x : Vec Ideal S1024x1024 .f32) (i j : Fin 1024) :
    k0_pay1 (F := Ideal) x (ix2 i j) = gramOf (fun (r : Fin 1024) a => x (ix2 r a)) i j := by
  unfold k0_pay1
  rw [shapeCast_self]
  exact matmul_gram_apply _ _ i j

theorem pay2_apply (x acc : Vec Ideal S1024x1024 .f32) (i j : Fin 1024) :
    k0_pay2 (F := Ideal) x acc (ix2 i j) = acc (ix2 i j) + gramOf (fun (r : Fin 1024) a => x (ix2 r a)) i j := by
  unfold k0_pay2
  rw [shapeCast_self, addf_apply]
  exact congrArg (acc (ix2 i j) + ·) (matmul_gram_apply _ _ i j)

/-! ## The mixing product: the left operand contracted on axis 1, the right on axis 0 -/

theorem lhs_mix_0 (i : S1024x256.Idx) (q : dot_S1024x1024_S1024x256_S1024x256_1_0_0_1_n_n.contr.Idx) :
    (dot_S1024x1024_S1024x256_S1024x256_1_0_0_1_n_n.lhsIdx i q 0).val = (i 0).val := by
  unfold DotDims.lhsIdx
  rw [dif_neg (show ¬(0 : Fin S1024x1024.rank) ∈ dot_S1024x1024_S1024x256_S1024x256_1_0_0_1_n_n.lhsBatch by decide), dif_pos (show (0 : Fin S1024x1024.rank) ∈ dot_S1024x1024_S1024x256_S1024x256_1_0_0_1_n_n.lhsNonContracting by decide)]
  rfl
theorem lhs_mix_1 (i : S1024x256.Idx) (q : dot_S1024x1024_S1024x256_S1024x256_1_0_0_1_n_n.contr.Idx) :
    (dot_S1024x1024_S1024x256_S1024x256_1_0_0_1_n_n.lhsIdx i q 1).val = (q ⟨0, by decide⟩).val :=
  dot_S1024x1024_S1024x256_S1024x256_1_0_0_1_n_n.lhsIdx_val_of_single rfl i q
theorem rhs_mix_0 (i : S1024x256.Idx) (q : dot_S1024x1024_S1024x256_S1024x256_1_0_0_1_n_n.contr.Idx) :
    (dot_S1024x1024_S1024x256_S1024x256_1_0_0_1_n_n.rhsIdx i q 0).val = (q ⟨0, by decide⟩).val :=
  dot_S1024x1024_S1024x256_S1024x256_1_0_0_1_n_n.rhsIdx_val_of_single rfl i q
theorem rhs_mix_1 (i : S1024x256.Idx) (q : dot_S1024x1024_S1024x256_S1024x256_1_0_0_1_n_n.contr.Idx) :
    (dot_S1024x1024_S1024x256_S1024x256_1_0_0_1_n_n.rhsIdx i q 1).val = (i 1).val := by
  unfold DotDims.rhsIdx
  rw [dif_neg (show ¬(1 : Fin S1024x256.rank) ∈ dot_S1024x1024_S1024x256_S1024x256_1_0_0_1_n_n.rhsBatch by decide), dif_pos (show (1 : Fin S1024x256.rank) ∈ dot_S1024x1024_S1024x256_S1024x256_1_0_0_1_n_n.rhsNonContracting by decide)]
  rfl

/-- A `[1024, 1024]` operand times a `[1024, 256]` operand, into the zero accumulator, at `(n, d)`:
    `∑ j, a (n, j) * b (j, d)`. -/
theorem matmul_mix_apply (a : FVec Ideal S1024x1024 .bf16) (b : FVec Ideal S1024x256 .bf16) (n : Fin 1024) (d : Fin 256) :
    matmul dot_S1024x1024_S1024x256_S1024x256_1_0_0_1_n_n none a b (constant (F := Ideal) S1024x256 .f32 0x00000000#32) (ix2 n d)
      = ∑ j : Fin 1024, a (ix2 n j) * b (ix2 j d) := by
  simp only [matmul]
  rw [Ideal.matmul_constant_zero_apply, ← Equiv.sum_comp (contrEquiv1 dot_S1024x1024_S1024x256_S1024x256_1_0_0_1_n_n 1024 rfl rfl).symm]
  refine Finset.sum_congr rfl fun k _ => ?_
  have hk := contrEquiv1_symm_val dot_S1024x1024_S1024x256_S1024x256_1_0_0_1_n_n 1024 rfl rfl k
  have el : dot_S1024x1024_S1024x256_S1024x256_1_0_0_1_n_n.lhsIdx (ix2 n d) ((contrEquiv1 dot_S1024x1024_S1024x256_S1024x256_1_0_0_1_n_n 1024 rfl rfl).symm k) = ix2 n k := funext fun ax => Fin.ext (by
    match ax with
    | ⟨0, _⟩ => exact lhs_mix_0 _ _
    | ⟨1, _⟩ => exact (lhs_mix_1 _ _).trans hk)
  have er : dot_S1024x1024_S1024x256_S1024x256_1_0_0_1_n_n.rhsIdx (ix2 n d) ((contrEquiv1 dot_S1024x1024_S1024x256_S1024x256_1_0_0_1_n_n 1024 rfl rfl).symm k) = ix2 k d := funext fun ax => Fin.ext (by
    match ax with
    | ⟨0, _⟩ => exact (rhs_mix_0 _ _).trans hk
    | ⟨1, _⟩ => exact rhs_mix_1 _ _)
  rw [el, er]

/-- The column sums of `f`, taken over axis 0 from the zero accumulator, cast to a column and broadcast along rows,
    at `(j, d)`: `∑ i, f (i, j)`. -/
theorem colSum_broadcast_apply (f : FVec Ideal S1024x1024 .f32) (h1 : S1024x1024.Reduces [0] S1024) (hφ : FKind.Formats .f32)
    (hacc : (0x00000000#32 : BitVec 32) = 0x00000000#32) (h2 : S1024.ShapeCasts S1024x1) (h3 : S1024x1.Broadcasts S1024x256)
    (j : Fin 1024) (d : Fin 256) :
    broadcastTo S1024x256 (shapeCast S1024x1 (multiReduction (F := Ideal) .add [0] S1024 f 0x00000000#32 h1 hφ hacc) h2) h3 (ix2 j d)
      = ∑ i : Fin 1024, f (ix2 i j) :=
  (broadcastTo_a1_ab_apply _ h3 j d).trans ((shapeCast_a_a1_apply _ h2 j 0).trans (vecSum_axis0_of2_ix f h1 hφ hacc j))

theorem pay3_apply (g : Vec Ideal S1024x1024 .f32) (o : Vec Ideal S1024x256 .f32) (n : Fin 1024) (d : Fin 256) :
    k0_pay3 (F := Ideal) g o (ix2 n d) = mixK (fun i j => g (ix2 i j)) (fun j d => o (ix2 j d)) n d := by
  unfold k0_pay3
  rw [shapeCast_self, truncf_apply]
  refine (matmul_mix_apply _ _ n d).trans ?_
  unfold mixK
  refine Finset.sum_congr rfl fun j _ => ?_
  rw [truncf_apply, truncf_apply, divf_apply, colSum_broadcast_apply]
  rfl

/-! ## The key projection: both operands contracted on axis 1 -/

theorem lhs_projK_0 (i : S1024x256.Idx) (q : dot_S1024x256_S256x256_S1024x256_1_1_0_0_n_n.contr.Idx) :
    (dot_S1024x256_S256x256_S1024x256_1_1_0_0_n_n.lhsIdx i q 0).val = (i 0).val := by
  unfold DotDims.lhsIdx
  rw [dif_neg (show ¬(0 : Fin S1024x256.rank) ∈ dot_S1024x256_S256x256_S1024x256_1_1_0_0_n_n.lhsBatch by decide), dif_pos (show (0 : Fin S1024x256.rank) ∈ dot_S1024x256_S256x256_S1024x256_1_1_0_0_n_n.lhsNonContracting by decide)]
  rfl
theorem lhs_projK_1 (i : S1024x256.Idx) (q : dot_S1024x256_S256x256_S1024x256_1_1_0_0_n_n.contr.Idx) :
    (dot_S1024x256_S256x256_S1024x256_1_1_0_0_n_n.lhsIdx i q 1).val = (q ⟨0, by decide⟩).val :=
  dot_S1024x256_S256x256_S1024x256_1_1_0_0_n_n.lhsIdx_val_of_single rfl i q
theorem rhs_projK_0 (i : S1024x256.Idx) (q : dot_S1024x256_S256x256_S1024x256_1_1_0_0_n_n.contr.Idx) :
    (dot_S1024x256_S256x256_S1024x256_1_1_0_0_n_n.rhsIdx i q 0).val = (i 1).val := by
  unfold DotDims.rhsIdx
  rw [dif_neg (show ¬(0 : Fin S256x256.rank) ∈ dot_S1024x256_S256x256_S1024x256_1_1_0_0_n_n.rhsBatch by decide), dif_pos (show (0 : Fin S256x256.rank) ∈ dot_S1024x256_S256x256_S1024x256_1_1_0_0_n_n.rhsNonContracting by decide)]
  rfl
theorem rhs_projK_1 (i : S1024x256.Idx) (q : dot_S1024x256_S256x256_S1024x256_1_1_0_0_n_n.contr.Idx) :
    (dot_S1024x256_S256x256_S1024x256_1_1_0_0_n_n.rhsIdx i q 1).val = (q ⟨0, by decide⟩).val :=
  dot_S1024x256_S256x256_S1024x256_1_1_0_0_n_n.rhsIdx_val_of_single rfl i q

/-- A `[1024, 256]` operand times the transpose of a `[256, 256]` operand, into the zero accumulator, at `(n, d)`:
    `∑ k, a (n, k) * w (d, k)`. -/
theorem matmul_projK_apply (a : FVec Ideal S1024x256 .bf16) (w : FVec Ideal S256x256 .bf16) (n : Fin 1024) (d : Fin 256) :
    matmul dot_S1024x256_S256x256_S1024x256_1_1_0_0_n_n none a w (constant (F := Ideal) S1024x256 .f32 0x00000000#32) (ix2 n d)
      = ∑ k : Fin 256, a (ix2 n k) * w (ix2 d k) := by
  simp only [matmul]
  rw [Ideal.matmul_constant_zero_apply, ← Equiv.sum_comp (contrEquiv1 dot_S1024x256_S256x256_S1024x256_1_1_0_0_n_n 256 rfl rfl).symm]
  refine Finset.sum_congr rfl fun k _ => ?_
  have hk := contrEquiv1_symm_val dot_S1024x256_S256x256_S1024x256_1_1_0_0_n_n 256 rfl rfl k
  have el : dot_S1024x256_S256x256_S1024x256_1_1_0_0_n_n.lhsIdx (ix2 n d) ((contrEquiv1 dot_S1024x256_S256x256_S1024x256_1_1_0_0_n_n 256 rfl rfl).symm k) = ix2 n k := funext fun ax => Fin.ext (by
    match ax with
    | ⟨0, _⟩ => exact lhs_projK_0 _ _
    | ⟨1, _⟩ => exact (lhs_projK_1 _ _).trans hk)
  have er : dot_S1024x256_S256x256_S1024x256_1_1_0_0_n_n.rhsIdx (ix2 n d) ((contrEquiv1 dot_S1024x256_S256x256_S1024x256_1_1_0_0_n_n 256 rfl rfl).symm k) = ix2 d k := funext fun ax => Fin.ext (by
    match ax with
    | ⟨0, _⟩ => exact rhs_projK_0 _ _
    | ⟨1, _⟩ => exact (rhs_projK_1 _ _).trans hk)
  rw [el, er]

theorem pay4_apply (o : Vec Ideal S1024x256 .f32) (wk : Vec Ideal S256x256 .f32) (b : Vec Ideal S1x256 .f32) (n : Fin 1024) (d : Fin 256) :
    k0_pay4 (F := Ideal) o wk b (ix2 n d)
      = projRow (fun k => o (ix2 n k)) (fun d k => wk (ix2 d k)) (fun d => b (ix2 (0 : Fin 1) d)) d * c16 := by
  unfold k0_pay4
  rw [shapeCast_self, truncf_apply, mulf_apply, broadcast_apply, scalar_c16, addf_apply, broadcastTo_1b_ab_apply, shapeCast_self,
    matmul_projK_apply]
  rfl

/-! ## The query projection: both operands contracted on axis 1 -/

theorem lhs_projQ_0 (i : S2000x256.Idx) (q : dot_S2000x256_S256x256_S2000x256_1_1_0_0_n_n.contr.Idx) :
    (dot_S2000x256_S256x256_S2000x256_1_1_0_0_n_n.lhsIdx i q 0).val = (i 0).val := by
  unfold DotDims.lhsIdx
  rw [dif_neg (show ¬(0 : Fin S2000x256.rank) ∈ dot_S2000x256_S256x256_S2000x256_1_1_0_0_n_n.lhsBatch by decide), dif_pos (show (0 : Fin S2000x256.rank) ∈ dot_S2000x256_S256x256_S2000x256_1_1_0_0_n_n.lhsNonContracting by decide)]
  rfl
theorem lhs_projQ_1 (i : S2000x256.Idx) (q : dot_S2000x256_S256x256_S2000x256_1_1_0_0_n_n.contr.Idx) :
    (dot_S2000x256_S256x256_S2000x256_1_1_0_0_n_n.lhsIdx i q 1).val = (q ⟨0, by decide⟩).val :=
  dot_S2000x256_S256x256_S2000x256_1_1_0_0_n_n.lhsIdx_val_of_single rfl i q
theorem rhs_projQ_0 (i : S2000x256.Idx) (q : dot_S2000x256_S256x256_S2000x256_1_1_0_0_n_n.contr.Idx) :
    (dot_S2000x256_S256x256_S2000x256_1_1_0_0_n_n.rhsIdx i q 0).val = (i 1).val := by
  unfold DotDims.rhsIdx
  rw [dif_neg (show ¬(0 : Fin S256x256.rank) ∈ dot_S2000x256_S256x256_S2000x256_1_1_0_0_n_n.rhsBatch by decide), dif_pos (show (0 : Fin S256x256.rank) ∈ dot_S2000x256_S256x256_S2000x256_1_1_0_0_n_n.rhsNonContracting by decide)]
  rfl
theorem rhs_projQ_1 (i : S2000x256.Idx) (q : dot_S2000x256_S256x256_S2000x256_1_1_0_0_n_n.contr.Idx) :
    (dot_S2000x256_S256x256_S2000x256_1_1_0_0_n_n.rhsIdx i q 1).val = (q ⟨0, by decide⟩).val :=
  dot_S2000x256_S256x256_S2000x256_1_1_0_0_n_n.rhsIdx_val_of_single rfl i q

/-- A `[2000, 256]` operand times the transpose of a `[256, 256]` operand, into the zero accumulator, at `(r, d)`:
    `∑ k, a (r, k) * w (d, k)`. -/
theorem matmul_projQ_apply (a : FVec Ideal S2000x256 .bf16) (w : FVec Ideal S256x256 .bf16) (r : Fin 2000) (d : Fin 256) :
    matmul dot_S2000x256_S256x256_S2000x256_1_1_0_0_n_n none a w (constant (F := Ideal) S2000x256 .f32 0x00000000#32) (ix2 r d)
      = ∑ k : Fin 256, a (ix2 r k) * w (ix2 d k) := by
  simp only [matmul]
  rw [Ideal.matmul_constant_zero_apply, ← Equiv.sum_comp (contrEquiv1 dot_S2000x256_S256x256_S2000x256_1_1_0_0_n_n 256 rfl rfl).symm]
  refine Finset.sum_congr rfl fun k _ => ?_
  have hk := contrEquiv1_symm_val dot_S2000x256_S256x256_S2000x256_1_1_0_0_n_n 256 rfl rfl k
  have el : dot_S2000x256_S256x256_S2000x256_1_1_0_0_n_n.lhsIdx (ix2 r d) ((contrEquiv1 dot_S2000x256_S256x256_S2000x256_1_1_0_0_n_n 256 rfl rfl).symm k) = ix2 r k := funext fun ax => Fin.ext (by
    match ax with
    | ⟨0, _⟩ => exact lhs_projQ_0 _ _
    | ⟨1, _⟩ => exact (lhs_projQ_1 _ _).trans hk)
  have er : dot_S2000x256_S256x256_S2000x256_1_1_0_0_n_n.rhsIdx (ix2 r d) ((contrEquiv1 dot_S2000x256_S256x256_S2000x256_1_1_0_0_n_n 256 rfl rfl).symm k) = ix2 d k := funext fun ax => Fin.ext (by
    match ax with
    | ⟨0, _⟩ => exact rhs_projQ_0 _ _
    | ⟨1, _⟩ => exact (rhs_projQ_1 _ _).trans hk)
  rw [el, er]

/-! ## The logits: queries against keys, both contracted on axis 1 -/

theorem lhs_logit_0 (i : S2000x1024.Idx) (q : dot_S2000x256_S1024x256_S2000x1024_1_1_0_0_n_n.contr.Idx) :
    (dot_S2000x256_S1024x256_S2000x1024_1_1_0_0_n_n.lhsIdx i q 0).val = (i 0).val := by
  unfold DotDims.lhsIdx
  rw [dif_neg (show ¬(0 : Fin S2000x256.rank) ∈ dot_S2000x256_S1024x256_S2000x1024_1_1_0_0_n_n.lhsBatch by decide), dif_pos (show (0 : Fin S2000x256.rank) ∈ dot_S2000x256_S1024x256_S2000x1024_1_1_0_0_n_n.lhsNonContracting by decide)]
  rfl
theorem lhs_logit_1 (i : S2000x1024.Idx) (q : dot_S2000x256_S1024x256_S2000x1024_1_1_0_0_n_n.contr.Idx) :
    (dot_S2000x256_S1024x256_S2000x1024_1_1_0_0_n_n.lhsIdx i q 1).val = (q ⟨0, by decide⟩).val :=
  dot_S2000x256_S1024x256_S2000x1024_1_1_0_0_n_n.lhsIdx_val_of_single rfl i q
theorem rhs_logit_0 (i : S2000x1024.Idx) (q : dot_S2000x256_S1024x256_S2000x1024_1_1_0_0_n_n.contr.Idx) :
    (dot_S2000x256_S1024x256_S2000x1024_1_1_0_0_n_n.rhsIdx i q 0).val = (i 1).val := by
  unfold DotDims.rhsIdx
  rw [dif_neg (show ¬(0 : Fin S1024x256.rank) ∈ dot_S2000x256_S1024x256_S2000x1024_1_1_0_0_n_n.rhsBatch by decide), dif_pos (show (0 : Fin S1024x256.rank) ∈ dot_S2000x256_S1024x256_S2000x1024_1_1_0_0_n_n.rhsNonContracting by decide)]
  rfl
theorem rhs_logit_1 (i : S2000x1024.Idx) (q : dot_S2000x256_S1024x256_S2000x1024_1_1_0_0_n_n.contr.Idx) :
    (dot_S2000x256_S1024x256_S2000x1024_1_1_0_0_n_n.rhsIdx i q 1).val = (q ⟨0, by decide⟩).val :=
  dot_S2000x256_S1024x256_S2000x1024_1_1_0_0_n_n.rhsIdx_val_of_single rfl i q

/-- A `[2000, 256]` operand times the transpose of a `[1024, 256]` operand, into the zero accumulator, at `(r, n)`:
    `∑ d, a (r, d) * k (n, d)`. -/
theorem matmul_logit_apply (a : FVec Ideal S2000x256 .bf16) (kk : FVec Ideal S1024x256 .bf16) (r : Fin 2000) (n : Fin 1024) :
    matmul dot_S2000x256_S1024x256_S2000x1024_1_1_0_0_n_n none a kk (constant (F := Ideal) S2000x1024 .f32 0x00000000#32) (ix2 r n)
      = ∑ d : Fin 256, a (ix2 r d) * kk (ix2 n d) := by
  simp only [matmul]
  rw [Ideal.matmul_constant_zero_apply, ← Equiv.sum_comp (contrEquiv1 dot_S2000x256_S1024x256_S2000x1024_1_1_0_0_n_n 256 rfl rfl).symm]
  refine Finset.sum_congr rfl fun k _ => ?_
  have hk := contrEquiv1_symm_val dot_S2000x256_S1024x256_S2000x1024_1_1_0_0_n_n 256 rfl rfl k
  have el : dot_S2000x256_S1024x256_S2000x1024_1_1_0_0_n_n.lhsIdx (ix2 r n) ((contrEquiv1 dot_S2000x256_S1024x256_S2000x1024_1_1_0_0_n_n 256 rfl rfl).symm k) = ix2 r k := funext fun ax => Fin.ext (by
    match ax with
    | ⟨0, _⟩ => exact lhs_logit_0 _ _
    | ⟨1, _⟩ => exact (lhs_logit_1 _ _).trans hk)
  have er : dot_S2000x256_S1024x256_S2000x1024_1_1_0_0_n_n.rhsIdx (ix2 r n) ((contrEquiv1 dot_S2000x256_S1024x256_S2000x1024_1_1_0_0_n_n 256 rfl rfl).symm k) = ix2 n k := funext fun ax => Fin.ext (by
    match ax with
    | ⟨0, _⟩ => exact rhs_logit_0 _ _
    | ⟨1, _⟩ => exact (rhs_logit_1 _ _).trans hk)
  rw [el, er]

/-! ## The weighted sum: weights contracted on axis 1, values on axis 0 -/

theorem lhs_wsum_0 (i : S2000x256.Idx) (q : dot_S2000x1024_S1024x256_S2000x256_1_0_0_1_n_n.contr.Idx) :
    (dot_S2000x1024_S1024x256_S2000x256_1_0_0_1_n_n.lhsIdx i q 0).val = (i 0).val := by
  unfold DotDims.lhsIdx
  rw [dif_neg (show ¬(0 : Fin S2000x1024.rank) ∈ dot_S2000x1024_S1024x256_S2000x256_1_0_0_1_n_n.lhsBatch by decide), dif_pos (show (0 : Fin S2000x1024.rank) ∈ dot_S2000x1024_S1024x256_S2000x256_1_0_0_1_n_n.lhsNonContracting by decide)]
  rfl
theorem lhs_wsum_1 (i : S2000x256.Idx) (q : dot_S2000x1024_S1024x256_S2000x256_1_0_0_1_n_n.contr.Idx) :
    (dot_S2000x1024_S1024x256_S2000x256_1_0_0_1_n_n.lhsIdx i q 1).val = (q ⟨0, by decide⟩).val :=
  dot_S2000x1024_S1024x256_S2000x256_1_0_0_1_n_n.lhsIdx_val_of_single rfl i q
theorem rhs_wsum_0 (i : S2000x256.Idx) (q : dot_S2000x1024_S1024x256_S2000x256_1_0_0_1_n_n.contr.Idx) :
    (dot_S2000x1024_S1024x256_S2000x256_1_0_0_1_n_n.rhsIdx i q 0).val = (q ⟨0, by decide⟩).val :=
  dot_S2000x1024_S1024x256_S2000x256_1_0_0_1_n_n.rhsIdx_val_of_single rfl i q
theorem rhs_wsum_1 (i : S2000x256.Idx) (q : dot_S2000x1024_S1024x256_S2000x256_1_0_0_1_n_n.contr.Idx) :
    (dot_S2000x1024_S1024x256_S2000x256_1_0_0_1_n_n.rhsIdx i q 1).val = (i 1).val := by
  unfold DotDims.rhsIdx
  rw [dif_neg (show ¬(1 : Fin S1024x256.rank) ∈ dot_S2000x1024_S1024x256_S2000x256_1_0_0_1_n_n.rhsBatch by decide), dif_pos (show (1 : Fin S1024x256.rank) ∈ dot_S2000x1024_S1024x256_S2000x256_1_0_0_1_n_n.rhsNonContracting by decide)]
  rfl

/-- A `[2000, 1024]` operand times a `[1024, 256]` operand, into the zero accumulator, at `(r, d)`:
    `∑ n, e (r, n) * v (n, d)`. -/
theorem matmul_wsum_apply (e : FVec Ideal S2000x1024 .bf16) (v : FVec Ideal S1024x256 .bf16) (r : Fin 2000) (d : Fin 256) :
    matmul dot_S2000x1024_S1024x256_S2000x256_1_0_0_1_n_n none e v (constant (F := Ideal) S2000x256 .f32 0x00000000#32) (ix2 r d)
      = ∑ n : Fin 1024, e (ix2 r n) * v (ix2 n d) := by
  simp only [matmul]
  rw [Ideal.matmul_constant_zero_apply, ← Equiv.sum_comp (contrEquiv1 dot_S2000x1024_S1024x256_S2000x256_1_0_0_1_n_n 1024 rfl rfl).symm]
  refine Finset.sum_congr rfl fun k _ => ?_
  have hk := contrEquiv1_symm_val dot_S2000x1024_S1024x256_S2000x256_1_0_0_1_n_n 1024 rfl rfl k
  have el : dot_S2000x1024_S1024x256_S2000x256_1_0_0_1_n_n.lhsIdx (ix2 r d) ((contrEquiv1 dot_S2000x1024_S1024x256_S2000x256_1_0_0_1_n_n 1024 rfl rfl).symm k) = ix2 r k := funext fun ax => Fin.ext (by
    match ax with
    | ⟨0, _⟩ => exact lhs_wsum_0 _ _
    | ⟨1, _⟩ => exact (lhs_wsum_1 _ _).trans hk)
  have er : dot_S2000x1024_S1024x256_S2000x256_1_0_0_1_n_n.rhsIdx (ix2 r d) ((contrEquiv1 dot_S2000x1024_S1024x256_S2000x256_1_0_0_1_n_n 1024 rfl rfl).symm k) = ix2 k d := funext fun ax => Fin.ext (by
    match ax with
    | ⟨0, _⟩ => exact (rhs_wsum_0 _ _).trans hk
    | ⟨1, _⟩ => exact rhs_wsum_1 _ _)
  rw [el, er]

/-! ## The row sum, taken as a product with a `[1024, 128]` operand -/

theorem lhs_rsum_0 (i : S2000x128.Idx) (q : dot_S2000x1024_S1024x128_S2000x128_1_0_0_1_n_n.contr.Idx) :
    (dot_S2000x1024_S1024x128_S2000x128_1_0_0_1_n_n.lhsIdx i q 0).val = (i 0).val := by
  unfold DotDims.lhsIdx
  rw [dif_neg (show ¬(0 : Fin S2000x1024.rank) ∈ dot_S2000x1024_S1024x128_S2000x128_1_0_0_1_n_n.lhsBatch by decide), dif_pos (show (0 : Fin S2000x1024.rank) ∈ dot_S2000x1024_S1024x128_S2000x128_1_0_0_1_n_n.lhsNonContracting by decide)]
  rfl
theorem lhs_rsum_1 (i : S2000x128.Idx) (q : dot_S2000x1024_S1024x128_S2000x128_1_0_0_1_n_n.contr.Idx) :
    (dot_S2000x1024_S1024x128_S2000x128_1_0_0_1_n_n.lhsIdx i q 1).val = (q ⟨0, by decide⟩).val :=
  dot_S2000x1024_S1024x128_S2000x128_1_0_0_1_n_n.lhsIdx_val_of_single rfl i q
theorem rhs_rsum_0 (i : S2000x128.Idx) (q : dot_S2000x1024_S1024x128_S2000x128_1_0_0_1_n_n.contr.Idx) :
    (dot_S2000x1024_S1024x128_S2000x128_1_0_0_1_n_n.rhsIdx i q 0).val = (q ⟨0, by decide⟩).val :=
  dot_S2000x1024_S1024x128_S2000x128_1_0_0_1_n_n.rhsIdx_val_of_single rfl i q
theorem rhs_rsum_1 (i : S2000x128.Idx) (q : dot_S2000x1024_S1024x128_S2000x128_1_0_0_1_n_n.contr.Idx) :
    (dot_S2000x1024_S1024x128_S2000x128_1_0_0_1_n_n.rhsIdx i q 1).val = (i 1).val := by
  unfold DotDims.rhsIdx
  rw [dif_neg (show ¬(1 : Fin S1024x128.rank) ∈ dot_S2000x1024_S1024x128_S2000x128_1_0_0_1_n_n.rhsBatch by decide), dif_pos (show (1 : Fin S1024x128.rank) ∈ dot_S2000x1024_S1024x128_S2000x128_1_0_0_1_n_n.rhsNonContracting by decide)]
  rfl

/-- A `[2000, 1024]` operand times a `[1024, 128]` operand, into the zero accumulator, at `(r, c)`:
    `∑ n, e (r, n) * u (n, c)`. -/
theorem matmul_rsum_apply (e : FVec Ideal S2000x1024 .bf16) (u : FVec Ideal S1024x128 .bf16) (r : Fin 2000) (c : Fin 128) :
    matmul dot_S2000x1024_S1024x128_S2000x128_1_0_0_1_n_n none e u (constant (F := Ideal) S2000x128 .f32 0x00000000#32) (ix2 r c)
      = ∑ n : Fin 1024, e (ix2 r n) * u (ix2 n c) := by
  simp only [matmul]
  rw [Ideal.matmul_constant_zero_apply, ← Equiv.sum_comp (contrEquiv1 dot_S2000x1024_S1024x128_S2000x128_1_0_0_1_n_n 1024 rfl rfl).symm]
  refine Finset.sum_congr rfl fun k _ => ?_
  have hk := contrEquiv1_symm_val dot_S2000x1024_S1024x128_S2000x128_1_0_0_1_n_n 1024 rfl rfl k
  have el : dot_S2000x1024_S1024x128_S2000x128_1_0_0_1_n_n.lhsIdx (ix2 r c) ((contrEquiv1 dot_S2000x1024_S1024x128_S2000x128_1_0_0_1_n_n 1024 rfl rfl).symm k) = ix2 r k := funext fun ax => Fin.ext (by
    match ax with
    | ⟨0, _⟩ => exact lhs_rsum_0 _ _
    | ⟨1, _⟩ => exact (lhs_rsum_1 _ _).trans hk)
  have er : dot_S2000x1024_S1024x128_S2000x128_1_0_0_1_n_n.rhsIdx (ix2 r c) ((contrEquiv1 dot_S2000x1024_S1024x128_S2000x128_1_0_0_1_n_n 1024 rfl rfl).symm k) = ix2 k c := funext fun ax => Fin.ext (by
    match ax with
    | ⟨0, _⟩ => exact (rhs_rsum_0 _ _).trans hk
    | ⟨1, _⟩ => exact rhs_rsum_1 _ _)
  rw [el, er]

/-! ## The softmax-weighted row -/

/-- The query row: the projection plus the bias row broadcast, at `(r, d)`. -/
theorem query_apply (xm : FVec Ideal S2000x256 .f32) (wq : FVec Ideal S256x256 .f32) (b : FVec Ideal S1x256 .f32)
    (hlt : FTy.bits .bf16 < FTy.bits .f32) (h1 : S1x256.ShapeCasts S1x256) (h2 : S1x256.Broadcasts S2000x256) (r : Fin 2000) (d : Fin 256) :
    addf (matmul dot_S2000x256_S256x256_S2000x256_1_1_0_0_n_n none (truncf .bf16 xm hlt) (truncf .bf16 wq hlt)
        (constant (F := Ideal) S2000x256 .f32 0x00000000#32)) (broadcastTo S2000x256 (shapeCast S1x256 b h1) h2) (ix2 r d)
      = projRow (fun k => xm (ix2 r k)) (fun d k => wq (ix2 d k)) (fun d => b (ix2 (0 : Fin 1) d)) d := by
  rw [addf_apply, broadcastTo_1b_ab_apply, shapeCast_self, matmul_projQ_apply]
  rfl

/-- The weight `exp (a (r, n) - max over the row)`, the maximum taken over axis 1 from `-∞`, cast to a column and
    broadcast along the row. -/
theorem rowExp_apply (a : FVec Ideal S2000x1024 .f32) (h1 : S2000x1024.Reduces [1] S2000) (hφ : FKind.Formats .f32)
    (hacc : (0xFF800000#32 : BitVec 32) = 0xFF800000#32) (h2 : S2000.ShapeCasts S2000x1) (h3 : S2000x1.Broadcasts S2000x1024)
    (r : Fin 2000) (n : Fin 1024) :
    exp (subf a (broadcastTo S2000x1024 (shapeCast S2000x1 (multiReduction (F := Ideal) .maximumf [1] S2000 a 0xFF800000#32 h1 hφ hacc) h2) h3)) (ix2 r n)
      = expRow (fun n => a (ix2 r n)) n := by
  show Ideal.exp (a (ix2 r n) - broadcastTo S2000x1024 (shapeCast S2000x1 (multiReduction (F := Ideal) .maximumf [1] S2000 a 0xFF800000#32 h1 hφ hacc) h2) h3 (ix2 r n)) = _
  rw [broadcastTo_a1_ab_apply, shapeCast_a_a1_apply, vecMax_axis1_of2_ix]
  rfl

/-- The weighted sum over the row times the reciprocal of the row sum, the row sum read at column 0 of the product of
    the weights with an all-ones `[1024, 128]` operand: the normalised row of the weights `exp (a - max a)`. -/
theorem attn_core (a : FVec Ideal S2000x1024 .f32) (om : FVec Ideal S1024x256 .bf16) (ones : FVec Ideal S1024x128 .bf16)
    (hones : ∀ i, ones i = (1 : EReal)) (hlt : FTy.bits .bf16 < FTy.bits .f32)
    (h1 : S2000x1024.Reduces [1] S2000) (hφ : FKind.Formats .f32) (hacc : (0xFF800000#32 : BitVec 32) = 0xFF800000#32)
    (h2 : S2000.ShapeCasts S2000x1) (h3 : S2000x1.Broadcasts S2000x1024) (h4 : S1024x128.ShapeCasts S1024x128)
    (h5 : S2000x128.Slices ![0, 0] S2000x1) (h6 : S2000x1.Broadcasts S2000x256) (r : Fin 2000) (d : Fin 256) :
    mulf
        (matmul dot_S2000x1024_S1024x256_S2000x256_1_0_0_1_n_n none
          (truncf .bf16 (exp (subf a (broadcastTo S2000x1024 (shapeCast S2000x1
            (multiReduction (F := Ideal) .maximumf [1] S2000 a 0xFF800000#32 h1 hφ hacc) h2) h3))) hlt)
          om (constant (F := Ideal) S2000x256 .f32 0x00000000#32))
        (broadcastTo S2000x256
          (divf (broadcast S2000x1 (Scalar.ofBits (F := Ideal) .f32 0x3F800000#32))
            (extractStridedSlice S2000x1 ![0, 0]
              (matmul dot_S2000x1024_S1024x128_S2000x128_1_0_0_1_n_n none
                (truncf .bf16 (exp (subf a (broadcastTo S2000x1024 (shapeCast S2000x1
                  (multiReduction (F := Ideal) .maximumf [1] S2000 a 0xFF800000#32 h1 hφ hacc) h2) h3))) hlt)
                (shapeCast S1024x128 ones h4) (constant (F := Ideal) S2000x128 .f32 0x00000000#32)) h5)) h6)
        (ix2 r d)
      = attnRowK (fun n => a (ix2 r n)) (fun n d => om (ix2 n d)) d := by
  rw [mulf_apply, matmul_wsum_apply, broadcastTo_a1_ab_apply, divf_apply, broadcast_apply, scalar_one,
    slice2_axis1_apply 0 _ h5 r (0 : Fin 1) (0 : Fin 128) rfl, matmul_rsum_apply]
  unfold attnRowK
  refine congrArg₂ (· * ·) (Finset.sum_congr rfl fun n _ => ?_) (congrArg (Ideal.div 1) (Finset.sum_congr rfl fun n _ => ?_))
  · rw [truncf_apply, rowExp_apply]
  · rw [truncf_apply, rowExp_apply, shapeCast_self, hones, mul_one]

theorem pay5_apply (xm : Vec Ideal S2000x256 .f32) (wq : Vec Ideal S256x256 .f32) (b : Vec Ideal S1x256 .f32)
    (kk om : Vec Ideal S1024x256 .bf16) (ones : Vec Ideal S1024x128 .bf16) (hones : ∀ i, ones i = (1 : EReal))
    (r : Fin 2000) (d : Fin 256) :
    k0_pay5 (F := Ideal) xm wq b kk om ones (ix2 r d)
      = attnRowK (logitRowK (projRow (fun k => xm (ix2 r k)) (fun d k => wq (ix2 d k)) (fun d => b (ix2 (0 : Fin 1) d)))
          (fun n d => kk (ix2 n d))) (fun n d => om (ix2 n d)) d := by
  unfold k0_pay5
  refine (attn_core _ om ones hones _ _ _ _ _ _ _ _ _ r d).trans ?_
  refine congrArg (fun a => attnRowK a (fun n d => om (ix2 n d)) d) (funext fun n => ?_)
  rw [matmul_logit_apply]
  unfold logitRowK
  refine Finset.sum_congr rfl fun c _ => ?_
  rw [truncf_apply, query_apply]

end Cert.KernelIdeal.PayValue

end
-- ==== Proof.BlockReads.lean ====
/-
  What each input window's block holds at a grid point, as entries of the program's argument arrays.

  The one kernel call runs over nine grid points t = 0 … 8. Two windows move with the point: window 0 reads the block of
  1024 rows of the [4096,1024] argument whose block row index is min(t, 3), window 4 the block of 2000 rows of the
  [10000,256] argument whose block row index is max(t - 4, 0). A block's coordinate in its array is always
  (block index) × (block size) + (coordinate inside the block). Windows 1, 2 and 5 hold a whole argument array at every
  point (block index (0, 0)). Windows 3 and 6 hold a length-256 argument (main_arg6, main_arg4) re-laid as one row of 256, and window 7
  holds the [1024,128] array every entry of which is the bf16 word 0x3F80, the number one.
-/
import proofs.«117169_g52209622450808_cont_9to1_m_767_13_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Mathlib.Tactic.NormNum

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx

variable {F : FTy → Type} [FloatOps F]
variable (m : (ℓ : Loc nD τ sig) → Buf (Elt F) ℓ)

/-! ## The two moving windows -/

/-- Window 0's block index at the nine points: the row index is min(t, 3), the column index 0. -/
theorem index0 (t : Fin cfg0.N) : win0_0.index t 0 = min t.val 3 ∧ win0_0.index t 1 = 0 := by
  rcases fin_N0 t with rfl | rfl | rfl | rfl | rfl | rfl | rfl | rfl | rfl <;> decide

/-- Window 4's block index at the nine points: the row index is max(t - 4, 0) = t - 4 (truncated), the column index 0. -/
theorem index4 (t : Fin cfg0.N) : win0_4.index t 0 = t.val - 4 ∧ win0_4.index t 1 = 0 := by
  rcases fin_N0 t with rfl | rfl | rfl | rfl | rfl | rfl | rfl | rfl | rfl <;> decide

/-- At the points t ≤ 3, window 0's block is rows 1024 t … 1024 t + 1023 of the [4096,1024] argument main_arg2. -/
theorem blk0_apply (c : Dev nD) (t : Fin cfg0.N) (ht : t.val ≤ 3) (r i : Fin 1024) :
    (iblk m c 0 t : Vec F S1024x1024 .f32) (ix2 r i)
      = (m ((c : Thread nD τ).loc main_arg2) : S4096x1024.Idx → Elt F .f32) (ix2 (⟨1024 * t.val + r.val, by omega⟩ : Fin 4096) i) := by
  have hi := index0 t
  unfold iblk
  rw [View.read_apply]
  show V m c main_arg2 _ = m (c.tc.loc main_arg2) _
  rw [V_main_arg2]
  congr 1
  funext a
  apply Fin.ext
  match a with
  | ⟨0, _⟩ =>
    show win0_0.index t 0 * 1024 + 1 * r.val = 1024 * t.val + r.val
    rw [hi.1, Nat.min_eq_left ht]; omega
  | ⟨1, _⟩ =>
    show win0_0.index t 1 * 1024 + 1 * i.val = i.val
    rw [hi.2]; omega

/-- At the points t ≥ 4, window 4's block is rows 2000 (t - 4) … 2000 (t - 4) + 1999 of the [10000,256] argument main_arg0. -/
theorem blk4_apply (c : Dev nD) (t : Fin cfg0.N) (ht : 4 ≤ t.val) (r : Fin 2000) (k : Fin 256) :
    (iblk m c 4 t : Vec F S2000x256 .f32) (ix2 r k)
      = (m ((c : Thread nD τ).loc main_arg0) : S10000x256.Idx → Elt F .f32)
          (ix2 (⟨2000 * (t.val - 4) + r.val, by have := t.isLt; have : cfg0.N = 9 := N_0; omega⟩ : Fin 10000) k) := by
  have hi := index4 t
  unfold iblk
  rw [View.read_apply]
  show V m c main_arg0 _ = m (c.tc.loc main_arg0) _
  rw [V_main_arg0]
  congr 1
  funext a
  apply Fin.ext
  match a with
  | ⟨0, _⟩ =>
    show win0_4.index t 0 * 2000 + 1 * r.val = 2000 * (t.val - 4) + r.val
    rw [hi.1]; omega
  | ⟨1, _⟩ =>
    show win0_4.index t 1 * 256 + 1 * k.val = k.val
    rw [hi.2]; omega

/-! ## The windows that hold a whole argument array -/

/-- Windows 1, 2 and 5 sit on block (0, 0) at every point. -/
theorem index1 (t : Fin cfg0.N) : win0_1.index t 0 = 0 ∧ win0_1.index t 1 = 0 := by
  rcases fin_N0 t with rfl | rfl | rfl | rfl | rfl | rfl | rfl | rfl | rfl <;> decide
theorem index2 (t : Fin cfg0.N) : win0_2.index t 0 = 0 ∧ win0_2.index t 1 = 0 := by
  rcases fin_N0 t with rfl | rfl | rfl | rfl | rfl | rfl | rfl | rfl | rfl <;> decide
theorem index5 (t : Fin cfg0.N) : win0_5.index t 0 = 0 ∧ win0_5.index t 1 = 0 := by
  rcases fin_N0 t with rfl | rfl | rfl | rfl | rfl | rfl | rfl | rfl | rfl <;> decide

/-- Window 1's block is the [1024,256] argument main_arg1, at every point. -/
theorem blk1_eq (c : Dev nD) (t : Fin cfg0.N) : (iblk m c 1 t : Vec F S1024x256 .f32) = m ((c : Thread nD τ).loc main_arg1) := by
  have hi := index1 t
  funext j
  obtain ⟨r, k, rfl⟩ : ∃ r k, j = ix2 r k := ⟨_, _, eq_ix2 j⟩
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * r.val = r.val; rw [hi.1]; omega
  | ⟨1, _⟩ => show win0_1.index t 1 * 256 + 1 * k.val = k.val; rw [hi.2]; omega

/-- Window 2's block is the [256,256] argument main_arg5, at every point. -/
theorem blk2_eq (c : Dev nD) (t : Fin cfg0.N) : (iblk m c 2 t : Vec F S256x256 .f32) = m ((c : Thread nD τ).loc main_arg5) := by
  have hi := index2 t
  funext j
  obtain ⟨r, k, rfl⟩ : ∃ r k, j = ix2 r k := ⟨_, _, eq_ix2 j⟩
  unfold iblk
  rw [View.read_apply]
  show V m c main_arg5 _ = m (c.tc.loc main_arg5) _
  rw [V_main_arg5]
  congr 1
  funext a
  apply Fin.ext
  match a with
  | ⟨0, _⟩ => show win0_2.index t 0 * 256 + 1 * r.val = r.val; rw [hi.1]; omega
  | ⟨1, _⟩ => show win0_2.index t 1 * 256 + 1 * k.val = k.val; rw [hi.2]; omega

/-- Window 5's block is the [256,256] argument main_arg3, at every point. -/
theorem blk5_eq (c : Dev nD) (t : Fin cfg0.N) : (iblk m c 5 t : Vec F S256x256 .f32) = m ((c : Thread nD τ).loc main_arg3) := by
  have hi := index5 t
  funext j
  obtain ⟨r, k, rfl⟩ : ∃ r k, j = ix2 r k := ⟨_, _, eq_ix2 j⟩
  unfold iblk
  rw [View.read_apply]
  show V m c main_arg3 _ = m (c.tc.loc main_arg3) _
  rw [V_main_arg3]
  congr 1
  funext a
  apply Fin.ext
  match a with
  | ⟨0, _⟩ => show win0_5.index t 0 * 256 + 1 * r.val = r.val; rw [hi.1]; omega
  | ⟨1, _⟩ => show win0_5.index t 1 * 256 + 1 * k.val = k.val; rw [hi.2]; omega

/-! ## The windows on arrays the host prefix wrote -/

/-- Windows 3, 6 and 7 sit on block (0, 0) at every point. -/
theorem index3 (t : Fin cfg0.N) : win0_3.index t 0 = 0 ∧ win0_3.index t 1 = 0 := by
  rcases fin_N0 t with rfl | rfl | rfl | rfl | rfl | rfl | rfl | rfl | rfl <;> decide
theorem index6 (t : Fin cfg0.N) : win0_6.index t 0 = 0 ∧ win0_6.index t 1 = 0 := by
  rcases fin_N0 t with rfl | rfl | rfl | rfl | rfl | rfl | rfl | rfl | rfl <;> decide
theorem index7 (t : Fin cfg0.N) : win0_7.index t 0 = 0 ∧ win0_7.index t 1 = 0 := by
  rcases fin_N0 t with rfl | rfl | rfl | rfl | rfl | rfl | rfl | rfl | rfl <;> decide

/-- When the kernel is called, the array main_v0 of shape [1,256] is the length-256 argument main_arg4 re-laid row-major. -/
theorem V_main_v0 (c : Dev nD) :
    (V m c main_v0 : S1x256.Idx → Elt F .f32)
      = shapeCast S1x256 (m ((c : Thread nD τ).loc main_arg4) : S256.Idx → Elt F .f32) shapeCasts_S256_S1x256 := by
  dsimp only [V, hostOps0]
  after_results
  rfl

/-- When the kernel is called, the array main_v1 of shape [1,256] is the length-256 argument main_arg6 re-laid row-major. -/
theorem V_main_v1 (c : Dev nD) :
    (V m c main_v1 : S1x256.Idx → Elt F .f32)
      = shapeCast S1x256 (m ((c : Thread nD τ).loc main_arg6) : S256.Idx → Elt F .f32) shapeCasts_S256_S1x256 := by
  dsimp only [V, hostOps0]
  after_results
  rfl

/-- When the kernel is called, the [1024,128] bf16 array main_v2 is the scalar constant of word 0x3F80 broadcast to every entry. -/
theorem V_main_v2 (c : Dev nD) :
    (V m c main_v2 : S1024x128.Idx → Elt F .bf16)
      = broadcastInDim S1024x128 ![] bcast_S_S1024x128 (constant (F := F) S_ .bf16 0x3F80#16) := by
  dsimp only [V, hostOps0]
  after_results

/-- Entry d of a length-256 array re-laid as one row is entry (0, d) of the row: both sit at row-major position d. -/
theorem row_of_256 {α : Type} (x : S256.Idx → α) (j : S1x256.Idx) (d : Fin 256) (h0 : (j 0).val = 0) (h1 : (j 1).val = d.val) :
    shapeCast S1x256 x shapeCasts_S256_S1x256 j = x (ix1 d) := by
  refine shapeCast_apply x _ j (ix1 d) ?_
  rw [Shape.rowMajor_val_one, Shape.rowMajor_val_two]
  show d.val = (j 0).val * 256 + (j 1).val
  rw [h0, h1]; omega

/-- Window 3's block, the one row of 256, holds the length-256 argument main_arg6. -/
theorem blk3_apply (c : Dev nD) (t : Fin cfg0.N) (d : Fin 256) :
    (iblk m c 3 t : Vec F S1x256 .f32) (ix2 (0 : Fin 1) d) = (m ((c : Thread nD τ).loc main_arg6) : S256.Idx → Elt F .f32) (ix1 d) := by
  have hi := index3 t
  unfold iblk
  rw [View.read_apply]
  show V m c main_v1 _ = _
  rw [V_main_v1]
  refine row_of_256 _ _ d ?_ ?_
  · show win0_3.index t 0 * 1 + 1 * 0 = 0
    rw [hi.1]
  · show win0_3.index t 1 * 256 + 1 * d.val = d.val
    rw [hi.2]; omega

/-- Window 6's block, the one row of 256, holds the length-256 argument main_arg4. -/
theorem blk6_apply (c : Dev nD) (t : Fin cfg0.N) (d : Fin 256) :
    (iblk m c 6 t : Vec F S1x256 .f32) (ix2 (0 : Fin 1) d) = (m ((c : Thread nD τ).loc main_arg4) : S256.Idx → Elt F .f32) (ix1 d) := by
  have hi := index6 t
  unfold iblk
  rw [View.read_apply]
  show V m c main_v0 _ = _
  rw [V_main_v0]
  refine row_of_256 _ _ d ?_ ?_
  · show win0_6.index t 0 * 1 + 1 * 0 = 0
    rw [hi.1]
  · show win0_6.index t 1 * 256 + 1 * d.val = d.val
    rw [hi.2]; omega

/-- The bf16 word 0x3F80 (sign 0, biased exponent 127, fraction 0) is the number one. -/
theorem ofBits_bf16_3F80 : Ideal.ofBits .bf16 0x3F80#16 = (1 : EReal) := by
  rw [show (1 : EReal) = ((1 : ℝ) : EReal) by norm_cast]
  simp [Ideal.ofBits, Ideal.ieee, -EReal.coe_mul] <;> norm_num

/-- At the ideal instance every entry of window 7's block is one. -/
theorem blk7_one (m : (ℓ : Loc nD τ sig) → Buf (Elt Ideal) ℓ) (c : Dev nD) (t : Fin cfg0.N) (i : S1024x128.Idx) :
    (iblk (F := Ideal) m c 7 t : Vec Ideal S1024x128 .bf16) i = (1 : EReal) := by
  unfold iblk
  rw [View.read_apply]
  show (V m c main_v2 : S1024x128.Idx → Elt Ideal .bf16) _ = _
  rw [V_main_v2]
  refine (broadcastInDim_apply (![] : Fin 0 → Fin S1024x128.rank) bcast_S_S1024x128 _ _ ix0 (fun a => a.elim0)).trans ?_
  rw [constant_apply]
  exact ofBits_bf16_3F80

end Cert.KernelIdeal.Blocks

end
-- ==== Proof.KernelValue.lean ====
/-
  What the kernel call leaves in the result array, at the ideal float instance: the function `Cert.Spec.ResK` of the seven
  argument arrays.

  The Gram accumulator after point 3 is the sum of the four chunks' Gram matrices in the order they were added, which is
  the Gram matrix of all 4096 rows (a sum over 4096 rows split into four runs of 1024). From it point 3 leaves the mixed
  rows and the scaled keys. At a point `t ≥ 4` the body leaves, in the output window's buffer, rows `2000 (t - 4)` to
  `2000 (t - 4) + 1999` of the result: the block of `main` it reads is those rows, and every other operand is a whole
  array. That buffer is written back at every such point, and the five blocks tile the result array.
-/
import proofs.«117169_g52209622450808_cont_9to1_m_767_13_alg».proof.Proof.Pieces
import proofs.«117169_g52209622450808_cont_9to1_m_767_13_alg».proof.Proof.PayValue
import proofs.«117169_g52209622450808_cont_9to1_m_767_13_alg».proof.Proof.BlockReads
import proofs.«117169_g52209622450808_cont_9to1_m_767_13_alg».proof.Proof.Spec
import proofs.«117169_g52209622450808_cont_9to1_m_767_13_alg».proof.Proof.LibSums
import Idealize.ShloMosaic.Lib.Pipeline.Value

set_option maxRecDepth 16384

noncomputable section

open scoped BigOperators

namespace Cert.KernelIdeal.KValue

open Cert.KernelIdeal Cert.KernelIdeal.Gen Cert.KernelIdeal.Body Cert.KernelIdeal.Blocks Cert.KernelIdeal.PayValue Cert.Spec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The argument arrays and the windows' blocks, at their literal types -/

abbrev aMain (c : Dev nD) : (⟨2, ![10000, 256]⟩ : Shape).Idx → EReal := m ((c : Thread nD τ).loc main_arg0)
abbrev aOther (c : Dev nD) : (⟨2, ![1024, 256]⟩ : Shape).Idx → EReal := m ((c : Thread nD τ).loc main_arg1)
abbrev aFix (c : Dev nD) : (⟨2, ![4096, 1024]⟩ : Shape).Idx → EReal := m ((c : Thread nD τ).loc main_arg2)
abbrev aWq (c : Dev nD) : (⟨2, ![256, 256]⟩ : Shape).Idx → EReal := m ((c : Thread nD τ).loc main_arg3)
abbrev aBq (c : Dev nD) : (⟨1, ![256]⟩ : Shape).Idx → EReal := m ((c : Thread nD τ).loc main_arg4)
abbrev aWk (c : Dev nD) : (⟨2, ![256, 256]⟩ : Shape).Idx → EReal := m ((c : Thread nD τ).loc main_arg5)
abbrev aBk (c : Dev nD) : (⟨1, ![256]⟩ : Shape).Idx → EReal := m ((c : Thread nD τ).loc main_arg6)

abbrev fixBlk (c : Dev nD) (t : Fin cfg0.N) : Vec Ideal S1024x1024 .f32 := iblk m c 0 t
abbrev otherBlk (c : Dev nD) (t : Fin cfg0.N) : Vec Ideal S1024x256 .f32 := iblk m c 1 t
abbrev wkBlk (c : Dev nD) (t : Fin cfg0.N) : Vec Ideal S256x256 .f32 := iblk m c 2 t
abbrev bkBlk (c : Dev nD) (t : Fin cfg0.N) : Vec Ideal S1x256 .f32 := iblk m c 3 t
abbrev mainBlk (c : Dev nD) (t : Fin cfg0.N) : Vec Ideal S2000x256 .f32 := iblk m c 4 t
abbrev wqBlk (c : Dev nD) (t : Fin cfg0.N) : Vec Ideal S256x256 .f32 := iblk m c 5 t
abbrev bqBlk (c : Dev nD) (t : Fin cfg0.N) : Vec Ideal S1x256 .f32 := iblk m c 6 t
abbrev onesBlk (c : Dev nD) (t : Fin cfg0.N) : Vec Ideal S1024x128 .bf16 := iblk m c 7 t

/-- Points 0, 1 and 2 (point 3 is `t3`). -/
def p0 : Fin cfg0.N := ⟨0, by rw [N9]; decide⟩
def p1 : Fin cfg0.N := ⟨1, by rw [N9]; decide⟩
def p2 : Fin cfg0.N := ⟨2, by rw [N9]; decide⟩

/-! ## The Gram accumulator -/

/-- A sum over 4096 rows is the sum of its four runs of 1024 rows, added in order. -/
theorem gram_split (f : Fin 4096 → Fin 1024 → EReal) (f0 f1 f2 f3 : Fin 1024 → Fin 1024 → EReal)
    (h0 : ∀ r a, f0 r a = f ⟨r.val, by omega⟩ a) (h1 : ∀ r a, f1 r a = f ⟨1024 + r.val, by omega⟩ a)
    (h2 : ∀ r a, f2 r a = f ⟨2048 + r.val, by omega⟩ a) (h3 : ∀ r a, f3 r a = f ⟨3072 + r.val, by omega⟩ a) (i j : Fin 1024) :
    ((gramOf f0 i j + gramOf f1 i j) + gramOf f2 i j) + gramOf f3 i j = gramOf f i j := by
  unfold gramOf
  rw [Idealize.ShloMosaic.LibSums.sum_split 3072 1024 rfl (fun r => f r i * f r j),
    Idealize.ShloMosaic.LibSums.sum_split 2048 1024 rfl, Idealize.ShloMosaic.LibSums.sum_split 1024 1024 rfl]
  simp only [h0, h1, h2, h3]

theorem gAt0 (c : Dev nD) : gAt m c 0 p0.isLt = k0_pay1 (fixBlk m c p0) := by
  show gAp m c p0 rfl = _
  unfold gAp; apply gA_eq
theorem gAt1 (c : Dev nD) : gAt m c 1 p1.isLt = k0_pay2 (fixBlk m c p1) (gAt m c 0 p0.isLt) := by
  refine (gAt_B m c p1 (by decide) (by decide)).trans ?_
  unfold gBp; apply gB_eq
theorem gAt2 (c : Dev nD) : gAt m c 2 lt2 = k0_pay2 (fixBlk m c p2) (gAt m c 1 p1.isLt) := by
  refine (gAt_B m c p2 (by decide) (by decide)).trans ?_
  unfold gBp; apply gB_eq

/-- The accumulator as point 3 updates it. -/
abbrev G3 (c : Dev nD) : Vec Ideal S1024x1024 .f32 := k0_pay2 (fixBlk m c t3) (gAt m c 2 lt2)

/-- A chunk's block, as rows of `fix`. -/
theorem chunk_rows (c : Dev nD) (t : Fin cfg0.N) (ht : t.val ≤ 3) (r a : Fin 1024) :
    fixBlk m c t (ix2 r a) = aFix m c (ix2 (⟨1024 * t.val + r.val, by omega⟩ : Fin 4096) a) :=
  blk0_apply m c t ht r a

/-- The rows of `fix` a chunk's block holds, as a function of the row inside the chunk. -/
abbrev chunkFn (c : Dev nD) (t : Fin cfg0.N) : Fin 1024 → Fin 1024 → EReal := fun r a => fixBlk m c t (ix2 r a)

theorem gAt0_apply (c : Dev nD) (i j : Fin 1024) :
    gAt m c 0 p0.isLt (ix2 i j) = gramOf (chunkFn m c p0) i j := by
  rw [gAt0]; exact pay1_apply (fixBlk m c p0) i j
theorem gAt1_apply (c : Dev nD) (i j : Fin 1024) :
    gAt m c 1 p1.isLt (ix2 i j) = gramOf (chunkFn m c p0) i j + gramOf (chunkFn m c p1) i j := by
  rw [gAt1]
  refine (pay2_apply (fixBlk m c p1) (gAt m c 0 p0.isLt) i j).trans ?_
  rw [gAt0_apply]
theorem gAt2_apply (c : Dev nD) (i j : Fin 1024) :
    gAt m c 2 lt2 (ix2 i j) = (gramOf (chunkFn m c p0) i j + gramOf (chunkFn m c p1) i j) + gramOf (chunkFn m c p2) i j := by
  rw [gAt2]
  refine (pay2_apply (fixBlk m c p2) (gAt m c 1 p1.isLt) i j).trans ?_
  rw [gAt1_apply]

theorem G3_apply (c : Dev nD) (i j : Fin 1024) : G3 m c (ix2 i j) = gramFull (aFix m c) i j := by
  refine (pay2_apply (fixBlk m c t3) (gAt m c 2 lt2) i j).trans ?_
  rw [gAt2_apply]
  unfold gramFull
  refine gram_split (fun r a => aFix m c (ix2 r a)) (chunkFn m c p0) (chunkFn m c p1) (chunkFn m c p2) (chunkFn m c t3) ?_ ?_ ?_ ?_ i j
  · intro r a; exact (chunk_rows m c p0 (by decide) r a).trans (congrArg (fun x => aFix m c (ix2 x a)) (Fin.ext (by show 1024 * 0 + r.val = r.val; omega)))
  · intro r a; exact (chunk_rows m c p1 (by decide) r a).trans (congrArg (fun x => aFix m c (ix2 x a)) (Fin.ext (by show 1024 * 1 + r.val = 1024 + r.val; omega)))
  · intro r a; exact (chunk_rows m c p2 (by decide) r a).trans (congrArg (fun x => aFix m c (ix2 x a)) (Fin.ext (by show 1024 * 2 + r.val = 2048 + r.val; omega)))
  · intro r a; exact (chunk_rows m c t3 (by decide) r a).trans (congrArg (fun x => aFix m c (ix2 x a)) (Fin.ext (by show 1024 * 3 + r.val = 3072 + r.val; omega)))

/-! ## What point 3 leaves -/

theorem mFin_eq (c : Dev nD) : mFin m c = k0_pay3 (G3 m c) (otherBlk m c t3) := by
  unfold mFin mCp; apply mC_eq
theorem kFin_eq (c : Dev nD) : kFin m c = k0_pay4 (otherBlk m c t3) (wkBlk m c t3) (bkBlk m c t3) := by
  unfold kFin kCp; apply kC_eq

theorem mFin_apply (c : Dev nD) (n : Fin 1024) (d : Fin 256) :
    mFin m c (ix2 n d) = mixK (gramFull (aFix m c)) (fun j d => aOther m c (ix2 j d)) n d := by
  rw [mFin_eq]
  refine (pay3_apply (G3 m c) (otherBlk m c t3) n d).trans ?_
  have hg : (fun (i j : Fin 1024) => G3 m c (ix2 i j)) = gramFull (aFix m c) := funext fun i => funext fun j => G3_apply m c i j
  have ho : (fun (j : Fin 1024) (d : Fin 256) => otherBlk m c t3 (ix2 j d)) = fun j d => aOther m c (ix2 j d) := by
    rw [show otherBlk m c t3 = aOther m c from blk1_eq m c t3]
  rw [hg, ho]

theorem kFin_apply (c : Dev nD) (n : Fin 1024) (d : Fin 256) :
    kFin m c (ix2 n d) = kRow (aOther m c) (aWk m c) (aBk m c) n d * c16 := by
  rw [kFin_eq]
  refine (pay4_apply (otherBlk m c t3) (wkBlk m c t3) (bkBlk m c t3) n d).trans ?_
  have hb : (fun d : Fin 256 => bkBlk m c t3 (ix2 (0 : Fin 1) d)) = fun d => aBk m c (ix1 d) := funext fun d => blk3_apply m c t3 d
  rw [hb, show otherBlk m c t3 = aOther m c from blk1_eq m c t3, show wkBlk m c t3 = aWk m c from blk2_eq m c t3]
  rfl

/-! ## An output block -/

theorem oAt_eq (c : Dev nD) (t : Fin cfg0.N) (h4 : 4 ≤ t.val) :
    oAt m c t = k0_pay5 (mainBlk m c t) (wqBlk m c t) (bqBlk m c t) (kFin m c) (mFin m c) (onesBlk m c t) := by
  rw [show oAt m c t = oDp m c t h4 (mFin m c) (kFin m c) from dif_pos h4]
  unfold oDp; apply oD_eq

/-- The row of the result that row `r` of the block at point `t` is. -/
def outRow (t : Fin cfg0.N) (r : Fin 2000) : Fin 10000 :=
  ⟨2000 * (t.val - 4) + r.val, by have := t.isLt; have : cfg0.N = 9 := N9; omega⟩

theorem oAt_apply (c : Dev nD) (t : Fin cfg0.N) (h4 : 4 ≤ t.val) (y : S2000x256.Idx) :
    oAt m c t y = ResK (aMain m c) (aOther m c) (aFix m c) (aWq m c) (aBq m c) (aWk m c) (aBk m c) (ix2 (outRow t (y 0)) (y 1)) := by
  obtain ⟨r, d, rfl⟩ : ∃ (r : Fin 2000) (d : Fin 256), y = ix2 r d := ⟨y 0, y 1, eq_ix2 y⟩
  rw [oAt_eq m c t h4]
  refine (pay5_apply (mainBlk m c t) (wqBlk m c t) (bqBlk m c t) (kFin m c) (mFin m c) (onesBlk m c t) (blk7_one m c t) r d).trans ?_
  have hx : (fun k : Fin 256 => mainBlk m c t (ix2 r k)) = fun k => aMain m c (ix2 (outRow t r) k) := funext fun k => blk4_apply m c t h4 r k
  have hb : (fun d : Fin 256 => bqBlk m c t (ix2 (0 : Fin 1) d)) = fun d => aBq m c (ix1 d) := funext fun d => blk6_apply m c t d
  have hk : (fun (n : Fin 1024) (d : Fin 256) => kFin m c (ix2 n d)) = fun n d => kRow (aOther m c) (aWk m c) (aBk m c) n d * c16 :=
    funext fun n => funext fun d => kFin_apply m c n d
  have hm : (fun (n : Fin 1024) (d : Fin 256) => mFin m c (ix2 n d)) = mixK (gramFull (aFix m c)) (fun j d => aOther m c (ix2 j d)) :=
    funext fun n => funext fun d => mFin_apply m c n d
  rw [hx, hb, hk, hm, show wqBlk m c t = aWq m c from blk5_eq m c t]
  rfl

/-! ## The written-back blocks tile the result -/

theorem flush8 : ∀ t : Fin cfg0.N, (cfg0.win 8).flush t = true ↔ 4 ≤ t.val :=
  (by decide +kernel : ∀ t : Fin grid0.N, (cfg0.win 8).flush t = true ↔ 4 ≤ t.val)
theorem idx8 : ∀ t : Fin cfg0.N, win0_8.index t (0 : Fin 2) = t.val - 4 ∧ win0_8.index t (1 : Fin 2) = 0 :=
  (by decide +kernel : ∀ t : Fin grid0.N, win0_8.index t (0 : Fin 2) = t.val - 4 ∧ win0_8.index t (1 : Fin 2) = 0)

/-- What a point `t ≥ 4` writes back is its block of the result. -/
theorem flushed_eq (c : Dev nD) (t : Fin cfg0.N) (hf : (cfg0.win 8).flush t = true) :
    (dats m 0 c).flushed 8 t = ((cfg0.win 8).blk t).view.read (Elt Ideal) (ResK (aMain m c) (aOther m c) (aFix m c) (aWq m c) (aBq m c) (aWk m c) (aBk m c)) := by
  have h4 : 4 ≤ t.val := (flush8 t).mp hf
  show (cfg0.win 8).cut (grid0.coords t) ((dats m 0 c).after 8 t) = _
  rw [after8]
  funext y
  rw [View.read_apply]
  refine (oAt_apply m c t h4 _).trans ?_
  congr 1
  funext a
  apply Fin.ext
  obtain ⟨e0, e1⟩ := idx8 t
  match a with
  | ⟨0, _⟩ => show 2000 * (t.val - 4) + (y 0).val = win0_8.index t (0 : Fin 2) * 2000 + 1 * (y 0).val; rw [e0]; omega
  | ⟨1, _⟩ => show (y 1).val = win0_8.index t (1 : Fin 2) * 256 + 1 * (y 1).val; rw [e1]; omega

theorem mem_blk8 (t : Fin cfg0.N) (i : S10000x256.Idx) :
    i ∈ ((cfg0.win 8).blk t).view.set ↔ ∀ a : Fin 2, win0_8.index t a * S2000x256.size a ≤ (i a).val ∧ (i a).val < win0_8.index t a * S2000x256.size a + S2000x256.size a := by
  show i ∈ ((View.whole main_v3).slice (win0_8.rect t)).set ↔ _
  rw [View.set_slice_whole, Rect.mem_set_unit]
  exact Iff.rfl

/-- Every index of the result lies in the block of the point `4 + row / 2000`. -/
theorem cover8 (i : S10000x256.Idx) : ∃ t : Fin cfg0.N, (cfg0.win 8).flush t = true ∧ i ∈ ((cfg0.win 8).blk t).view.set := by
  have hi0 : (i 0).val < 10000 := (i 0).isLt
  have hi1 : (i 1).val < 256 := (i 1).isLt
  have hlt : (i 0).val / 2000 + 4 < cfg0.N := by rw [N9]; omega
  refine ⟨⟨(i 0).val / 2000 + 4, hlt⟩, (flush8 _).mpr (Nat.le_add_left 4 _), ?_⟩
  rw [mem_blk8]
  obtain ⟨e0, e1⟩ := idx8 ⟨(i 0).val / 2000 + 4, hlt⟩
  intro a
  match a with
  | ⟨0, _⟩ =>
    show win0_8.index ⟨(i 0).val / 2000 + 4, hlt⟩ (0 : Fin 2) * 2000 ≤ (i 0).val ∧ (i 0).val < win0_8.index ⟨(i 0).val / 2000 + 4, hlt⟩ (0 : Fin 2) * 2000 + 2000
    rw [e0]; dsimp only; omega
  | ⟨1, _⟩ =>
    show win0_8.index ⟨(i 0).val / 2000 + 4, hlt⟩ (1 : Fin 2) * 256 ≤ (i 1).val ∧ (i 1).val < win0_8.index ⟨(i 0).val / 2000 + 4, hlt⟩ (1 : Fin 2) * 256 + 256
    rw [e1]; omega

/-- The result array after the run. -/
theorem final8 (c : Dev nD) : (dats m 0 c).arrAt 8 cfg0.N = ResK (aMain m c) (aOther m c) (aFix m c) (aWq m c) (aBq m c) (aWk m c) (aBk m c) :=
  (dats m 0 c).arrAt_eq_of_cover 8 (ResK (aMain m c) (aOther m c) (aFix m c) (aWq m c) (aBq m c) (aWk m c) (aBk m c)) (flushed_eq m c) cover8

/-! ## The run, read -/

/-- Every weakly fair execution of the program terminates with the result array at `ResK` of the seven argument
    arrays, and those unchanged. -/
theorem run : θ_run defs (onTc (τ := τ) (main (F := Ideal))) ⟨m, fun _ => 0, ρ⟩ fun r => ∀ c : Dev nD,
      r.2.mem ((c.tc : Thread nD τ).loc main_v3) = ResK (aMain m c) (aOther m c) (aFix m c) (aWq m c) (aBq m c) (aWk m c) (aBk m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨((h c).1 8).trans (final8 m c),
      ((h c).1 4).trans (((dats m 0 c).arrAt_in 4 rfl _).trans ((A_eq m c 4).trans (V_main_arg0 m c))),
      ((h c).1 1).trans (((dats m 0 c).arrAt_in 1 rfl _).trans ((A_eq m c 1).trans (V_main_arg1 m c))),
      ((h c).1 0).trans (((dats m 0 c).arrAt_in 0 rfl _).trans ((A_eq m c 0).trans (V_main_arg2 m c))),
      ((h c).1 5).trans (((dats m 0 c).arrAt_in 5 rfl _).trans ((A_eq m c 5).trans (V_main_arg3 m c))),
      ((h c).2 main_arg4 (Pipeline.mem_restRefs_of main_arg4 (by decide) (by decide))).trans (V_main_arg4 m c),
      ((h c).1 2).trans (((dats m 0 c).arrAt_in 2 rfl _).trans ((A_eq m c 2).trans (V_main_arg5 m c))),
      ((h c).2 main_arg6 (Pipeline.mem_restRefs_of main_arg6 (by decide) (by decide))).trans (V_main_arg6 m c)⟩)
    (run_main m ρ)

end Cert.KernelIdeal.KValue

end
-- ==== Proof.RefValue.lean ====
/-
  The reference program's result, read at an index, is the function `Cert.Spec.ResR` of its seven argument arrays
  (at the ideal instance: a float is an extended real and every operation is exact).

  The reference computes, stage by stage,
  * the projections `Q = main Wqᵀ + bq` and `K = other Wkᵀ + bk` (a contraction with a transposed weight, plus a
    bias broadcast along the rows);
  * the logits `Q Kᵀ / 16`, their row maximum (a maximum from `-∞`, so the supremum of the row), the exponentials
    of the differences, their row sums (a sum from `0`), and the quotient: the row-wise softmax;
  * the Gram matrix `fixᵀ fix`, its entrywise square root, the column sums of that, the quotient by the column sum,
    and the product of the quotient with `other`: the mixed rows;
  * the product of the softmax with the mixed rows.
  Each stage is read at an index written by coordinates and identified with the corresponding row-wise building block.
-/
import proofs.«117169_g52209622450808_cont_9to1_m_767_13_alg».proof.Proof.Spec
import proofs.«117169_g52209622450808_cont_9to1_m_767_13_alg».proof.Proof.Gen.ReferenceIdeal.Run
import proofs.«117169_g52209622450808_cont_9to1_m_767_13_alg».proof.Proof.Gen.ReferenceIdeal.Read
import proofs.«117169_g52209622450808_cont_9to1_m_767_13_alg».proof.Proof.LibSums

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.ValueIdx
open Cert.ReferenceIdeal.Read Idealize.ShloMosaic.LibSums Cert.Spec

/-! ## A maximum over axis 1 of a rank-2 array, read at an index -/

section HostMax
variable {φ : FTy}

/-- The maximum over axis 1 of a rank-2 array, at `j`: the fold of `max`, from the initial value's element, over the
    coordinate `c` on that axis of the operand at `(j, c)`. -/
theorem hostMax_axis1_of2_fold {n0 n1 : Nat} {u : Shape}
    (x : FVec Ideal ⟨2, ![n0, n1]⟩ φ) (init : u.Idx → Ideal φ)
    (h' : Shape.ReducesTo ⟨2, ![n0, n1]⟩ [1] ⟨1, ![n0]⟩) (hu : 0 < u.numel)
    (j : (⟨1, ![n0]⟩ : Shape).Idx) :
    Host.reduce (FloatOps.maximumf (F := Ideal) (φ := φ)) x init h' hu j
      = (Finset.univ : Finset (Fin n1)).fold max (init (Shape.Idx.first hu)) (fun c => x (ix2 (j 0) c)) := by
  rw [Host.reduce_eq_fold]
  refine fold_filter_drop_of_lift h' _ _ x j (fun c => ix2 (j 0) c) (fun i => i 1) ?_ (fun _ => rfl) ?_
  · intro c; funext b
    match b with
    | ⟨0, _⟩ => rfl
  · intro i hi; subst hi; funext a
    match a with
    | ⟨0, _⟩ => rfl
    | ⟨1, _⟩ => rfl

/-- From the initial value `-∞` it is the supremum of row `r`. -/
theorem hostMax_axis1_of2_ix {n0 n1 : Nat} {u : Shape}
    (x : FVec Ideal ⟨2, ![n0, n1]⟩ φ) (init : u.Idx → Ideal φ)
    (h' : Shape.ReducesTo ⟨2, ![n0, n1]⟩ [1] ⟨1, ![n0]⟩) (hu : 0 < u.numel)
    (hinit : init (Shape.Idx.first hu) = ⊥) (r : Fin n0) :
    Host.reduce (FloatOps.maximumf (F := Ideal) (φ := φ)) x init h' hu (ix1 r)
      = (Finset.univ : Finset (Fin n1)).sup (fun c => x (ix2 r c)) := by
  rw [hostMax_axis1_of2_fold, hinit, fold_max_bot]
  rfl

end HostMax

/-- The f32 word `0x41800000` denotes `16`. -/
theorem ofBits_f32_41800000 : Ideal.ofBits .f32 0x41800000#32 = ((16 : ℝ) : EReal) := by
  simp [Ideal.ofBits, Ideal.ieee, -EReal.coe_mul] <;> norm_num

/-! ## The stages, read at an index written by coordinates -/

section Stages

variable (x0 : (⟨S10000x256, .f32⟩ : BufTy).Contents (Elt Ideal)) (x1 : (⟨S1024x256, .f32⟩ : BufTy).Contents (Elt Ideal))
  (x2 : (⟨S4096x1024, .f32⟩ : BufTy).Contents (Elt Ideal)) (x3 : (⟨S256x256, .f32⟩ : BufTy).Contents (Elt Ideal))
  (x4 : (⟨S256, .f32⟩ : BufTy).Contents (Elt Ideal)) (x5 : (⟨S256x256, .f32⟩ : BufTy).Contents (Elt Ideal))
  (x6 : (⟨S256, .f32⟩ : BufTy).Contents (Elt Ideal))

/-- `Q = main Wqᵀ + bq`, at `(r, d)`. -/
theorem q_at (r : Fin 10000) (d : Fin 256) :
    val_main_v4 (F := Ideal) x0 x3 x4 (ix2 r d) = qRow x0 x3 x4 r d := by
  rw [val_main_v4_apply, val_main_v1_apply, val_main_v3_apply, val_main_v2_apply]
  have e1 : ∀ k : Fin 256, lidx_main_v1 (ix2 r d) k = ix2 r k := fun k => funext fun a => Fin.ext (by
    match a with | ⟨0, _⟩ => rfl | ⟨1, _⟩ => rfl)
  have e2 : ∀ k : Fin 256, idx_main_v0 (ridx_main_v1 (ix2 r d) k) = ix2 d k := fun k => funext fun a => Fin.ext (by
    match a with | ⟨0, _⟩ => rfl | ⟨1, _⟩ => rfl)
  have e3 : idx_main_v2 (idx_main_v3 (ix2 r d)) = ix1 d := funext fun a => Fin.ext (by
    match a with | ⟨0, _⟩ => rfl)
  simp only [val_main_v0_apply, e1, e2, e3]
  rfl

/-- `K = other Wkᵀ + bk`, at `(n, d)`. -/
theorem k_at (n : Fin 1024) (d : Fin 256) :
    val_main_v9 (F := Ideal) x1 x5 x6 (ix2 n d) = kRow x1 x5 x6 n d := by
  rw [val_main_v9_apply, val_main_v6_apply, val_main_v8_apply, val_main_v7_apply]
  have e1 : ∀ k : Fin 256, lidx_main_v6 (ix2 n d) k = ix2 n k := fun k => funext fun a => Fin.ext (by
    match a with | ⟨0, _⟩ => rfl | ⟨1, _⟩ => rfl)
  have e2 : ∀ k : Fin 256, idx_main_v5 (ridx_main_v6 (ix2 n d) k) = ix2 d k := fun k => funext fun a => Fin.ext (by
    match a with | ⟨0, _⟩ => rfl | ⟨1, _⟩ => rfl)
  have e3 : idx_main_v7 (idx_main_v8 (ix2 n d)) = ix1 d := funext fun a => Fin.ext (by
    match a with | ⟨0, _⟩ => rfl)
  simp only [val_main_v5_apply, e1, e2, e3]
  rfl

/-- The logits `Q Kᵀ / 16`, at `(r, n)`. -/
theorem logit_at (r : Fin 10000) (n : Fin 1024) :
    val_main_v13 (F := Ideal) x0 x1 x3 x4 x5 x6 (ix2 r n)
      = logitRowR (qRow x0 x3 x4 r) (kRow x1 x5 x6) n := by
  rw [val_main_v13_apply, val_main_v11_apply, val_main_v12_apply, val_main_cst_apply]
  have e1 : ∀ k : Fin 256, lidx_main_v11 (ix2 r n) k = ix2 r k := fun k => funext fun a => Fin.ext (by
    match a with | ⟨0, _⟩ => rfl | ⟨1, _⟩ => rfl)
  have e2 : ∀ k : Fin 256, idx_main_v10 (ridx_main_v11 (ix2 r n) k) = ix2 n k := fun k => funext fun a => Fin.ext (by
    match a with | ⟨0, _⟩ => rfl | ⟨1, _⟩ => rfl)
  simp only [val_main_v10_apply, e1, e2, q_at, k_at, Ideal.hostDivf_def, Ideal.ofBits_def, ofBits_f32_41800000]
  rfl

/-- The row maximum of the logits, taken from `-∞`: the supremum of row `r`. -/
theorem rowmax_at (r : Fin 10000) :
    val_main_v16 (F := Ideal) x0 x1 x3 x4 x5 x6 (ix1 r)
      = Finset.univ.sup (logitRowR (qRow x0 x3 x4 r) (kRow x1 x5 x6)) := by
  rw [val_main_v16_apply, val_main_v15_apply, val_main_cst_1_apply]
  unfold val_main_v14
  rw [hostMax_axis1_of2_ix _ _ _ _ (by exact ofBits_neg_inf_f32) r]
  simp only [logit_at, Ideal.maximumf_def, Ideal.ofBits_def, ofBits_neg_inf_f32, max_bot_left]

/-- The unnormalised softmax weights, at `(r, n)`. -/
theorem exp_at (r : Fin 10000) (n : Fin 1024) :
    val_main_v20 (F := Ideal) x0 x1 x3 x4 x5 x6 (ix2 r n)
      = expRow (logitRowR (qRow x0 x3 x4 r) (kRow x1 x5 x6)) n := by
  rw [val_main_v20_apply, val_main_v19_apply, val_main_v18_apply, val_main_v17_apply, logit_at]
  have e : idx_main_v17 (idx_main_v18 (ix2 r n)) = ix1 r := funext fun a => Fin.ext (by
    match a with | ⟨0, _⟩ => rfl)
  rw [e, rowmax_at]
  rfl

/-- The softmax denominator of row `r`: a sum from `0`. -/
theorem den_at (r : Fin 10000) :
    val_main_v21 (F := Ideal) x0 x1 x3 x4 x5 x6 (ix1 r)
      = ∑ n : Fin 1024, expRow (logitRowR (qRow x0 x3 x4 r) (kRow x1 x5 x6)) n := by
  rw [val_main_v21_apply, val_main_cst_2_apply]
  have e : ∀ k : Fin 1024, idx_main_v21 (ix1 r) k = ix2 r k := fun k => funext fun a => Fin.ext (by
    match a with | ⟨0, _⟩ => rfl | ⟨1, _⟩ => rfl)
  simp only [e, exp_at, Ideal.ofBits_def, Ideal.ofBits_zero_f32, zero_add]

/-- The softmax, at `(r, n)`. -/
theorem soft_at (r : Fin 10000) (n : Fin 1024) :
    val_main_v24 (F := Ideal) x0 x1 x3 x4 x5 x6 (ix2 r n)
      = Ideal.div (expRow (logitRowR (qRow x0 x3 x4 r) (kRow x1 x5 x6)) n)
          (∑ n' : Fin 1024, expRow (logitRowR (qRow x0 x3 x4 r) (kRow x1 x5 x6)) n') := by
  rw [val_main_v24_apply, val_main_v23_apply, val_main_v22_apply, exp_at]
  have e : idx_main_v22 (idx_main_v23 (ix2 r n)) = ix1 r := funext fun a => Fin.ext (by
    match a with | ⟨0, _⟩ => rfl)
  rw [e, den_at]
  rfl

/-- The Gram matrix `fixᵀ fix`, at `(i, j)`. -/
theorem gram_at (i j : Fin 1024) :
    val_main_v26 (F := Ideal) x2 (ix2 i j) = gramFull x2 i j := by
  rw [val_main_v26_apply]
  have e1 : ∀ k : Fin 4096, idx_main_v25 (lidx_main_v26 (ix2 i j) k) = ix2 k i := fun k => funext fun a => Fin.ext (by
    match a with | ⟨0, _⟩ => rfl | ⟨1, _⟩ => rfl)
  have e2 : ∀ k : Fin 4096, ridx_main_v26 (ix2 i j) k = ix2 k j := fun k => funext fun a => Fin.ext (by
    match a with | ⟨0, _⟩ => rfl | ⟨1, _⟩ => rfl)
  simp only [val_main_v25_apply, e1, e2]
  rfl

/-- The column sums of the entrywise square root of the Gram matrix: a sum from `0` over axis 0. -/
theorem colsum_at (j : Fin 1024) :
    val_main_v28 (F := Ideal) x2 (ix1 j) = colSum (gramFull x2) j := by
  rw [val_main_v28_apply, val_main_cst_3_apply]
  have e : ∀ k : Fin 1024, idx_main_v28 (ix1 j) k = ix2 k j := fun k => funext fun a => Fin.ext (by
    match a with | ⟨0, _⟩ => rfl | ⟨1, _⟩ => rfl)
  simp only [e, val_main_v27_apply, gram_at, Ideal.hostUnary_sqrt_def, Ideal.ofBits_def, Ideal.ofBits_zero_f32, zero_add]
  rfl

/-- The square-rooted Gram matrix divided by its column sums, at `(n, j)`. -/
theorem norm_at (n j : Fin 1024) :
    val_main_v31 (F := Ideal) x2 (ix2 n j)
      = Ideal.div (Ideal.sqrt (gramFull x2 n j)) (colSum (gramFull x2) j) := by
  rw [val_main_v31_apply, val_main_v27_apply, val_main_v30_apply, val_main_v29_apply, gram_at]
  have e : idx_main_v29 (idx_main_v30 (ix2 n j)) = ix1 j := funext fun a => Fin.ext (by
    match a with | ⟨0, _⟩ => rfl)
  rw [e, colsum_at]
  rfl

/-- The mixed rows, at `(n, d)`. -/
theorem mix_at (n : Fin 1024) (d : Fin 256) :
    val_main_v32 (F := Ideal) x1 x2 (ix2 n d) = mixR (gramFull x2) (fun j d => x1 (ix2 j d)) n d := by
  rw [val_main_v32_apply]
  have e1 : ∀ k : Fin 1024, lidx_main_v32 (ix2 n d) k = ix2 n k := fun k => funext fun a => Fin.ext (by
    match a with | ⟨0, _⟩ => rfl | ⟨1, _⟩ => rfl)
  have e2 : ∀ k : Fin 1024, ridx_main_v32 (ix2 n d) k = ix2 k d := fun k => funext fun a => Fin.ext (by
    match a with | ⟨0, _⟩ => rfl | ⟨1, _⟩ => rfl)
  simp only [e1, e2, norm_at]
  rfl

/-- The last stage, the softmax times the mixed rows, at `(r, d)`: the result. -/
theorem res_at (r : Fin 10000) (d : Fin 256) :
    val_main_v33 (F := Ideal) x0 x1 x2 x3 x4 x5 x6 (ix2 r d) = ResR x0 x1 x2 x3 x4 x5 x6 (ix2 r d) := by
  rw [val_main_v33_apply]
  have e1 : ∀ k : Fin 1024, lidx_main_v33 (ix2 r d) k = ix2 r k := fun k => funext fun a => Fin.ext (by
    match a with | ⟨0, _⟩ => rfl | ⟨1, _⟩ => rfl)
  have e2 : ∀ k : Fin 1024, ridx_main_v33 (ix2 r d) k = ix2 k d := fun k => funext fun a => Fin.ext (by
    match a with | ⟨0, _⟩ => rfl | ⟨1, _⟩ => rfl)
  simp only [e1, e2, soft_at, mix_at]
  rfl

end Stages

/-! ## The reference's result is `ResR` of the arguments -/

/-- The reference's whole run, as one term of the seven arguments, is `ResR` of them. -/
theorem ref_eq (m : (ℓ : Loc nD τ sig) → Buf (Elt Ideal) ℓ) (c : Dev nD) :
    Cert.ReferenceIdeal.Value.res_out0 (F := Ideal) m c
      = Cert.Spec.ResR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  funext i
  obtain ⟨r, d, rfl⟩ : ∃ (r : Fin 10000) (d : Fin 256), i = ix2 r d := ⟨i 0, i 1, eq_ix2 i⟩
  show Cert.ReferenceIdeal.Value.res_main_v33 m c (ix2 r d) = _
  rw [Read.val_main_v33_eq]
  exact res_at _ _ _ _ _ _ _ r d

end Cert.ReferenceIdeal.RefValue

end
-- ==== Proof.SpecAlgebra.lean ====
/-
  The two writings of the result agree under the hypotheses.

  Three independent facts about finite sums over the extended reals, then their assembly:
  * a divisor that is not zero may sit on either factor of a product: x * (y / s) = (x / s) * y;
  * a non-negative real factor moves through a finite sum, whatever (possibly infinite) terms the sum has;
  * when the softmax denominator is a positive real, normalising after the weighted sum equals normalising
    every weight before it.
  The hypotheses enter twice: positivity of the diagonal Gram entries makes every column sum of the
  square-rooted Gram matrix non-zero, and finiteness of all arguments makes every logit a real number, so that
  the softmax denominator is a finite sum of positive reals.
-/
import proofs.«117169_g52209622450808_cont_9to1_m_767_13_alg».proof.Proof.Spec
import Mathlib.Data.EReal.Basic
import Mathlib.Data.EReal.Operations
import Mathlib.Data.EReal.Inv
import Mathlib.Analysis.Real.Sqrt
import Mathlib.Analysis.Complex.Exponential
import Mathlib.Data.Finset.Lattice.Fold
import Mathlib.Algebra.Order.BigOperators.Group.Finset
import Mathlib.Algebra.BigOperators.Group.Finset.Basic

noncomputable section

open scoped BigOperators

namespace Cert.Spec

open Idealize.ShloMosaic Idealize.ShloMosaic.ValueIdx

/-! ## A non-negative real factor moves through a finite sum -/

/-- c * ∑ f = ∑ c * f for 0 ≤ c < ⊤ and arbitrary extended-real terms. -/
private theorem mul_sum_real {ι : Type*} (c : EReal) (h0 : 0 ≤ c) (ht : c ≠ ⊤) (S : Finset ι) (f : ι → EReal) :
    c * ∑ i ∈ S, f i = ∑ i ∈ S, c * f i := by
  classical
  induction S using Finset.induction_on with
  | empty => simp
  | insert a S ha ih =>
    rw [Finset.sum_insert ha, Finset.sum_insert ha, EReal.left_distrib_of_nonneg_of_ne_top h0 ht, ih]

/-- (∑ f) * c = ∑ f * c for 0 ≤ c < ⊤ and arbitrary extended-real terms. -/
private theorem sum_mul_real {ι : Type*} (c : EReal) (h0 : 0 ≤ c) (ht : c ≠ ⊤) (S : Finset ι) (f : ι → EReal) :
    (∑ i ∈ S, f i) * c = ∑ i ∈ S, f i * c := by
  rw [mul_comm, mul_sum_real c h0 ht]
  exact Finset.sum_congr rfl fun i _ => mul_comm _ _

/-! ## Division by a divisor that is not zero -/

private theorem div_of_ne_zero (x : EReal) {s : EReal} (hs : s ≠ 0) : Ideal.div x s = x * s⁻¹ := by
  rw [Ideal.div, if_neg hs]

/-! ## The column sums are not zero -/

/-- A square root is either the junk value ⊥ or non-negative. -/
private theorem sqrt_bot_or_nonneg (x : EReal) : Ideal.sqrt x = ⊥ ∨ 0 ≤ Ideal.sqrt x := by
  induction x using EReal.rec with
  | bot => exact Or.inl rfl
  | top => exact Or.inr (by rw [Ideal.sqrt_top]; exact le_top)
  | coe r =>
    rw [Ideal.sqrt_coe]
    by_cases hr : r < 0
    · exact Or.inl (if_pos hr)
    · rw [if_neg hr]; exact Or.inr (EReal.coe_nonneg.mpr (Real.sqrt_nonneg r))

/-- The square root of a positive extended real is positive. -/
private theorem sqrt_pos_of_pos {x : EReal} (hx : 0 < x) : 0 < Ideal.sqrt x := by
  induction x using EReal.rec with
  | bot => exact absurd hx (not_lt.mpr bot_le)
  | top => rw [Ideal.sqrt_top]; exact hx
  | coe r =>
    have hr : 0 < r := EReal.coe_pos.mp hx
    rw [Ideal.sqrt_coe, if_neg (not_lt.mpr hr.le)]
    exact EReal.coe_pos.mpr (Real.sqrt_pos.mpr hr)

/-- A finite sum of extended reals with a term ⊥ is ⊥. -/
private theorem sum_eq_bot {ι : Type*} (S : Finset ι) (f : ι → EReal) {i : ι} (hi : i ∈ S) (hf : f i = ⊥) :
    ∑ k ∈ S, f k = ⊥ := by
  classical
  rw [← Finset.add_sum_erase S f hi, hf, EReal.bot_add]

/-- A column of square roots whose diagonal entry is the root of a positive number does not sum to zero:
    either some root is ⊥ and so is the sum, or all are non-negative, one is positive, and the sum is positive. -/
private theorem colSum_ne_zero (g : Fin 1024 → Fin 1024 → EReal) (j : Fin 1024) (hj : 0 < g j j) : colSum g j ≠ 0 := by
  classical
  unfold colSum
  by_cases hb : ∃ i, Ideal.sqrt (g i j) = ⊥
  · obtain ⟨i, hi⟩ := hb
    rw [sum_eq_bot Finset.univ (fun i => Ideal.sqrt (g i j)) (Finset.mem_univ i) hi]
    exact EReal.bot_ne_zero
  · have hnn : ∀ i, 0 ≤ Ideal.sqrt (g i j) := fun i =>
      (sqrt_bot_or_nonneg (g i j)).resolve_left fun h => hb ⟨i, h⟩
    have hpos : 0 < ∑ i : Fin 1024, Ideal.sqrt (g i j) := by
      rw [← Finset.add_sum_erase Finset.univ (fun i => Ideal.sqrt (g i j)) (Finset.mem_univ j)]
      exact EReal.add_pos_of_pos_of_nonneg (sqrt_pos_of_pos hj) (Finset.sum_nonneg fun i _ => hnn i)
    exact hpos.ne'

/-! ## Fact 1: the divisor on either factor -/

private theorem mixK_eq_mixR (g : Fin 1024 → Fin 1024 → EReal) (o : Fin 1024 → Fin 256 → EReal)
    (hs : ∀ j, colSum g j ≠ 0) : mixK g o = mixR g o := by
  funext n d
  unfold mixK mixR
  refine Finset.sum_congr rfl fun j _ => ?_
  rw [div_of_ne_zero _ (hs j), div_of_ne_zero _ (hs j), ← mul_assoc, mul_right_comm]

/-! ## Fact 2: the scale 1/16 on the keys or on the sum -/

private theorem c16_nonneg : 0 ≤ c16 := EReal.coe_nonneg.mpr (by norm_num)

private theorem c16_ne_top : c16 ≠ ⊤ := EReal.coe_ne_top _

private theorem logitRowK_eq_logitRowR (q : Fin 256 → EReal) (k : Fin 1024 → Fin 256 → EReal) :
    logitRowK q (fun n d => k n d * c16) = logitRowR q k := by
  funext n
  unfold logitRowK logitRowR
  rw [Ideal.div_coe (by norm_num : (16 : ℝ) ≠ 0)]
  change _ = (∑ d : Fin 256, q d * k n d) * c16
  rw [sum_mul_real c16 c16_nonneg c16_ne_top]
  exact Finset.sum_congr rfl fun d _ => (mul_assoc _ _ _).symm

/-! ## Fact 3: normalising after or before the weighted sum -/

private theorem attnRowK_eq_attnRowR (a : Fin 1024 → EReal) (om : Fin 1024 → Fin 256 → EReal)
    (hσ : ∃ s : ℝ, 0 < s ∧ ∑ n : Fin 1024, expRow a n = (s : EReal)) : attnRowK a om = attnRowR a om := by
  obtain ⟨s, hs, hσ⟩ := hσ
  funext d
  unfold attnRowK attnRowR
  have hne : ((s : ℝ) : EReal) ≠ 0 := fun h => hs.ne' (EReal.coe_eq_zero.mp h)
  have hinv : ((s : ℝ) : EReal)⁻¹ = ((s⁻¹ : ℝ) : EReal) := (EReal.coe_inv s).symm
  rw [hσ, div_of_ne_zero _ hne, one_mul, hinv,
    sum_mul_real _ (EReal.coe_nonneg.mpr (inv_nonneg.mpr hs.le)) (EReal.coe_ne_top _)]
  refine Finset.sum_congr rfl fun n _ => ?_
  rw [div_of_ne_zero _ hne, hinv, mul_right_comm]

/-! ## Real-valuedness, carried as the existence of a real number with the same value -/

private theorem real_of_fin {x : EReal} (h : x ≠ ⊥ ∧ x ≠ ⊤) : ∃ r : ℝ, x = (r : EReal) :=
  ⟨x.toReal, (EReal.coe_toReal h.2 h.1).symm⟩

private theorem real_add {x y : EReal} (hx : ∃ r : ℝ, x = (r : EReal)) (hy : ∃ r : ℝ, y = (r : EReal)) :
    ∃ r : ℝ, x + y = (r : EReal) := by
  obtain ⟨a, rfl⟩ := hx; obtain ⟨b, rfl⟩ := hy; exact ⟨a + b, (EReal.coe_add a b).symm⟩

private theorem real_mul {x y : EReal} (hx : ∃ r : ℝ, x = (r : EReal)) (hy : ∃ r : ℝ, y = (r : EReal)) :
    ∃ r : ℝ, x * y = (r : EReal) := by
  obtain ⟨a, rfl⟩ := hx; obtain ⟨b, rfl⟩ := hy; exact ⟨a * b, (EReal.coe_mul a b).symm⟩

private theorem real_sub {x y : EReal} (hx : ∃ r : ℝ, x = (r : EReal)) (hy : ∃ r : ℝ, y = (r : EReal)) :
    ∃ r : ℝ, x - y = (r : EReal) := by
  obtain ⟨a, rfl⟩ := hx; obtain ⟨b, rfl⟩ := hy; exact ⟨a - b, (EReal.coe_sub a b).symm⟩

private theorem real_sum {ι : Type*} (S : Finset ι) (f : ι → EReal) (hf : ∀ i, ∃ r : ℝ, f i = (r : EReal)) :
    ∃ r : ℝ, ∑ i ∈ S, f i = (r : EReal) := by
  classical
  induction S using Finset.induction_on with
  | empty => exact ⟨0, by simp⟩
  | insert a S ha ih => rw [Finset.sum_insert ha]; exact real_add (hf a) ih

/-- A finite sum of positive reals is a positive real. -/
private theorem posreal_sum {ι : Type*} (S : Finset ι) (hS : S.Nonempty) (f : ι → EReal)
    (hf : ∀ i, ∃ r : ℝ, 0 < r ∧ f i = (r : EReal)) : ∃ r : ℝ, 0 < r ∧ ∑ i ∈ S, f i = (r : EReal) := by
  classical
  choose r hr using hf
  refine ⟨∑ i ∈ S, r i, Finset.sum_pos (fun i _ => (hr i).1) hS, ?_⟩
  have : ∀ T : Finset ι, ∑ i ∈ T, f i = ((∑ i ∈ T, r i : ℝ) : EReal) := by
    intro T
    induction T using Finset.induction_on with
    | empty => simp
    | insert a T ha ih => rw [Finset.sum_insert ha, Finset.sum_insert ha, EReal.coe_add, ih, (hr a).2]
  exact this S

/-- The supremum of finitely many (at least one) reals is one of them, hence real. -/
private theorem real_sup (a : Fin 1024 → EReal) (ha : ∀ n, ∃ r : ℝ, a n = (r : EReal)) :
    ∃ r : ℝ, Finset.univ.sup a = (r : EReal) := by
  obtain ⟨i, _, hi⟩ := Finset.exists_mem_eq_sup Finset.univ (Finset.univ_nonempty (α := Fin 1024)) a
  rw [hi]; exact ha i

/-- With real logits the softmax denominator is a positive real. -/
private theorem sigma_posreal (a : Fin 1024 → EReal) (ha : ∀ n, ∃ r : ℝ, a n = (r : EReal)) :
    ∃ s : ℝ, 0 < s ∧ ∑ n : Fin 1024, expRow a n = (s : EReal) := by
  refine posreal_sum Finset.univ Finset.univ_nonempty (expRow a) fun n => ?_
  obtain ⟨t, ht⟩ := real_sub (ha n) (real_sup a ha)
  exact ⟨Real.exp t, Real.exp_pos t, by unfold expRow; rw [ht, Ideal.exp_coe]⟩

private theorem real_projRow (x : Fin 256 → EReal) (W : Fin 256 → Fin 256 → EReal) (b : Fin 256 → EReal)
    (hx : ∀ k, ∃ r : ℝ, x k = (r : EReal)) (hW : ∀ d k, ∃ r : ℝ, W d k = (r : EReal))
    (hb : ∀ d, ∃ r : ℝ, b d = (r : EReal)) (d : Fin 256) : ∃ r : ℝ, projRow x W b d = (r : EReal) := by
  unfold projRow
  exact real_add (real_sum _ _ fun k => real_mul (hx k) (hW d k)) (hb d)

private theorem real_logitRowR (q : Fin 256 → EReal) (k : Fin 1024 → Fin 256 → EReal)
    (hq : ∀ d, ∃ r : ℝ, q d = (r : EReal)) (hk : ∀ n d, ∃ r : ℝ, k n d = (r : EReal)) (n : Fin 1024) :
    ∃ r : ℝ, logitRowR q k n = (r : EReal) := by
  unfold logitRowR
  rw [Ideal.div_coe (by norm_num : (16 : ℝ) ≠ 0)]
  exact real_mul (real_sum _ _ fun d => real_mul (hq d) (hk n d)) ⟨_, rfl⟩

/-! ## The assembly -/

theorem resK_eq_resR (mainF : (⟨2, ![10000, 256]⟩ : Shape).Idx → EReal) (other : (⟨2, ![1024, 256]⟩ : Shape).Idx → EReal) (fix : (⟨2, ![4096, 1024]⟩ : Shape).Idx → EReal) (Wq : (⟨2, ![256, 256]⟩ : Shape).Idx → EReal) (bq : (⟨1, ![256]⟩ : Shape).Idx → EReal) (Wk : (⟨2, ![256, 256]⟩ : Shape).Idx → EReal) (bk : (⟨1, ![256]⟩ : Shape).Idx → EReal) (h : Hyp mainF other fix Wq bq Wk bk) : ResK mainF other fix Wq bq Wk bk = ResR mainF other fix Wq bq Wk bk := by
  funext i
  have hcol : ∀ j, colSum (gramFull fix) j ≠ 0 := fun j => colSum_ne_zero _ j (h.gram_pos j)
  have hq : ∀ d, ∃ r : ℝ, qRow mainF Wq bq (i 0) d = (r : EReal) := fun d =>
    real_projRow _ _ _ (fun k => real_of_fin (h.main_fin _)) (fun d k => real_of_fin (h.Wq_fin _))
      (fun d => real_of_fin (h.bq_fin _)) d
  have hk : ∀ n d, ∃ r : ℝ, kRow other Wk bk n d = (r : EReal) := fun n d =>
    real_projRow _ _ _ (fun k => real_of_fin (h.other_fin _)) (fun d k => real_of_fin (h.Wk_fin _))
      (fun d => real_of_fin (h.bk_fin _)) d
  have hσ := sigma_posreal _ (real_logitRowR _ _ hq hk)
  show attnRowK (logitRowK (qRow mainF Wq bq (i 0)) (fun n d => kRow other Wk bk n d * c16))
      (mixK (gramFull fix) (fun j d => other (ix2 j d))) (i 1) =
    attnRowR (logitRowR (qRow mainF Wq bq (i 0)) (kRow other Wk bk))
      (mixR (gramFull fix) (fun j d => other (ix2 j d))) (i 1)
  rw [logitRowK_eq_logitRowR, mixK_eq_mixR _ _ hcol, attnRowK_eq_attnRowR _ _ hσ]

end Cert.Spec

end
-- ==== Proof.PreDecode.lean ====
/-
  The printed precondition, read at the ideal float instance (a float is an extended real), says of the seven argument
  arrays: every entry is a real number, and every column of the third array has a positive sum of squares.

  The predicate is a conjunction of eight one-bit words. Seven of them are `all (|x| < +∞)` over one array: a fold by
  `and` that came out 1 met a 1 at every index, a comparison bit that is 1 says `max x (-x) < ⊤`, and an extended real
  whose absolute value lies below `⊤` is neither `⊥` nor `⊤`. The eighth is `all (∑ r, x r j * x r j > 0)` over the
  columns `j`: the host's sum over the row axis read at `j` is `0 + ∑ r, x r j * x r j`, and the comparison bit says
  that `0` lies below it.
-/
import proofs.«117169_g52209622450808_cont_9to1_m_767_13_alg».proof.Proof.Spec
import proofs.«117169_g52209622450808_cont_9to1_m_767_13_alg».proof.Pre_finite_inputs
import proofs.«117169_g52209622450808_cont_9to1_m_767_13_alg».proof.Proof.Gen.Pre_finite_inputs
import proofs.«117169_g52209622450808_cont_9to1_m_767_13_alg».proof.Proof.LibSums
import Idealize.ShloMosaic.Lib.ReduceAll
import Idealize.ShloMosaic.PureOps.Ideal.Laws

noncomputable section

open scoped BigOperators

namespace Cert.PreDecode

open Idealize.ShloMosaic Idealize.ShloMosaic.ValueIdx

/-- The rank-0 shape has one index. -/
instance : Subsingleton Cert.Pre_finite_inputs.S_.Idx := ⟨fun a b => funext fun d => d.elim0⟩

/-! ## One element: the two comparisons, and what `|x| < +∞` says -/

/-- The f32 word of `+∞` is the top extended real. -/
theorem ofBits_inf_f32 : Ideal.ofBits .f32 0x7F800000#32 = ⊤ := by simp [Ideal.ofBits, Ideal.ieee]

/-- The bit of the comparison "less than" is 1 exactly when the order says so. -/
theorem cmp_olt_eq_one (x y : EReal) : Ideal.cmp .olt x y = 1#1 ↔ x < y := by
  unfold Ideal.cmp
  by_cases hxy : x < y <;> simp [hxy]

/-- The bit of the comparison "greater than" is 1 exactly when the order says so. -/
theorem cmp_ogt_eq_one (x y : EReal) : Ideal.cmp .ogt x y = 1#1 ↔ y < x := by
  unfold Ideal.cmp
  by_cases hxy : y < x <;> simp [hxy]

/-- An extended real whose absolute value `max x (-x)` lies below `⊤` is a real: neither `⊥` nor `⊤`. -/
theorem real_of_abs_lt_top (x : EReal) (hx : max x (-x) < ⊤) : x ≠ ⊥ ∧ x ≠ ⊤ := by
  induction x using EReal.rec with
  | bot => simp at hx
  | coe r => exact ⟨EReal.coe_ne_bot r, EReal.coe_ne_top r⟩
  | top => simp at hx

/-! ## One conjunct `all (|x| < +∞)`, for an array of any shape -/

/-- If the fold by `and` of the bits `|x i| < +∞` into a one-index result is 1, every entry of `x` is a real. -/
theorem all_real {s t u : Shape} {axes : List (Fin s.rank)} [Subsingleton t.Idx] (x : FVec Ideal s .f32)
    (bc : Cert.Pre_finite_inputs.S_.BroadcastsInDim s (![] : Fin 0 → Fin s.rank))
    (init : u.Idx → BitVec 1) (h' : s.ReducesTo axes t) (hu : 0 < u.numel) (j : t.Idx)
    (e : Host.reduce IntOp.andi
        (cmpf .olt (Host.absf x) (broadcastInDim s ![] bc (constant Cert.Pre_finite_inputs.S_ .f32 0x7F800000#32)))
        init h' hu j = 1#1) (i : s.Idx) : x i ≠ ⊥ ∧ x i ≠ ⊤ := by
  have h1 := Host.reduce_andi_all _ init h' hu j e i
  have h2 : Ideal.cmp .olt (max (x i) (-(x i))) (Ideal.ofBits .f32 0x7F800000#32) = 1#1 := h1
  rw [ofBits_inf_f32, cmp_olt_eq_one] at h2
  exact real_of_abs_lt_top _ h2

/-! ## The sum over the row axis of a matrix, read at a column -/

/-- The host's sum over axis 0 of an `n0 × n1` array at the column index `j`: the initial value plus the sum over the
    rows `r` of the operand at `(r, j)`. -/
theorem hostSum_axis0_of2 {n0 n1 : Nat} {u : Shape} (x : FVec Ideal ⟨2, ![n0, n1]⟩ .f32) (init : u.Idx → Ideal .f32)
    (h' : Shape.ReducesTo ⟨2, ![n0, n1]⟩ [0] ⟨1, ![n1]⟩) (hu : 0 < u.numel) (j : (⟨1, ![n1]⟩ : Shape).Idx) :
    Host.reduceAdd x init h' hu j = init (Shape.Idx.first hu) + ∑ r : Fin n0, x (ix2 r (j 0)) := by
  rw [LibSums.hostReduceAdd_apply]
  refine LibSums.hostReduceAdd_of_lift h' x _ j (fun r => ix2 r (j 0)) (fun i => i 0) ?_ (fun _ => rfl) ?_
  · intro r; funext b
    match b with
    | ⟨0, _⟩ => rfl
  · intro i hi; subst hi; funext a
    match a with
    | ⟨0, _⟩ => rfl
    | ⟨1, _⟩ => rfl

/-! ## The conjunct `all (∑ r, x r j * x r j > 0)` -/

/-- If the fold by `and` over the columns of the bits `∑ r, x r j * x r j > 0` is 1, every column of `x` has a positive
    sum of squares. -/
theorem all_gram_pos {n0 n1 : Nat} {t u : Shape} {axes : List (Fin 1)} [Subsingleton t.Idx]
    (x : FVec Ideal ⟨2, ![n0, n1]⟩ .f32)
    (h' : Shape.ReducesTo ⟨2, ![n0, n1]⟩ [0] ⟨1, ![n1]⟩) (hS : 0 < Cert.Pre_finite_inputs.S_.numel)
    (bc : Cert.Pre_finite_inputs.S_.BroadcastsInDim ⟨1, ![n1]⟩ (![] : Fin 0 → Fin 1))
    (init : u.Idx → BitVec 1) (h'' : Shape.ReducesTo ⟨1, ![n1]⟩ axes t) (hu : 0 < u.numel) (k : t.Idx)
    (e : Host.reduce IntOp.andi
        (cmpf .ogt (Host.reduceAdd (mulf x x) (constant Cert.Pre_finite_inputs.S_ .f32 0x00000000#32) h' hS)
          (broadcastInDim ⟨1, ![n1]⟩ ![] bc (constant Cert.Pre_finite_inputs.S_ .f32 0x00000000#32)))
        init h'' hu k = 1#1) (j : Fin n1) : 0 < ∑ r : Fin n0, x (ix2 r j) * x (ix2 r j) := by
  have h1 := Host.reduce_andi_all _ init h'' hu k e (ix1 j)
  have h2 : Ideal.cmp .ogt
      (Host.reduceAdd (mulf x x) (constant Cert.Pre_finite_inputs.S_ .f32 0x00000000#32) h' hS (ix1 j))
      (Ideal.ofBits .f32 0x00000000#32) = 1#1 := h1
  rw [cmp_ogt_eq_one, hostSum_axis0_of2, constant_apply, Ideal.ofBits_zero_f32] at h2
  have h3 : (0 : EReal) < 0 + ∑ r : Fin n0, x (ix2 r j) * x (ix2 r j) := h2
  rwa [LibSums.zero_add_ereal] at h3

/-! ## The whole predicate -/

/-- A conjunction of two one-bit scalars that is 1 has both conjuncts 1. -/
theorem andi_ix0 (A B : IVec Cert.Pre_finite_inputs.S_ 1) (e : andi A B ix0 = 1#1) : A ix0 = 1#1 ∧ B ix0 = 1#1 :=
  IntOp.andi_eq_one.1 e

/-- The printed precondition at the ideal instance gives the hypotheses under which the two writings of the result
    agree: the predicate's value at its one index is the conjunction of eight bits, seven of the form
    `all (|x| < +∞)` and one `all (∑ r, x r j * x r j > 0)`, each read back by the lemma for its form. -/
theorem hyp_of_pre [Cert.Pre_finite_inputs.Facts] (a0 : FVec Ideal Cert.Pre_finite_inputs.S10000x256 .f32) (a1 : FVec Ideal Cert.Pre_finite_inputs.S1024x256 .f32) (a2 : FVec Ideal Cert.Pre_finite_inputs.S4096x1024 .f32) (a3 : FVec Ideal Cert.Pre_finite_inputs.S256x256 .f32) (a4 : FVec Ideal Cert.Pre_finite_inputs.S256 .f32) (a5 : FVec Ideal Cert.Pre_finite_inputs.S256x256 .f32) (a6 : FVec Ideal Cert.Pre_finite_inputs.S256 .f32)
    (h : Cert.Pre_finite_inputs.fn (F := Ideal) a0 a1 a2 a3 a4 a5 a6 = fun _ => 1#1) : Cert.Spec.Hyp a0 a1 a2 a3 a4 a5 a6 := by
  have h0 := congrFun h ix0
  dsimp only [Cert.Pre_finite_inputs.fn, Cert.Pre_finite_inputs.fn_part1, Cert.Pre_finite_inputs.fn_part2] at h0
  obtain ⟨h0, h8⟩ := andi_ix0 _ _ h0
  obtain ⟨h0, h7⟩ := andi_ix0 _ _ h0
  obtain ⟨h0, h6⟩ := andi_ix0 _ _ h0
  obtain ⟨h0, h5⟩ := andi_ix0 _ _ h0
  obtain ⟨h0, h4⟩ := andi_ix0 _ _ h0
  obtain ⟨h0, h3⟩ := andi_ix0 _ _ h0
  obtain ⟨h1, h2⟩ := andi_ix0 _ _ h0
  exact
    { main_fin := all_real a0 _ _ _ _ ix0 h1
      other_fin := all_real a1 _ _ _ _ ix0 h2
      fix_fin := all_real a2 _ _ _ _ ix0 h3
      Wq_fin := all_real a3 _ _ _ _ ix0 h4
      bq_fin := all_real a4 _ _ _ _ ix0 h5
      Wk_fin := all_real a5 _ _ _ _ ix0 h6
      bk_fin := all_real a6 _ _ _ _ ix0 h7
      gram_pos := all_gram_pos a2 _ _ _ _ _ _ ix0 h8 }

end Cert.PreDecode

end
-- ==== Proof.lean ====
/-
  The certificate's claim.

  Both programs compute, from `main` (10000 × 256), `other` (1024 × 256), `fix` (4096 × 1024) and two projections with
  biases, the array `softmax((main Wqᵀ + bq)(other Wkᵀ + bk)ᵀ / 16) · N(fix) · other`, where `N(fix)` is the entrywise
  square root of the Gram matrix `fixᵀ fix` with every column divided by its sum. The kernel computes it in nine steps of
  one call: four accumulate the Gram matrix chunk by chunk, the fourth also forms `N(fix) · other` (dividing the rows of
  `other`, not the columns of the square root) and the keys already scaled by 1/16; five compute blocks of 2000 result
  rows, normalising the softmax after the weighted sum. The reference is the plain formula.

  Over the extended reals the two agree when every input entry is a real number and no column of `fix` is zero: the
  second condition is what keeps the reference's own division by a column sum away from 0/0, and it is stated in the
  precondition as "every column's sum of squares is positive". Then: the column-sum divisor may sit on either factor
  (`(a / s) · b = a · (b / s)` for `s ≠ 0`); the factor 1/16, a non-negative real, moves through the sum over 256
  products; the softmax denominator is a positive real, so its reciprocal moves through the sum over 1024 terms whatever
  those terms are.

  The frames: each kernel program is run point by point, the Gram accumulator, the mixed rows and the scaled keys
  carried in scratch between points; the reference's frame is its run with the result dropped.
-/
import proofs.«117169_g52209622450808_cont_9to1_m_767_13_alg».proof.Defs
import proofs.«117169_g52209622450808_cont_9to1_m_767_13_alg».proof.Proof.Gen.Kernel
import proofs.«117169_g52209622450808_cont_9to1_m_767_13_alg».proof.Proof.Gen.KernelIdeal
import proofs.«117169_g52209622450808_cont_9to1_m_767_13_alg».proof.Proof.Gen.ReferenceIdeal
import proofs.«117169_g52209622450808_cont_9to1_m_767_13_alg».proof.Proof.Gen.ReferenceIdeal.Run
import proofs.«117169_g52209622450808_cont_9to1_m_767_13_alg».proof.Proof.Gen.ReferenceIdeal.Read
import proofs.«117169_g52209622450808_cont_9to1_m_767_13_alg».proof.Proof.Gen.Pre_finite_inputs
import proofs.«117169_g52209622450808_cont_9to1_m_767_13_alg».proof.Proof.BitsBodyFrame
import proofs.«117169_g52209622450808_cont_9to1_m_767_13_alg».proof.Proof.KernelValue
import proofs.«117169_g52209622450808_cont_9to1_m_767_13_alg».proof.Proof.RefValue
import proofs.«117169_g52209622450808_cont_9to1_m_767_13_alg».proof.Proof.SpecAlgebra
import proofs.«117169_g52209622450808_cont_9to1_m_767_13_alg».proof.Proof.PreDecode
import Idealize.ShloMosaic.Adequacy
import Idealize.ShloMosaic.Init

noncomputable section

namespace Cert.Proof

open Idealize.ShloMosaic Idealize.SL.Sem

/-- The word-level kernel program runs to the end without a fault and leaves its arguments as they were. -/
theorem frame_k : Cert.frame_Kernel := fun m ρ _ => Cert.Kernel.Body.frame m ρ

/-- So does the idealized kernel program. -/
theorem frame_ki : Cert.frame_KernelIdeal := fun m ρ _ => Cert.KernelIdeal.Body.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the seven arguments and satisfy the precondition, the kernel's result array ends at the
    blocked writing of the result and the reference's at the plain one; under the precondition the two are equal. -/
theorem algebraic : Cert.algebraic_KernelIdeal_ReferenceIdeal := by
  intro m ρ m' ρ' hpre hagree
  refine ⟨fun c => Cert.Spec.ResK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.RefValue.ref_eq m' c).trans ?_
  obtain ⟨e0, e1, e2, e3, e4, e5, e6⟩ := hagree c
  rw [e0, e1, e2, e3, e4, e5, e6]
  exact (Cert.Spec.resK_eq_resR _ _ _ _ _ _ _ (Cert.PreDecode.hyp_of_pre _ _ _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
